-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S128x128 : Shape := ⟨2, ![128, 128]⟩
abbrev S128 : Shape := ⟨1, ![128]⟩
abbrev S128x1 : Shape := ⟨2, ![128, 1]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩
abbrev S1 : Shape := ⟨1, ![1]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S1x1, .f32⟩
  | .local _ .vmem, ⟨4, _⟩ => ⟨S1x1, .f32⟩
  | .local _ .vmem, ⟨5, _⟩ => ⟨S128x128, .f32⟩
  | .local _ .vmem, ⟨6, _⟩ => ⟨S128x128, .f32⟩
  | .local _ .vmem, ⟨7, _⟩ => ⟨S8192x128, .f32⟩
  | .local _ .vmem, ⟨8, _⟩ => ⟨S1x1, .f32⟩
  | .local _ .vmem, ⟨9, _⟩ => ⟨S1x1, .f32⟩
  | .local _ .vmem, ⟨10, _⟩ => ⟨S128x128, .f32⟩
  | .local _ .vmem, ⟨11, _⟩ => ⟨S128x128, .f32⟩
  | .local _ .vmem, ⟨12, _⟩ => ⟨S8192x128, .f32⟩
  | .local _ .vmem, ⟨13, _⟩ => ⟨S1x1, .f32⟩
  | .local _ .vmem, ⟨14, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_14 : BitVec 32 := 0#32
  let v35 : BitVec 1 := Scalar.cmpi .ne v34 c0_i32_14
  v35

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![64], ![false]⟩

def k2_cond2 (i : grid2.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_14 : BitVec 32 := 0#32
  let v35 : BitVec 1 := Scalar.cmpi .ne v34 c0_i32_14
  v35

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  reduces_S128x128_S128 : S128x128.Reduces [1] S128
  shapeCasts_S128_S128x1 : S128.ShapeCasts S128x1
  reduces_S8192x128_S8192 : S8192x128.Reduces [1] S8192
  shapeCasts_S8192_S8192x1 : S8192.ShapeCasts S8192x1
  transposes_S8192x1_p1_0_S1x8192 : S8192x1.Transposes [1, 0] S1x8192
  bitsLt_bf16_f32 : FTy.bits .bf16 < FTy.bits .f32
  broadcasts_S128x1_S128x8192 : S128x1.Broadcasts S128x8192
  broadcasts_S1x8192_S128x8192 : S1x8192.Broadcasts S128x8192
  reduces_S128x8192_S128 : S128x8192.Reduces [1] S128
  reduces_S128x1_S1 : S128x1.Reduces [0] S1
  shapeCasts_S1_S1x1 : S1.ShapeCasts S1x1
  shapeCasts_S1x1_S_ : S1x1.ShapeCasts S_
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S8192x128.size a
  hwx1_0 : ∀ i : grid1.Coords, EltTy.bits .f32 = 32 ∨ (Rect.block (s := S8192x128) S128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S8192x128.size a
  hwx2_0 : ∀ i : grid2.Coords, EltTy.bits .f32 = 32 ∨ (Rect.block (s := S8192x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S128x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x128, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S128x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x128, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x128, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S128x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_14 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.R0Scoped.lean ====
/-
  Region 0: the region invariant with the call's one-word accumulator singled out. Between grid points the body may use
  the core's scoped buffers that are no staging buffer of this call — its own accumulator and the other two calls'
  buffers — and the generator register; only the accumulator is ever touched.
-/
import proofs.«104465_j59356448031516_1_alg».proof.Proof.Gen.Kernel.Launch
import proofs.«104465_j59356448031516_1_alg».proof.Proof.Gen.Kernel.Skeleton
import proofs.«104465_j59356448031516_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a one-word scratch buffer of the call's own. -/
abbrev scM0 : Memref sig .tc .vmem S1x1 .f32 := Memref.whole cc0_scratch0

/-- The scoped buffers of the other two calls, each at some contents: they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant splits into the accumulator at some contents, the other calls' scoped buffers and the generator
    register, -/
theorem PhiA0_in (c : Dev nD) : (Pipeline.ΦA spec0 c : sProp 𝕄) ⊢ iprop(iprop((∃ d, owns (c : Thread nD τ) scM0 fullShare d) ∗ others0 c) ∗ (∃ r, prngReg c r)) := by
  unfold Pipeline.ΦA others0; rw [scopedRest0_eq]; simp only [scM0, owns_whole]
  iintro ⟨⟨HS, H1, H2, H3, H4, H5, H6, H7, H8, H9, H10⟩, Hg⟩
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- and is put together again from them: -/
theorem PhiA0_out (c : Dev nD) : iprop(iprop((∃ d, owns (c : Thread nD τ) scM0 fullShare d) ∗ others0 c) ∗ (∃ r, prngReg c r)) ⊢ (Pipeline.ΦA spec0 c : sProp 𝕄) := by
  unfold Pipeline.ΦA others0; rw [scopedRest0_eq]; simp only [scM0, owns_whole]
  iintro ⟨⟨HS, H1, H2, H3, H4, H5, H6, H7, H8, H9, H10⟩, Hg⟩
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- the two are one assertion. -/
theorem PhiA0_eq (c : Dev nD) : (Pipeline.ΦA spec0 c : sProp 𝕄) = iprop(iprop((∃ d, owns (c : Thread nD τ) scM0 fullShare d) ∗ others0 c) ∗ (∃ r, prngReg c r)) :=
  BI.equiv_iff.mp ⟨PhiA0_in c, PhiA0_out c⟩

end Cert.Kernel.Hand

end
-- ==== Proof.K.R0Runs.lean ====
/-
  Region 0 (one call of the pairwise-kernel sum): what the three control cases of its body share. The body branches twice on the grid position: at the first
  point it clears the one-word accumulator it keeps in scratch, and at the last point it copies the accumulator
  into the output block. Over the 64 points that makes three cases: the first point (A), the points in between (B),
  the last point (C). Here: the two conditions in closed form, where the output window is idle, and the memrefs the
  body is called with.
-/
import proofs.«104465_j59356448031516_1_alg».proof.Proof.K.R0Scoped

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last grid point". -/
abbrev cond0_1 (i : grid0.Coords) : Prop := k0_cond2 i = 1#1
/-- It holds at point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it does. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- Its view, and one staging buffer of the output window: contents are stated through them. -/
abbrev VS0 : View sig .tc .vmem S1x1 .f32 := scM0.view
abbrev VO0 : View sig .tc .vmem S1x1 .f32 := (Memref.whole cc0_stg2_0 : Memref sig .tc .vmem S1x1 .f32).view

end Cert.Kernel.Hand

end
-- ==== Proof.K.R0RunA.lean ====
/-
  Region 0, the body at the first grid point (case A): the accumulator is cleared, then one tile's sum is added to it;
  nothing is stored into the output block. The body is run symbolically on whole memrefs; what the stores leave in
  the accumulator is recorded as the list of pieces the run itself produces.
-/
import proofs.«104465_j59356448031516_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: the inputs at their contents, the output block handed back untouched, the accumulator found at
    anything and left with the run's pieces written. -/
noncomputable def kernelRun0_A (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__rbf_sum_kernel i arg1 harg1 arg2 harg2 arg3 harg3 arg4 harg4) K } := by
  refine ⟨?_, fun xi2 E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunB.lean ====
/-
  Region 0, the body at a grid point that is neither the first nor the last (case B): one tile's sum is added to the
  accumulator, which is found at what the point before left; nothing is stored into the output block.
-/
import proofs.«104465_j59356448031516_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In between: the inputs at their contents, the output block handed back untouched, the accumulator found at `xs0` and left
    with the run's pieces written. -/
noncomputable def kernelRun0_B (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__rbf_sum_kernel i arg1 harg1 arg2 harg2 arg3 harg3 arg4 harg4) K } := by
  refine ⟨?_, fun xi2 E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0RunC.lean ====
/-
  Region 0, the body at the last grid point (case C): one tile's sum is added to the accumulator, and the accumulator is
  then copied into the output block.
-/
import proofs.«104465_j59356448031516_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the inputs at their contents, the accumulator found at `xs0`; the accumulator and the output block are
    left with the run's pieces written. -/
noncomputable def kernelRun0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__rbf_sum_kernel i arg1 harg1 arg2 harg2 arg3 harg3 arg4 harg4) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R0Frame.lean ====
/-
  Region 0: what the accumulator and the output block hold after every grid point, the region's proof data, and the
  body's obligation at every point.

  The accumulator after point `n` is what the point's case leaves in it: at the first point from nothing, at every later
  point from what the point before left. The output block is stored at the last point only, with the accumulator's
  final contents. The invariant between two points holds the accumulator at those contents (before the first point, at
  anything), the other calls' scoped buffers and the generator register.
-/
import proofs.«104465_j59356448031516_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, and the shares at which the input arrays are held.
variable (V : (c : Dev nD) → (b : Ref sig .tc) → Buf (Elt F) ((c : Thread nD τ).loc b)) (q : Fin 3 → PosShare TreeShare)

/-! ## Which case a point is in -/

theorem N0_eq : cfg0.N = 64 := N_0
theorem is_first0 (t : Fin cfg0.N) (h : t.val = 0) : cond0_0 (grid0.coords t) := (hcond0_0 t).mpr (by rw [h])
theorem not_first0 (t : Fin cfg0.N) (h : t.val ≠ 0) : ¬cond0_0 (grid0.coords t) := fun hc => by
  have h1 := (hcond0_0 t).mp hc; have hN := lt_of_lt_of_eq t.isLt N0_eq; omega
theorem is_last0 (t : Fin cfg0.N) (h : t.val = 63) : cond0_1 (grid0.coords t) := (hcond0_1 t).mpr (by rw [h])
theorem not_last0 (t : Fin cfg0.N) (h : t.val ≠ 63) : ¬cond0_1 (grid0.coords t) := fun hc => by
  have h1 := (hcond0_1 t).mp hc; have hN := lt_of_lt_of_eq t.isLt N0_eq; omega

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first point's stores cover the accumulator. -/
theorem scover0_A (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) (y : S1x1.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1x1.size (by sl_kernel_rfl) y
/-- What the first point leaves in the accumulator. -/
def sout0_A (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) : Vec F S1x1 .f32 :=
  VS0.read (Elt F) (VS0.writes (Elt F) VS0.junk (kernelRun0_A c i arg1 harg1 arg2 harg2 arg3 harg3 arg4 harg4 hc0 hc1 x0 x1).1)

/-- A middle point's stores cover the accumulator. -/
theorem scover0_B (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) (y : S1x1.Idx) :
    ∃ pc ∈ (kernelRun0_B c i arg1 harg1 arg2 harg2 arg3 harg3 arg4 harg4 hc0 hc1 x0 x1 xs0).1, y ∈ pc.1.set :=
  View.cover_of_tiledL (kernelRun0_B c i arg1 harg1 arg2 harg2 arg3 harg3 arg4 harg4 hc0 hc1 x0 x1 xs0).1 S1x1.size (by sl_kernel_rfl) y
/-- What a middle point leaves in the accumulator, over what the point before left. -/
def sout0_B (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) : Vec F S1x1 .f32 :=
  VS0.read (Elt F) (VS0.writes (Elt F) VS0.junk (kernelRun0_B c i arg1 harg1 arg2 harg2 arg3 harg3 arg4 harg4 hc0 hc1 x0 x1 xs0).1)

/-- The last point's store covers the output block, -/
theorem cover0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- and this is what it leaves there. -/
def out0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) : Vec F S1x1 .f32 :=
  VO0.read (Elt F) (VO0.writes (Elt F) VO0.junk (kernelRun0_C c i arg1 harg1 arg2 harg2 arg3 harg3 arg4 harg4 hc0 hc1 x0 x1 xs0).1)
/-- Its stores cover the accumulator, -/
theorem scover0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- and this is what it leaves there. -/
def sout0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) : Vec F S1x1 .f32 :=
  VS0.read (Elt F) (VS0.writes (Elt F) VS0.junk (kernelRun0_C c i arg1 harg1 arg2 harg2 arg3 harg3 arg4 harg4 hc0 hc1 x0 x1 xs0).2.1)

/-! ## The contents after each point -/

/-- What the output block (first component; it is stored at the last point only, and its value elsewhere is a
    placeholder nothing reads) and the accumulator (second component) hold after the body at point `n`. -/
def outsAt0 (c : Dev nD) : (n : ℕ) → n < cfg0.N → Vec F S1x1 .f32 × Vec F S1x1 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (is_first0 ⟨0, hn⟩ rfl) (not_last0 ⟨0, hn⟩ (by show (0 : ℕ) ≠ 63; decide)) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (is_first0 ⟨0, hn⟩ rfl) (not_last0 ⟨0, hn⟩ (by show (0 : ℕ) ≠ 63; decide)) (iblk0 V c 0 ⟨0, hn⟩) (iblk0 V c 1 ⟨0, hn⟩))
  | n + 1, hn =>
    if h1 : n + 1 = 63 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (is_last0 ⟨n + 1, hn⟩ h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (is_last0 ⟨n + 1, hn⟩ h1) (iblk0 V c 0 ⟨n + 1, hn⟩) (iblk0 V c 1 ⟨n + 1, hn⟩) (outsAt0 c n (Nat.lt_of_succ_lt hn)).2)
    else
      (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (not_last0 ⟨n + 1, hn⟩ h1) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (not_last0 ⟨n + 1, hn⟩ h1) (iblk0 V c 0 ⟨n + 1, hn⟩) (iblk0 V c 1 ⟨n + 1, hn⟩) (outsAt0 c n (Nat.lt_of_succ_lt hn)).2)

/-- At the first point. -/
theorem outsAt0_A (c : Dev nD) (t : Fin cfg0.N) (h0 : t.val = 0) (h1 : t.val ≠ 63) :
    outsAt0 V c t.val t.isLt =
      (sout0_A c (grid0.coords t) (ms0_0 t) (hs0_0 t) (ms0_1 t) (hs0_1 t) (ms0_2 t) (hs0_2 t) scM0 (Memref.isWhole_whole _) (is_first0 t h0) (not_last0 t h1) (iblk0 V c 0 t) (iblk0 V c 1 t),
       sout0_A c (grid0.coords t) (ms0_0 t) (hs0_0 t) (ms0_1 t) (hs0_1 t) (ms0_2 t) (hs0_2 t) scM0 (Memref.isWhole_whole _) (is_first0 t h0) (not_last0 t h1) (iblk0 V c 0 t) (iblk0 V c 1 t)) := by
  obtain ⟨n, hn⟩ := t
  cases n with
  | zero => rfl
  | succ n => exact absurd h0 (Nat.succ_ne_zero n)

/-- At a middle point, over what the point before left. -/
theorem outsAt0_B (c : Dev nD) (t : Fin cfg0.N) (h0 : t.val ≠ 0) (h1 : t.val ≠ 63) :
    outsAt0 V c t.val t.isLt =
      (sout0_B c (grid0.coords t) (ms0_0 t) (hs0_0 t) (ms0_1 t) (hs0_1 t) (ms0_2 t) (hs0_2 t) scM0 (Memref.isWhole_whole _) (not_first0 t h0) (not_last0 t h1) (iblk0 V c 0 t) (iblk0 V c 1 t) (outsAt0 V c (t.val - 1) (Nat.lt_of_le_of_lt (Nat.sub_le _ _) t.isLt)).2,
       sout0_B c (grid0.coords t) (ms0_0 t) (hs0_0 t) (ms0_1 t) (hs0_1 t) (ms0_2 t) (hs0_2 t) scM0 (Memref.isWhole_whole _) (not_first0 t h0) (not_last0 t h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt0_C (c : Dev nD) (t : Fin cfg0.N) (h0 : t.val ≠ 0) (h1 : t.val = 63) :
    outsAt0 V c t.val t.isLt =
      (out0_C c (grid0.coords t) (ms0_0 t) (hs0_0 t) (ms0_1 t) (hs0_1 t) (ms0_2 t) (hs0_2 t) scM0 (Memref.isWhole_whole _) (not_first0 t h0) (is_last0 t h1) (iblk0 V c 0 t) (iblk0 V c 1 t) (outsAt0 V c (t.val - 1) (Nat.lt_of_le_of_lt (Nat.sub_le _ _) t.isLt)).2,
       sout0_C c (grid0.coords t) (ms0_0 t) (hs0_0 t) (ms0_1 t) (hs0_1 t) (ms0_2 t) (hs0_2 t) scM0 (Memref.isWhole_whole _) (not_first0 t h0) (is_last0 t h1) (iblk0 V c 0 t) (iblk0 V c 1 t) (outsAt0 V c (t.val - 1) (Nat.lt_of_le_of_lt (Nat.sub_le _ _) t.isLt)).2) := by
  obtain ⟨n, hn⟩ := t
  cases n with
  | zero => exact absurd h1 (by show ¬((0 : ℕ) = 63); decide)
  | succ n => exact (dif_pos h1).trans rfl

/-! ## The invariant between points -/

/-- Before point `n`: at the start the class invariant (the accumulator at anything); afterwards the accumulator at what
    the point before left, the other calls' scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- Region 0's proof data on core `c`: the arrays as the region finds them; after the body each input's buffer at its
    block and the output's at `outsAt0`; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := q
  owed _ := 0

theorem A_eq0 (c : Dev nD) (w : Fin cfg0.W) : (dat0 V q c).A w = V c (Pipeline.arrRef spec0 w) := by
  dsimp only [dat0]
theorem PhiS0_castSucc (c : Dev nD) (t : Fin cfg0.N) :
    (dat0 V q c).Φ t.castSucc = PhiS0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = (outsAt0 V c t.val t.isLt).1 := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body's obligation -/

def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 4800000 in
/-- The body at any point: the inputs' buffers hold their blocks, the point is in one of the three cases, and that case's
    run applies; the invariant hands over the accumulator at what the point before left and takes it back at this point's
    contents. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = PhiS0 V c (t.val + 1) t.isLt from rfl, PhiS0_succ]
  have hN : t.val < 64 := lt_of_lt_of_eq t.isLt N0_eq
  rw [show (dat0 V q c).leavesExact 0 t = owns (c : Thread nD τ) (ms0_0 t) fullShare ((dat0 V q c).after 0 t) from by
    unfold Dat.leavesExact; rw [liveAt0_0 t], after0_0]
  rw [show (dat0 V q c).leavesExact 1 t = owns (c : Thread nD τ) (ms0_1 t) fullShare ((dat0 V q c).after 1 t) from by
    unfold Dat.leavesExact; rw [liveAt0_1 t], after0_1]
  by_cases h0 : t.val = 0
  · have h1 : t.val ≠ 63 := by omega
    rw [Dat.leavesExact_idle (dat0 V q c) 2 t (idleAt0_2 t (not_last0 t h1)) (noFlush0_2 t (not_last0 t h1))]
    rw [outsAt0_A V c t h0 h1]
    unfold sout0_A; (try dsimp only)
    rw [PhiS0_castSucc V q c t, PhiS0_zero V c _ _ h0, PhiA0_eq]
    iintro ⟨⟨⟨HS0, Hoth⟩, Hg⟩, Ho, ⟨%d0, H0⟩, ⟨%d1, H1⟩, ⟨%d2, H2⟩⟩
    iapply ((kernelRun0_A c (grid0.coords t) _ _ _ _ _ _ _ _ (is_first0 t h0) (not_last0 t h1) (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 63
    · rw [show (dat0 V q c).leavesExact 2 t = owns (c : Thread nD τ) (ms0_2 t) fullShare ((dat0 V q c).after 2 t) from by
        unfold Dat.leavesExact; rw [liveAt0_2 t (is_last0 t h1)], after0_2]
      rw [outsAt0_C V c t h0 h1]
      unfold out0_C sout0_C; (try dsimp only)
      rw [PhiS0_castSucc V q c t, PhiS0_pos V c _ _ h0]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (not_first0 t h0) (is_last0 t h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V q c) 2 t (idleAt0_2 t (not_last0 t h1)) (noFlush0_2 t (not_last0 t h1))]
      rw [outsAt0_B V c t h0 h1]
      unfold sout0_B; (try dsimp only)
      rw [PhiS0_castSucc V q c t, PhiS0_pos V c _ _ h0]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (not_first0 t h0) (not_last0 t h1) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V q c) (defs₀ (F := F)) Variants.none () Set.univ := fun t => by
  rw [bigSep_W0, bigSep_W0]
  exact sound_body0 V q c t

/-! ## The invariant at the region's two ends -/

/-- What the region is entered with is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have := N0_eq; omega), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.K.R1Scoped.lean ====
/-
  Region 1: the region invariant with the call's one-word accumulator singled out. Between grid points the body may use
  the core's scoped buffers that are no staging buffer of this call — its own accumulator and the other two calls'
  buffers — and the generator register; only the accumulator is ever touched.
-/
import proofs.«104465_j59356448031516_1_alg».proof.Proof.Gen.Kernel.Launch
import proofs.«104465_j59356448031516_1_alg».proof.Proof.Gen.Kernel.Skeleton
import proofs.«104465_j59356448031516_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a one-word scratch buffer of the call's own. -/
abbrev scM1 : Memref sig .tc .vmem S1x1 .f32 := Memref.whole cc1_scratch0

/-- The scoped buffers of the other two calls, each at some contents: they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant splits into the accumulator at some contents, the other calls' scoped buffers and the generator
    register, -/
theorem PhiA1_in (c : Dev nD) : (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨H0, H1, H2, H3, H4, HS, H6, H7, H8, H9, H10⟩, Hg⟩
  isplitr [Hg]
  swap; · iexact Hg
  isplitl [HS]; · iexact HS
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  iexact H10

/-- and is put together again from them: -/
theorem PhiA1_out (c : Dev nD) : iprop(iprop((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, H0, H1, H2, H3, H4, H6, H7, H8, H9, H10⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [HS]; · iexact HS
  isplitl [H6]; · iexact H6
  isplitl [H7]; · iexact H7
  isplitl [H8]; · iexact H8
  isplitl [H9]; · iexact H9
  iexact H10

/-- the two are one assertion. -/
theorem PhiA1_eq (c : Dev nD) : (Pipeline.ΦA spec1 c : sProp 𝕄) = iprop(iprop((∃ d, owns (c : Thread nD τ) scM1 fullShare d) ∗ others1 c) ∗ (∃ r, prngReg c r)) :=
  BI.equiv_iff.mp ⟨PhiA1_in c, PhiA1_out c⟩

end Cert.Kernel.Hand

end
-- ==== Proof.K.R1Runs.lean ====
/-
  Region 1 (one call of the pairwise-kernel sum): what the three control cases of its body share. The body branches twice on the grid position: at the first
  point it clears the one-word accumulator it keeps in scratch, and at the last point it copies the accumulator
  into the output block. Over the 64 points that makes three cases: the first point (A), the points in between (B),
  the last point (C). Here: the two conditions in closed form, where the output window is idle, and the memrefs the
  body is called with.
-/
import proofs.«104465_j59356448031516_1_alg».proof.Proof.K.R1Scoped

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first grid point", as the body computes it from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 64 = 0 :=
  (by decide +kernel : ∀ t : Fin grid1.N, cond1_0 (grid1.coords t) ↔ t.val % 64 = 0)

/-- "This is the last grid point". -/
abbrev cond1_1 (i : grid1.Coords) : Prop := k1_cond2 i = 1#1
/-- It holds at point 63 only. -/
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the body stores nothing into the output block, and the block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it does. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- Its view, and one staging buffer of the output window: contents are stated through them. -/
abbrev VS1 : View sig .tc .vmem S1x1 .f32 := scM1.view
abbrev VO1 : View sig .tc .vmem S1x1 .f32 := (Memref.whole cc1_stg2_0 : Memref sig .tc .vmem S1x1 .f32).view

end Cert.Kernel.Hand

end
-- ==== Proof.K.R1RunA.lean ====
/-
  Region 1, the body at the first grid point (case A): the accumulator is cleared, then one tile's sum is added to it;
  nothing is stored into the output block. The body is run symbolically on whole memrefs; what the stores leave in
  the accumulator is recorded as the list of pieces the run itself produces.
-/
import proofs.«104465_j59356448031516_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: the inputs at their contents, the output block handed back untouched, the accumulator found at
    anything and left with the run's pieces written. -/
noncomputable def kernelRun1_A (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__rbf_sum_kernel i arg1 harg1 arg2 harg2 arg3 harg3 arg4 harg4) K } := by
  refine ⟨?_, fun xi2 E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R1RunB.lean ====
/-
  Region 1, the body at a grid point that is neither the first nor the last (case B): one tile's sum is added to the
  accumulator, which is found at what the point before left; nothing is stored into the output block.
-/
import proofs.«104465_j59356448031516_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In between: the inputs at their contents, the output block handed back untouched, the accumulator found at `xs0` and left
    with the run's pieces written. -/
noncomputable def kernelRun1_B (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__rbf_sum_kernel i arg1 harg1 arg2 harg2 arg3 harg3 arg4 harg4) K } := by
  refine ⟨?_, fun xi2 E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R1RunC.lean ====
/-
  Region 1, the body at the last grid point (case C): one tile's sum is added to the accumulator, and the accumulator is
  then copied into the output block.
-/
import proofs.«104465_j59356448031516_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the inputs at their contents, the accumulator found at `xs0`; the accumulator and the output block are
    left with the run's pieces written. -/
noncomputable def kernelRun1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__rbf_sum_kernel i arg1 harg1 arg2 harg2 arg3 harg3 arg4 harg4) K } := by
  refine ⟨?_, ?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R1Frame.lean ====
/-
  Region 1: what the accumulator and the output block hold after every grid point, the region's proof data, and the
  body's obligation at every point.

  The accumulator after point `n` is what the point's case leaves in it: at the first point from nothing, at every later
  point from what the point before left. The output block is stored at the last point only, with the accumulator's
  final contents. The invariant between two points holds the accumulator at those contents (before the first point, at
  anything), the other calls' scoped buffers and the generator register.
-/
import proofs.«104465_j59356448031516_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, and the shares at which the input arrays are held.
variable (V : (c : Dev nD) → (b : Ref sig .tc) → Buf (Elt F) ((c : Thread nD τ).loc b)) (q : Fin 3 → PosShare TreeShare)

/-! ## Which case a point is in -/

theorem N1_eq : cfg1.N = 64 := N_1
theorem is_first1 (t : Fin cfg1.N) (h : t.val = 0) : cond1_0 (grid1.coords t) := (hcond1_0 t).mpr (by rw [h])
theorem not_first1 (t : Fin cfg1.N) (h : t.val ≠ 0) : ¬cond1_0 (grid1.coords t) := fun hc => by
  have h1 := (hcond1_0 t).mp hc; have hN := lt_of_lt_of_eq t.isLt N1_eq; omega
theorem is_last1 (t : Fin cfg1.N) (h : t.val = 63) : cond1_1 (grid1.coords t) := (hcond1_1 t).mpr (by rw [h])
theorem not_last1 (t : Fin cfg1.N) (h : t.val ≠ 63) : ¬cond1_1 (grid1.coords t) := fun hc => by
  have h1 := (hcond1_1 t).mp hc; have hN := lt_of_lt_of_eq t.isLt N1_eq; omega

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first point's stores cover the accumulator. -/
theorem scover1_A (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) (y : S1x1.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x1.size (by sl_kernel_rfl) y
/-- What the first point leaves in the accumulator. -/
def sout1_A (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) : Vec F S1x1 .f32 :=
  VS1.read (Elt F) (VS1.writes (Elt F) VS1.junk (kernelRun1_A c i arg1 harg1 arg2 harg2 arg3 harg3 arg4 harg4 hc0 hc1 x0 x1).1)

/-- A middle point's stores cover the accumulator. -/
theorem scover1_B (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) (y : S1x1.Idx) :
    ∃ pc ∈ (kernelRun1_B c i arg1 harg1 arg2 harg2 arg3 harg3 arg4 harg4 hc0 hc1 x0 x1 xs0).1, y ∈ pc.1.set :=
  View.cover_of_tiledL (kernelRun1_B c i arg1 harg1 arg2 harg2 arg3 harg3 arg4 harg4 hc0 hc1 x0 x1 xs0).1 S1x1.size (by sl_kernel_rfl) y
/-- What a middle point leaves in the accumulator, over what the point before left. -/
def sout1_B (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) : Vec F S1x1 .f32 :=
  VS1.read (Elt F) (VS1.writes (Elt F) VS1.junk (kernelRun1_B c i arg1 harg1 arg2 harg2 arg3 harg3 arg4 harg4 hc0 hc1 x0 x1 xs0).1)

/-- The last point's store covers the output block, -/
theorem cover1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y
/-- and this is what it leaves there. -/
def out1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) : Vec F S1x1 .f32 :=
  VO1.read (Elt F) (VO1.writes (Elt F) VO1.junk (kernelRun1_C c i arg1 harg1 arg2 harg2 arg3 harg3 arg4 harg4 hc0 hc1 x0 x1 xs0).1)
/-- Its stores cover the accumulator, -/
theorem scover1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y
/-- and this is what it leaves there. -/
def sout1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) : Vec F S1x1 .f32 :=
  VS1.read (Elt F) (VS1.writes (Elt F) VS1.junk (kernelRun1_C c i arg1 harg1 arg2 harg2 arg3 harg3 arg4 harg4 hc0 hc1 x0 x1 xs0).2.1)

/-! ## The contents after each point -/

/-- What the output block (first component; it is stored at the last point only, and its value elsewhere is a
    placeholder nothing reads) and the accumulator (second component) hold after the body at point `n`. -/
def outsAt1 (c : Dev nD) : (n : ℕ) → n < cfg1.N → Vec F S1x1 .f32 × Vec F S1x1 .f32
  | 0, hn =>
    (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (is_first1 ⟨0, hn⟩ rfl) (not_last1 ⟨0, hn⟩ (by show (0 : ℕ) ≠ 63; decide)) (iblk1 V c 0 ⟨0, hn⟩) (iblk1 V c 1 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (is_first1 ⟨0, hn⟩ rfl) (not_last1 ⟨0, hn⟩ (by show (0 : ℕ) ≠ 63; decide)) (iblk1 V c 0 ⟨0, hn⟩) (iblk1 V c 1 ⟨0, hn⟩))
  | n + 1, hn =>
    if h1 : n + 1 = 63 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (is_last1 ⟨n + 1, hn⟩ h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (is_last1 ⟨n + 1, hn⟩ h1) (iblk1 V c 0 ⟨n + 1, hn⟩) (iblk1 V c 1 ⟨n + 1, hn⟩) (outsAt1 c n (Nat.lt_of_succ_lt hn)).2)
    else
      (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (not_last1 ⟨n + 1, hn⟩ h1) (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (not_last1 ⟨n + 1, hn⟩ h1) (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (h0 : t.val = 0) (h1 : t.val ≠ 63) :
    outsAt1 V c t.val t.isLt =
      (sout1_A c (grid1.coords t) (ms1_0 t) (hs1_0 t) (ms1_1 t) (hs1_1 t) (ms1_2 t) (hs1_2 t) scM1 (Memref.isWhole_whole _) (is_first1 t h0) (not_last1 t h1) (iblk1 V c 0 t) (iblk1 V c 1 t),
       sout1_A c (grid1.coords t) (ms1_0 t) (hs1_0 t) (ms1_1 t) (hs1_1 t) (ms1_2 t) (hs1_2 t) scM1 (Memref.isWhole_whole _) (is_first1 t h0) (not_last1 t h1) (iblk1 V c 0 t) (iblk1 V c 1 t)) := by
  obtain ⟨n, hn⟩ := t
  cases n with
  | zero => rfl
  | succ n => exact absurd h0 (Nat.succ_ne_zero n)

/-- At a middle point, over what the point before left. -/
theorem outsAt1_B (c : Dev nD) (t : Fin cfg1.N) (h0 : t.val ≠ 0) (h1 : t.val ≠ 63) :
    outsAt1 V c t.val t.isLt =
      (sout1_B c (grid1.coords t) (ms1_0 t) (hs1_0 t) (ms1_1 t) (hs1_1 t) (ms1_2 t) (hs1_2 t) scM1 (Memref.isWhole_whole _) (not_first1 t h0) (not_last1 t h1) (iblk1 V c 0 t) (iblk1 V c 1 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) scM1 (Memref.isWhole_whole _) (not_first1 t h0) (not_last1 t h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt1_C (c : Dev nD) (t : Fin cfg1.N) (h0 : t.val ≠ 0) (h1 : t.val = 63) :
    outsAt1 V c t.val t.isLt =
      (out1_C c (grid1.coords t) (ms1_0 t) (hs1_0 t) (ms1_1 t) (hs1_1 t) (ms1_2 t) (hs1_2 t) scM1 (Memref.isWhole_whole _) (not_first1 t h0) (is_last1 t h1) (iblk1 V c 0 t) (iblk1 V c 1 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) scM1 (Memref.isWhole_whole _) (not_first1 t h0) (is_last1 t h1) (iblk1 V c 0 t) (iblk1 V c 1 t) (outsAt1 V c (t.val - 1) (Nat.lt_of_le_of_lt (Nat.sub_le _ _) t.isLt)).2) := by
  obtain ⟨n, hn⟩ := t
  cases n with
  | zero => exact absurd h1 (by show ¬((0 : ℕ) = 63); decide)
  | succ n => exact (dif_pos h1).trans rfl

/-! ## The invariant between points -/

/-- Before point `n`: at the start the class invariant (the accumulator at anything); afterwards the accumulator at what
    the point before left, the other calls' scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- Region 1's proof data on core `c`: the arrays as the region finds them; after the body each input's buffer at its
    block and the output's at `outsAt1`; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q
  owed _ := 0

theorem A_eq1 (c : Dev nD) (w : Fin cfg1.W) : (dat1 V q c).A w = V c (Pipeline.arrRef spec1 w) := by
  dsimp only [dat1]
theorem PhiS1_castSucc (c : Dev nD) (t : Fin cfg1.N) :
    (dat1 V q c).Φ t.castSucc = PhiS1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = (outsAt1 V c t.val t.isLt).1 := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body's obligation -/

def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 4800000 in
/-- The body at any point: the inputs' buffers hold their blocks, the point is in one of the three cases, and that case's
    run applies; the invariant hands over the accumulator at what the point before left and takes it back at this point's
    contents. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt N1_eq
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  by_cases h0 : t.val = 0
  · have h1 : t.val ≠ 63 := by omega
    rw [Dat.leavesExact_idle (dat1 V q c) 2 t (idleAt1_2 t (not_last1 t h1)) (noFlush1_2 t (not_last1 t h1))]
    rw [outsAt1_A V c t h0 h1]
    unfold sout1_A; (try dsimp only)
    rw [PhiS1_castSucc V q c t, PhiS1_zero V c _ _ h0, PhiA1_eq]
    iintro ⟨⟨⟨HS0, Hoth⟩, Hg⟩, Ho, ⟨%d0, H0⟩, ⟨%d1, H1⟩, ⟨%d2, H2⟩⟩
    iapply ((kernelRun1_A c (grid1.coords t) _ _ _ _ _ _ _ _ (is_first1 t h0) (not_last1 t h1) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 63
    · rw [show (dat1 V q c).leavesExact 2 t = owns (c : Thread nD τ) (ms1_2 t) fullShare ((dat1 V q c).after 2 t) from by
        unfold Dat.leavesExact; rw [liveAt1_2 t (is_last1 t h1)], after1_2]
      rw [outsAt1_C V c t h0 h1]
      unfold out1_C sout1_C; (try dsimp only)
      rw [PhiS1_castSucc V q c t, PhiS1_pos V c _ _ h0]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (not_first1 t h0) (is_last1 t h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V q c) 2 t (idleAt1_2 t (not_last1 t h1)) (noFlush1_2 t (not_last1 t h1))]
      rw [outsAt1_B V c t h0 h1]
      unfold sout1_B; (try dsimp only)
      rw [PhiS1_castSucc V q c t, PhiS1_pos V c _ _ h0]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (not_first1 t h0) (not_last1 t h1) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V q c) (defs₀ (F := F)) Variants.none () Set.univ := fun t => by
  rw [bigSep_W1, bigSep_W1]
  exact sound_body1 V q c t

/-! ## The invariant at the region's two ends -/

/-- What the region is entered with is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have := N1_eq; omega), PhiA1_eq]
  iintro ⟨⟨HS0, Hoth⟩, Hg⟩
  isplitl [HS0 Hoth]
  · isplitl [HS0]
    · iexists _; iexact HS0
    iexact Hoth
  iexact Hg

end Cert.Kernel.Hand

end
-- ==== Proof.K.R2Scoped.lean ====
/-
  Region 2: the region invariant with the call's one-word accumulator singled out. Between grid points the body may use
  the core's scoped buffers that are no staging buffer of this call — its own accumulator and the other two calls'
  buffers — and the generator register; only the accumulator is ever touched.
-/
import proofs.«104465_j59356448031516_1_alg».proof.Proof.Gen.Kernel.Launch
import proofs.«104465_j59356448031516_1_alg».proof.Proof.Gen.Kernel.Skeleton
import proofs.«104465_j59356448031516_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a one-word scratch buffer of the call's own. -/
abbrev scM2 : Memref sig .tc .vmem S1x1 .f32 := Memref.whole cc2_scratch0

/-- The scoped buffers of the other two calls, each at some contents: they ride through this region untouched. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant splits into the accumulator at some contents, the other calls' scoped buffers and the generator
    register, -/
theorem PhiA2_in (c : Dev nD) : (Pipeline.ΦA spec2 c : sProp 𝕄) ⊢ iprop(iprop((∃ d, owns (c : Thread nD τ) scM2 fullShare d) ∗ others2 c) ∗ (∃ r, prngReg c r)) := by
  unfold Pipeline.ΦA others2; rw [scopedRest2_eq]; simp only [scM2, owns_whole]
  iintro ⟨⟨H0, H1, H2, H3, H4, H5, H6, H7, H8, H9, HS⟩, Hg⟩
  isplitr [Hg]
  swap; · iexact Hg
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and is put together again from them: -/
theorem PhiA2_out (c : Dev nD) : iprop(iprop((∃ d, owns (c : Thread nD τ) scM2 fullShare d) ∗ others2 c) ∗ (∃ r, prngReg c r)) ⊢ (Pipeline.ΦA spec2 c : sProp 𝕄) := by
  unfold Pipeline.ΦA others2; rw [scopedRest2_eq]; simp only [scM2, owns_whole]
  iintro ⟨⟨HS, H0, H1, H2, H3, H4, H5, H6, H7, H8, H9⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HS

/-- the two are one assertion. -/
theorem PhiA2_eq (c : Dev nD) : (Pipeline.ΦA spec2 c : sProp 𝕄) = iprop(iprop((∃ d, owns (c : Thread nD τ) scM2 fullShare d) ∗ others2 c) ∗ (∃ r, prngReg c r)) :=
  BI.equiv_iff.mp ⟨PhiA2_in c, PhiA2_out c⟩

end Cert.Kernel.Hand

end
-- ==== Proof.K.R2Runs.lean ====
/-
  Region 2 (one call of the pairwise-kernel sum): what the three control cases of its body share. The body branches twice on the grid position: at the first
  point it clears the one-word accumulator it keeps in scratch, and at the last point it copies the accumulator
  into the output block. Over the 64 points that makes three cases: the first point (A), the points in between (B),
  the last point (C). Here: the two conditions in closed form, where the output window is idle, and the memrefs the
  body is called with.
-/
import proofs.«104465_j59356448031516_1_alg».proof.Proof.K.R2Scoped

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first grid point", as the body computes it from the grid coordinate. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 64 = 0 :=
  (by decide +kernel : ∀ t : Fin grid2.N, cond2_0 (grid2.coords t) ↔ t.val % 64 = 0)

/-- "This is the last grid point". -/
abbrev cond2_1 (i : grid2.Coords) : Prop := k2_cond2 i = 1#1
/-- It holds at point 63 only. -/
theorem hcond2_1 : ∀ t : Fin cfg2.N, cond2_1 (grid2.coords t) ↔ t.val % 64 = 63 :=
  (by decide +kernel : ∀ t : Fin grid2.N, cond2_1 (grid2.coords t) ↔ t.val % 64 = 63)

/-! ## Where the windows are idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the body stores nothing into the output block, and the block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it does. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S128x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- Its view, and one staging buffer of the output window: contents are stated through them. -/
abbrev VS2 : View sig .tc .vmem S1x1 .f32 := scM2.view
abbrev VO2 : View sig .tc .vmem S1x1 .f32 := (Memref.whole cc2_stg2_0 : Memref sig .tc .vmem S1x1 .f32).view

end Cert.Kernel.Hand

end
-- ==== Proof.K.R2RunA.lean ====
/-
  Region 2, the body at the first grid point (case A): the accumulator is cleared, then one tile's sum is added to it;
  nothing is stored into the output block. The body is run symbolically on whole memrefs; what the stores leave in
  the accumulator is recorded as the list of pieces the run itself produces.
-/
import proofs.«104465_j59356448031516_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: the inputs at their contents, the output block handed back untouched, the accumulator found at
    anything and left with the run's pieces written. -/
noncomputable def kernelRun2_A (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__rbf_sum_kernel i arg1 harg1 arg2 harg2 arg3 harg3 arg4 harg4) K } := by
  refine ⟨?_, fun xi2 E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R2RunB.lean ====
/-
  Region 2, the body at a grid point that is neither the first nor the last (case B): one tile's sum is added to the
  accumulator, which is found at what the point before left; nothing is stored into the output block.
-/
import proofs.«104465_j59356448031516_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In between: the inputs at their contents, the output block handed back untouched, the accumulator found at `xs0` and left
    with the run's pieces written. -/
noncomputable def kernelRun2_B (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__rbf_sum_kernel i arg1 harg1 arg2 harg2 arg3 harg3 arg4 harg4) K } := by
  refine ⟨?_, fun xi2 E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R2RunC.lean ====
/-
  Region 2, the body at the last grid point (case C): one tile's sum is added to the accumulator, and the accumulator is
  then copied into the output block.
-/
import proofs.«104465_j59356448031516_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the inputs at their contents, the accumulator found at `xs0`; the accumulator and the output block are
    left with the run's pieces written. -/
noncomputable def kernelRun2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__rbf_sum_kernel i arg1 harg1 arg2 harg2 arg3 harg3 arg4 harg4) K } := by
  refine ⟨?_, ?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.R2Frame.lean ====
/-
  Region 2: what the accumulator and the output block hold after every grid point, the region's proof data, and the
  body's obligation at every point.

  The accumulator after point `n` is what the point's case leaves in it: at the first point from nothing, at every later
  point from what the point before left. The output block is stored at the last point only, with the accumulator's
  final contents. The invariant between two points holds the accumulator at those contents (before the first point, at
  anything), the other calls' scoped buffers and the generator register.
-/
import proofs.«104465_j59356448031516_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, and the shares at which the input arrays are held.
variable (V : (c : Dev nD) → (b : Ref sig .tc) → Buf (Elt F) ((c : Thread nD τ).loc b)) (q : Fin 3 → PosShare TreeShare)

/-! ## Which case a point is in -/

theorem N2_eq : cfg2.N = 64 := N_2
theorem is_first2 (t : Fin cfg2.N) (h : t.val = 0) : cond2_0 (grid2.coords t) := (hcond2_0 t).mpr (by rw [h])
theorem not_first2 (t : Fin cfg2.N) (h : t.val ≠ 0) : ¬cond2_0 (grid2.coords t) := fun hc => by
  have h1 := (hcond2_0 t).mp hc; have hN := lt_of_lt_of_eq t.isLt N2_eq; omega
theorem is_last2 (t : Fin cfg2.N) (h : t.val = 63) : cond2_1 (grid2.coords t) := (hcond2_1 t).mpr (by rw [h])
theorem not_last2 (t : Fin cfg2.N) (h : t.val ≠ 63) : ¬cond2_1 (grid2.coords t) := fun hc => by
  have h1 := (hcond2_1 t).mp hc; have hN := lt_of_lt_of_eq t.isLt N2_eq; omega

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first point's stores cover the accumulator. -/
theorem scover2_A (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) (y : S1x1.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1x1.size (by sl_kernel_rfl) y
/-- What the first point leaves in the accumulator. -/
def sout2_A (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) : Vec F S1x1 .f32 :=
  VS2.read (Elt F) (VS2.writes (Elt F) VS2.junk (kernelRun2_A c i arg1 harg1 arg2 harg2 arg3 harg3 arg4 harg4 hc0 hc1 x0 x1).1)

/-- A middle point's stores cover the accumulator. -/
theorem scover2_B (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) (y : S1x1.Idx) :
    ∃ pc ∈ (kernelRun2_B c i arg1 harg1 arg2 harg2 arg3 harg3 arg4 harg4 hc0 hc1 x0 x1 xs0).1, y ∈ pc.1.set :=
  View.cover_of_tiledL (kernelRun2_B c i arg1 harg1 arg2 harg2 arg3 harg3 arg4 harg4 hc0 hc1 x0 x1 xs0).1 S1x1.size (by sl_kernel_rfl) y
/-- What a middle point leaves in the accumulator, over what the point before left. -/
def sout2_B (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) : Vec F S1x1 .f32 :=
  VS2.read (Elt F) (VS2.writes (Elt F) VS2.junk (kernelRun2_B c i arg1 harg1 arg2 harg2 arg3 harg3 arg4 harg4 hc0 hc1 x0 x1 xs0).1)

/-- The last point's store covers the output block, -/
theorem cover2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- and this is what it leaves there. -/
def out2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) : Vec F S1x1 .f32 :=
  VO2.read (Elt F) (VO2.writes (Elt F) VO2.junk (kernelRun2_C c i arg1 harg1 arg2 harg2 arg3 harg3 arg4 harg4 hc0 hc1 x0 x1 xs0).1)
/-- Its stores cover the accumulator, -/
theorem scover2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
/-- and this is what it leaves there. -/
def sout2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) : Vec F S1x1 .f32 :=
  VS2.read (Elt F) (VS2.writes (Elt F) VS2.junk (kernelRun2_C c i arg1 harg1 arg2 harg2 arg3 harg3 arg4 harg4 hc0 hc1 x0 x1 xs0).2.1)

/-! ## The contents after each point -/

/-- What the output block (first component; it is stored at the last point only, and its value elsewhere is a
    placeholder nothing reads) and the accumulator (second component) hold after the body at point `n`. -/
def outsAt2 (c : Dev nD) : (n : ℕ) → n < cfg2.N → Vec F S1x1 .f32 × Vec F S1x1 .f32
  | 0, hn =>
    (sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (is_first2 ⟨0, hn⟩ rfl) (not_last2 ⟨0, hn⟩ (by show (0 : ℕ) ≠ 63; decide)) (iblk2 V c 0 ⟨0, hn⟩) (iblk2 V c 1 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (is_first2 ⟨0, hn⟩ rfl) (not_last2 ⟨0, hn⟩ (by show (0 : ℕ) ≠ 63; decide)) (iblk2 V c 0 ⟨0, hn⟩) (iblk2 V c 1 ⟨0, hn⟩))
  | n + 1, hn =>
    if h1 : n + 1 = 63 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (is_last2 ⟨n + 1, hn⟩ h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (is_last2 ⟨n + 1, hn⟩ h1) (iblk2 V c 0 ⟨n + 1, hn⟩) (iblk2 V c 1 ⟨n + 1, hn⟩) (outsAt2 c n (Nat.lt_of_succ_lt hn)).2)
    else
      (sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (not_last2 ⟨n + 1, hn⟩ h1) (iblk2 V c 0 ⟨n + 1, hn⟩) (iblk2 V c 1 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (not_last2 ⟨n + 1, hn⟩ h1) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val = 0) (h1 : t.val ≠ 63) :
    outsAt2 V c t.val t.isLt =
      (sout2_A c (grid2.coords t) (ms2_0 t) (hs2_0 t) (ms2_1 t) (hs2_1 t) (ms2_2 t) (hs2_2 t) scM2 (Memref.isWhole_whole _) (is_first2 t h0) (not_last2 t h1) (iblk2 V c 0 t) (iblk2 V c 1 t),
       sout2_A c (grid2.coords t) (ms2_0 t) (hs2_0 t) (ms2_1 t) (hs2_1 t) (ms2_2 t) (hs2_2 t) scM2 (Memref.isWhole_whole _) (is_first2 t h0) (not_last2 t h1) (iblk2 V c 0 t) (iblk2 V c 1 t)) := by
  obtain ⟨n, hn⟩ := t
  cases n with
  | zero => rfl
  | succ n => exact absurd h0 (Nat.succ_ne_zero n)

/-- At a middle point, over what the point before left. -/
theorem outsAt2_B (c : Dev nD) (t : Fin cfg2.N) (h0 : t.val ≠ 0) (h1 : t.val ≠ 63) :
    outsAt2 V c t.val t.isLt =
      (sout2_B c (grid2.coords t) (ms2_0 t) (hs2_0 t) (ms2_1 t) (hs2_1 t) (ms2_2 t) (hs2_2 t) scM2 (Memref.isWhole_whole _) (not_first2 t h0) (not_last2 t h1) (iblk2 V c 0 t) (iblk2 V c 1 t) (outsAt2 V c (t.val - 1) (Nat.lt_of_le_of_lt (Nat.sub_le _ _) t.isLt)).2,
       sout2_B c (grid2.coords t) (ms2_0 t) (hs2_0 t) (ms2_1 t) (hs2_1 t) (ms2_2 t) (hs2_2 t) scM2 (Memref.isWhole_whole _) (not_first2 t h0) (not_last2 t h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt2_C (c : Dev nD) (t : Fin cfg2.N) (h0 : t.val ≠ 0) (h1 : t.val = 63) :
    outsAt2 V c t.val t.isLt =
      (out2_C c (grid2.coords t) (ms2_0 t) (hs2_0 t) (ms2_1 t) (hs2_1 t) (ms2_2 t) (hs2_2 t) scM2 (Memref.isWhole_whole _) (not_first2 t h0) (is_last2 t h1) (iblk2 V c 0 t) (iblk2 V c 1 t) (outsAt2 V c (t.val - 1) (Nat.lt_of_le_of_lt (Nat.sub_le _ _) t.isLt)).2,
       sout2_C c (grid2.coords t) (ms2_0 t) (hs2_0 t) (ms2_1 t) (hs2_1 t) (ms2_2 t) (hs2_2 t) scM2 (Memref.isWhole_whole _) (not_first2 t h0) (is_last2 t h1) (iblk2 V c 0 t) (iblk2 V c 1 t) (outsAt2 V c (t.val - 1) (Nat.lt_of_le_of_lt (Nat.sub_le _ _) t.isLt)).2) := by
  obtain ⟨n, hn⟩ := t
  cases n with
  | zero => exact absurd h1 (by show ¬((0 : ℕ) = 63); decide)
  | succ n => exact (dif_pos h1).trans rfl

/-! ## The invariant between points -/

/-- Before point `n`: at the start the class invariant (the accumulator at anything); afterwards the accumulator at what
    the point before left, the other calls' scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ others2 c) ∗ (∃ r, prngReg c r)) := by
  cases n with
  | zero => exact absurd rfl hz
  | succ n => rfl

/-! ## The proof data -/

/-- Region 2's proof data on core `c`: the arrays as the region finds them; after the body each input's buffer at its
    block and the output's at `outsAt2`; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q := q
  owed _ := 0

theorem A_eq2 (c : Dev nD) (w : Fin cfg2.W) : (dat2 V q c).A w = V c (Pipeline.arrRef spec2 w) := by
  dsimp only [dat2]
theorem PhiS2_castSucc (c : Dev nD) (t : Fin cfg2.N) :
    (dat2 V q c).Φ t.castSucc = PhiS2 V c t.val (Nat.le_of_lt t.isLt) := by
  dsimp only [dat2]; simp only [Fin.coe_castSucc]
theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = (outsAt2 V c t.val t.isLt).1 := by dsimp only [dat2]
theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d

/-! ## The body's obligation -/

def bodyPre2 (c : Dev nD) (t : Fin cfg2.N) : sProp 𝕄 :=
  iprop((dat2 V q c).Φ t.castSucc ∗ (dat2 V q c).owesAt () t.castSucc
    ∗ (∃ d, owns (c : Thread nD τ) (ms2_0 t) fullShare ((dat2 V q c).before 0 t d))
    ∗ (∃ d, owns (c : Thread nD τ) (ms2_1 t) fullShare ((dat2 V q c).before 1 t d))
    ∗ (∃ d, owns (c : Thread nD τ) (ms2_2 t) fullShare ((dat2 V q c).before 2 t d)))

def bodyPost2 (c : Dev nD) (t : Fin cfg2.N) : sProp 𝕄 :=
  iprop((dat2 V q c).Φ t.succ ∗ (dat2 V q c).owesAt () t.succ
    ∗ (dat2 V q c).leavesExact 0 t
    ∗ (dat2 V q c).leavesExact 1 t
    ∗ (dat2 V q c).leavesExact 2 t)

set_option maxHeartbeats 4800000 in
/-- The body at any point: the inputs' buffers hold their blocks, the point is in one of the three cases, and that case's
    run applies; the invariant hands over the accumulator at what the point before left and takes it back at this point's
    contents. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).owesAt () t.succ = (dat2 V q c).owesAt () t.castSucc from rfl]
  rw [show (dat2 V q c).Φ t.succ = PhiS2 V c (t.val + 1) t.isLt from rfl, PhiS2_succ]
  have hN : t.val < 64 := lt_of_lt_of_eq t.isLt N2_eq
  rw [show (dat2 V q c).leavesExact 0 t = owns (c : Thread nD τ) (ms2_0 t) fullShare ((dat2 V q c).after 0 t) from by
    unfold Dat.leavesExact; rw [liveAt2_0 t], after2_0]
  rw [show (dat2 V q c).leavesExact 1 t = owns (c : Thread nD τ) (ms2_1 t) fullShare ((dat2 V q c).after 1 t) from by
    unfold Dat.leavesExact; rw [liveAt2_1 t], after2_1]
  by_cases h0 : t.val = 0
  · have h1 : t.val ≠ 63 := by omega
    rw [Dat.leavesExact_idle (dat2 V q c) 2 t (idleAt2_2 t (not_last2 t h1)) (noFlush2_2 t (not_last2 t h1))]
    rw [outsAt2_A V c t h0 h1]
    unfold sout2_A; (try dsimp only)
    rw [PhiS2_castSucc V q c t, PhiS2_zero V c _ _ h0, PhiA2_eq]
    iintro ⟨⟨⟨HS0, Hoth⟩, Hg⟩, Ho, ⟨%d0, H0⟩, ⟨%d1, H1⟩, ⟨%d2, H2⟩⟩
    iapply ((kernelRun2_A c (grid2.coords t) _ _ _ _ _ _ _ _ (is_first2 t h0) (not_last2 t h1) (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 63
    · rw [show (dat2 V q c).leavesExact 2 t = owns (c : Thread nD τ) (ms2_2 t) fullShare ((dat2 V q c).after 2 t) from by
        unfold Dat.leavesExact; rw [liveAt2_2 t (is_last2 t h1)], after2_2]
      rw [outsAt2_C V c t h0 h1]
      unfold out2_C sout2_C; (try dsimp only)
      rw [PhiS2_castSucc V q c t, PhiS2_pos V c _ _ h0]
      iintro ⟨⟨⟨HS0, Hoth⟩, Hg⟩, Ho, ⟨%d0, H0⟩, ⟨%d1, H1⟩, ⟨%d2, H2⟩⟩
      iapply ((kernelRun2_C c (grid2.coords t) _ _ _ _ _ _ _ _ (not_first2 t h0) (is_last2 t h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V q c) 2 t (idleAt2_2 t (not_last2 t h1)) (noFlush2_2 t (not_last2 t h1))]
      rw [outsAt2_B V c t h0 h1]
      unfold sout2_B; (try dsimp only)
      rw [PhiS2_castSucc V q c t, PhiS2_pos V c _ _ h0]
      iintro ⟨⟨⟨HS0, Hoth⟩, Hg⟩, Ho, ⟨%d0, H0⟩, ⟨%d1, H1⟩, ⟨%d2, H2⟩⟩
      iapply ((kernelRun2_B c (grid2.coords t) _ _ _ _ _ _ _ _ (not_first2 t h0) (not_last2 t h1) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V q c) (defs₀ (F := F)) Variants.none () Set.univ := fun t => by
  rw [bigSep_W2, bigSep_W2]
  exact sound_body2 V q c t

/-! ## The invariant at the region's two ends -/

/-- What the region is entered with is the invariant before the first point. -/
theorem hin2 (c : Dev nD) : Pipeline.ΦA spec2 c ⊢ (dat2 V q c).Φ 0 := by
  rw [show (dat2 V q c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V q c).Φ (Fin.last cfg2.N) ⊢ Pipeline.ΦA spec2 c := by
  rw [show (dat2 V q c).Φ (Fin.last cfg2.N) = PhiS2 V c (Fin.last cfg2.N).val (Nat.le_of_lt_succ (Fin.last cfg2.N).isLt) from rfl,
    PhiS2_pos V c _ _ (by rw [Fin.val_last]; have := N2_eq; omega), PhiA2_eq]
  iintro ⟨⟨HS0, Hoth⟩, Hg⟩
  isplitl [HS0 Hoth]
  · isplitl [HS0]
    · iexists _; iexact HS0
    iexact Hoth
  iexact Hg

end Cert.Kernel.Hand

end
-- ==== Proof.K.Arrays.lean ====
/-
  The regions' arrays at their two ends. A region is entered holding every unscoped buffer of the core whole; the
  pipeline wants each window's array at the window's share. In the first two calls both input windows read ONE array
  (the same argument twice): its buffer is split into two half shares, one per window, and put together again when the
  region is left (both halves hold the argument's contents, which no write-back touches). In the third call the two
  inputs are different arrays, each held whole. The output's one-word array is held whole throughout, and ends at what
  the write-backs leave.
-/
import proofs.«104465_j59356448031516_1_alg».proof.Proof.Gen.Kernel.Launch
import Idealize.ShloMosaic.Lib.Pipeline.Frame
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of a call whose two input windows read one array: a half each (the output's entry is not consulted). -/
abbrev qHalf : Fin 3 → PosShare TreeShare := fun w => match w with
  | ⟨0, _⟩ => fullShare.left
  | ⟨1, _⟩ => fullShare.right
  | ⟨2, _⟩ => fullShare
/-- The shares of a call whose input windows read different arrays. -/
abbrev qFull : Fin 3 → PosShare TreeShare := fun _ => fullShare

/-! ## A full share as two halves -/

/-- A buffer held whole at the full share, beside anything, is its two half shares beside it. -/
theorem halves_sep (ℓ : Loc nD τ sig) (f : Buf (Elt F) ℓ) (P : sProp 𝕄) :
    iprop((ℓ ↦{fullShare} f) ∗ P) ⊣⊢ iprop((ℓ ↦{fullShare.left} f) ∗ (ℓ ↦{fullShare.right} f) ∗ P) := by
  constructor
  · iintro ⟨Ha, HP⟩
    ihave Hs := (pointsTo_share (PosShare.mem_left_op_right fullShare)).1 $$ Ha
    icases Hs with ⟨Hl, Hr⟩
    isplitl [Hl]; · iexact Hl
    isplitl [Hr]; · iexact Hr
    iexact HP
  · iintro ⟨Hl, Hr, HP⟩
    isplitr [HP]
    · iapply (pointsTo_share (PosShare.mem_left_op_right fullShare)).2
      isplitl [Hl] <;> iassumption
    · iexact HP

/-! ## Call 0: both input windows read the first argument -/

theorem arrays_in0 (c : Dev nD) (V : (b : Ref sig .tc) → Buf (Elt F) ((c : Thread nD τ).loc b))
    (dat : Dat τ (Elt F) Unit ℕ (UR sig nD τ) ℕ cfg0 c) (hq : dat.q = qHalf) (hA : ∀ w, dat.A w = V (Pipeline.arrRef spec0 w)) :
    (unscopedBufs c V : sProp 𝕄) ⊢ iprop(dat.arrays (dat.arrAt · 0) ∗ Pipeline.unscopedRest spec0 c V) := by
  classical
  have himg : Finset.univ.image (Pipeline.arrRef spec0) = {main_arg0, main_v0} := by decide
  have hne : main_arg0 ∉ ({main_v0} : Finset (Ref sig .tc)) := by decide
  have hs0 : dat.share 0 = fullShare.left := by
    show (if (cfg0.win 0).isOut then fullShare else dat.q 0) = _
    rw [hq]; rfl
  have hs1 : dat.share 1 = fullShare.right := by
    show (if (cfg0.win 1).isOut then fullShare else dat.q 1) = _
    rw [hq]; rfl
  have hs2 : dat.share 2 = fullShare := rfl
  rw [Pipeline.unscopedBufs_split₀ (fun _ : Unit => cfg0) () winFacts₀0.arr_unscoped c V]
  refine sep_mono ?_ .rfl
  unfold Pipeline.arrBufs Dat.arrays
  rw [show Finset.univ.image (Pipeline.arrRef (cfg0).spec) = {main_arg0, main_v0} from himg, bigSep_insert hne, bigSep_singleton, bigSep_W0,
    hs0, hs1, hs2, (arr_whole0 0).set_eq_univ, (arr_whole0 2).set_eq_univ]
  beta_reduce
  rw [show dat.arrAt 0 0 = dat.A 0 from rfl, show dat.arrAt 1 0 = dat.A 1 from rfl, show dat.arrAt 2 0 = dat.A 2 from rfl, hA 0, hA 1, hA 2]
  exact (halves_sep _ _ _).1

theorem arrays_out0 (c : Dev nD) (V V' : (b : Ref sig .tc) → Buf (Elt F) ((c : Thread nD τ).loc b))
    (dat : Dat τ (Elt F) Unit ℕ (UR sig nD τ) ℕ cfg0 c) (hq : dat.q = qHalf)
    (hF : ∀ w, dat.arrAt w cfg0.N = V' (Pipeline.arrRef spec0 w))
    (hrest : ∀ b, b ∉ Finset.univ.image (Pipeline.arrRef spec0) → V' b = V b) :
    iprop(dat.arrays (dat.arrAt · cfg0.N) ∗ Pipeline.unscopedRest spec0 c V) ⊢ (unscopedBufs c V' : sProp 𝕄) := by
  classical
  have himg : Finset.univ.image (Pipeline.arrRef spec0) = {main_arg0, main_v0} := by decide
  have hne : main_arg0 ∉ ({main_v0} : Finset (Ref sig .tc)) := by decide
  have hs0 : dat.share 0 = fullShare.left := by
    show (if (cfg0.win 0).isOut then fullShare else dat.q 0) = _
    rw [hq]; rfl
  have hs1 : dat.share 1 = fullShare.right := by
    show (if (cfg0.win 1).isOut then fullShare else dat.q 1) = _
    rw [hq]; rfl
  have hs2 : dat.share 2 = fullShare := rfl
  rw [Pipeline.unscopedBufs_split₀ (fun _ : Unit => cfg0) () winFacts₀0.arr_unscoped c V']
  refine sep_mono ?_ (Entails.of_eq ?_)
  · unfold Pipeline.arrBufs Dat.arrays
    rw [show Finset.univ.image (Pipeline.arrRef (cfg0).spec) = {main_arg0, main_v0} from himg, bigSep_insert hne, bigSep_singleton, bigSep_W0,
      hs0, hs1, hs2, (arr_whole0 0).set_eq_univ, (arr_whole0 2).set_eq_univ]
    beta_reduce
    rw [hF 0, hF 1, hF 2]
    exact (halves_sep _ _ _).2
  · unfold Pipeline.unscopedRest
    exact bigSep_congr fun b hb => by rw [hrest b (Finset.mem_sdiff.mp hb).2]

/-! ## Call 1: both input windows read the second argument -/

theorem arrays_in1 (c : Dev nD) (V : (b : Ref sig .tc) → Buf (Elt F) ((c : Thread nD τ).loc b))
    (dat : Dat τ (Elt F) Unit ℕ (UR sig nD τ) ℕ cfg1 c) (hq : dat.q = qHalf) (hA : ∀ w, dat.A w = V (Pipeline.arrRef spec1 w)) :
    (unscopedBufs c V : sProp 𝕄) ⊢ iprop(dat.arrays (dat.arrAt · 0) ∗ Pipeline.unscopedRest spec1 c V) := by
  classical
  have himg : Finset.univ.image (Pipeline.arrRef spec1) = {main_arg1, main_v1} := by decide
  have hne : main_arg1 ∉ ({main_v1} : Finset (Ref sig .tc)) := by decide
  have hs0 : dat.share 0 = fullShare.left := by
    show (if (cfg1.win 0).isOut then fullShare else dat.q 0) = _
    rw [hq]; rfl
  have hs1 : dat.share 1 = fullShare.right := by
    show (if (cfg1.win 1).isOut then fullShare else dat.q 1) = _
    rw [hq]; rfl
  have hs2 : dat.share 2 = fullShare := rfl
  rw [Pipeline.unscopedBufs_split₀ (fun _ : Unit => cfg1) () winFacts₀1.arr_unscoped c V]
  refine sep_mono ?_ .rfl
  unfold Pipeline.arrBufs Dat.arrays
  rw [show Finset.univ.image (Pipeline.arrRef (cfg1).spec) = {main_arg1, main_v1} from himg, bigSep_insert hne, bigSep_singleton, bigSep_W1,
    hs0, hs1, hs2, (arr_whole1 0).set_eq_univ, (arr_whole1 2).set_eq_univ]
  beta_reduce
  rw [show dat.arrAt 0 0 = dat.A 0 from rfl, show dat.arrAt 1 0 = dat.A 1 from rfl, show dat.arrAt 2 0 = dat.A 2 from rfl, hA 0, hA 1, hA 2]
  exact (halves_sep _ _ _).1

theorem arrays_out1 (c : Dev nD) (V V' : (b : Ref sig .tc) → Buf (Elt F) ((c : Thread nD τ).loc b))
    (dat : Dat τ (Elt F) Unit ℕ (UR sig nD τ) ℕ cfg1 c) (hq : dat.q = qHalf)
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  classical
  have himg : Finset.univ.image (Pipeline.arrRef spec1) = {main_arg1, main_v1} := by decide
  have hne : main_arg1 ∉ ({main_v1} : Finset (Ref sig .tc)) := by decide
  have hs0 : dat.share 0 = fullShare.left := by
    show (if (cfg1.win 0).isOut then fullShare else dat.q 0) = _
    rw [hq]; rfl
  have hs1 : dat.share 1 = fullShare.right := by
    show (if (cfg1.win 1).isOut then fullShare else dat.q 1) = _
    rw [hq]; rfl
  have hs2 : dat.share 2 = fullShare := rfl
  rw [Pipeline.unscopedBufs_split₀ (fun _ : Unit => cfg1) () winFacts₀1.arr_unscoped c V']
  refine sep_mono ?_ (Entails.of_eq ?_)
  · unfold Pipeline.arrBufs Dat.arrays
    rw [show Finset.univ.image (Pipeline.arrRef (cfg1).spec) = {main_arg1, main_v1} from himg, bigSep_insert hne, bigSep_singleton, bigSep_W1,
      hs0, hs1, hs2, (arr_whole1 0).set_eq_univ, (arr_whole1 2).set_eq_univ]
    beta_reduce
    rw [hF 0, hF 1, hF 2]
    exact (halves_sep _ _ _).2
  · unfold Pipeline.unscopedRest
    exact bigSep_congr fun b hb => by rw [hrest b (Finset.mem_sdiff.mp hb).2]

/-! ## Call 2: the input windows read the two arguments -/

theorem arrays_in2 (c : Dev nD) (V : (b : Ref sig .tc) → Buf (Elt F) ((c : Thread nD τ).loc b))
    (dat : Dat τ (Elt F) Unit ℕ (UR sig nD τ) ℕ cfg2 c) (hq : dat.q = qFull) (hA : ∀ w, dat.A w = V (Pipeline.arrRef spec2 w)) :
    (unscopedBufs c V : sProp 𝕄) ⊢ iprop(dat.arrays (dat.arrAt · 0) ∗ Pipeline.unscopedRest spec2 c V) := by
  have hsh : ∀ w, dat.share w = fullShare := fun w => by
    show (if (cfg2.win w).isOut then fullShare else dat.q w) = _
    rw [hq]; exact ite_self _
  rw [Pipeline.unscopedBufs_split (fun _ : Unit => cfg2) () winFacts2.arr_unscoped winFacts2.arr_inj c V]
  refine sep_mono (Entails.of_eq ?_) .rfl
  unfold Dat.arrays
  exact bigSep_congr fun w _ => by
    beta_reduce
    rw [(arr_whole2 w).set_eq_univ, hsh, show dat.arrAt w 0 = dat.A w from rfl, hA]

theorem arrays_out2 (c : Dev nD) (V V' : (b : Ref sig .tc) → Buf (Elt F) ((c : Thread nD τ).loc b))
    (dat : Dat τ (Elt F) Unit ℕ (UR sig nD τ) ℕ cfg2 c) (hq : dat.q = qFull)
    (hF : ∀ w, dat.arrAt w cfg2.N = V' (Pipeline.arrRef spec2 w))
    (hrest : ∀ b, b ∉ Finset.univ.image (Pipeline.arrRef spec2) → V' b = V b) :
    iprop(dat.arrays (dat.arrAt · cfg2.N) ∗ Pipeline.unscopedRest spec2 c V) ⊢ (unscopedBufs c V' : sProp 𝕄) := by
  have hsh : ∀ w, dat.share w = fullShare := fun w => by
    show (if (cfg2.win w).isOut then fullShare else dat.q w) = _
    rw [hq]; exact ite_self _
  rw [Pipeline.unscopedBufs_split (fun _ : Unit => cfg2) () winFacts2.arr_unscoped winFacts2.arr_inj c V']
  refine sep_mono (Entails.of_eq ?_) (Entails.of_eq ?_)
  · unfold Dat.arrays
    exact bigSep_congr fun w _ => by
      beta_reduce
      rw [(arr_whole2 w).set_eq_univ, hsh, hF]
  · unfold Pipeline.unscopedRest
    exact bigSep_congr fun b hb => by rw [hrest b (Finset.mem_sdiff.mp hb).2]

end Cert.Kernel.Hand

end
-- ==== Proof.K.Run.lean ====
/-
  The whole program's run. @main is three kernel regions and then thirteen host operations that turn the three
  one-word sums into the statistic. Each region is entered with every unscoped buffer of the core held at a known
  valuation and left with the call's one-word array updated to what its write-back leaves; the arguments are read by the
  regions and written by nothing. Every weakly fair execution terminates, faults nowhere, and ends with every unscoped
  buffer at the last valuation.
-/
import proofs.«104465_j59356448031516_1_alg».proof.Proof.K.R0Frame
import proofs.«104465_j59356448031516_1_alg».proof.Proof.K.R1Frame
import proofs.«104465_j59356448031516_1_alg».proof.Proof.K.R2Frame
import proofs.«104465_j59356448031516_1_alg».proof.Proof.K.Arrays
import proofs.«104465_j59356448031516_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items of @main -/

/-- At launch. -/
abbrev W0 (c : Dev nD) : Valuation τ sig (Elt F) := fun b => m (c, b)
abbrev Vr0 (c : Dev nD) (b : Ref sig .tc) : Buf (Elt F) ((c : Thread nD τ).loc b) := W0 m c b
/-- What call 0 leaves in its one-word array. -/
def res0 (c : Dev nD) : Buf (Elt F) ((c : Thread nD τ).loc main_v0) := (dat0 (Vr0 m) qHalf c).arrAt 2 cfg0.N
/-- After call 0. -/
abbrev W1 (c : Dev nD) : Valuation τ sig (Elt F) := Function.update (W0 m c) main_v0 (res0 m c)
abbrev Vr1 (c : Dev nD) (b : Ref sig .tc) : Buf (Elt F) ((c : Thread nD τ).loc b) := W1 m c b
/-- What call 1 leaves in its one-word array. -/
def res1 (c : Dev nD) : Buf (Elt F) ((c : Thread nD τ).loc main_v1) := (dat1 (Vr1 m) qHalf c).arrAt 2 cfg1.N
/-- After call 1. -/
abbrev W2 (c : Dev nD) : Valuation τ sig (Elt F) := Function.update (W1 m c) main_v1 (res1 m c)
abbrev Vr2 (c : Dev nD) (b : Ref sig .tc) : Buf (Elt F) ((c : Thread nD τ).loc b) := W2 m c b
/-- What call 2 leaves in its one-word array. -/
def res2 (c : Dev nD) : Buf (Elt F) ((c : Thread nD τ).loc main_v2) := (dat2 (Vr2 m) qFull c).arrAt 2 cfg2.N
/-- After call 2. -/
abbrev W3 (c : Dev nD) : Valuation τ sig (Elt F) := Function.update (W2 m c) main_v2 (res2 m c)
/-- After the host operations: at the return. -/
abbrev W4 (c : Dev nD) : Valuation τ sig (Elt F) := StableHlo.after hostOps3 (W3 m c)

/-! ## The proof data family and what rides beside the buffers -/

/-- Every call's proof data at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) qHalf c
  | ⟨1, _⟩ => fun c => dat1 (Vr1 m) qHalf c
  | ⟨2, _⟩ => fun c => dat2 (Vr2 m) qFull c
abbrev 𝒱₀ : Variants := Variants.none
abbrev L : GSem nD τ sig → Finset Unit := fun _ => ∅
abbrev lv : GSem nD τ sig → Unit → ℕ := fun _ _ => 0
/-- The generator register at some state, and nothing owed. -/
abbrev Rst (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- When call 0 is left its input arrays are as it found them and its one-word array holds what the write-back left; -/
theorem hF0 (c : Dev nD) (w : Fin cfg0.W) : (pdats m 0 c).arrAt w cfg0.N = Vr1 m c (Pipeline.arrRef spec0 w) :=
  match w with
  | ⟨0, _⟩ => ((pdats m 0 c).arrAt_in 0 rfl _).trans
      (Function.update_of_ne (StableHlo.devRef_ne_of_ne (by decide) : (Proc.devRef .tc main_arg0 : DevRef τ sig) ≠ Proc.devRef .tc main_v0) (res0 m c) (W0 m c)).symm
  | ⟨1, _⟩ => ((pdats m 0 c).arrAt_in 1 rfl _).trans
      (Function.update_of_ne (StableHlo.devRef_ne_of_ne (by decide) : (Proc.devRef .tc main_arg0 : DevRef τ sig) ≠ Proc.devRef .tc main_v0) (res0 m c) (W0 m c)).symm
  | ⟨2, _⟩ => (Function.update_self (Proc.devRef .tc main_v0 : DevRef τ sig) _ (W0 m c)).symm
/-- every other buffer is untouched. -/
theorem hrest0 (c : Dev nD) : ∀ b, b ∉ Finset.univ.image (Pipeline.arrRef spec0) → Vr1 m c b = Vr0 m c b := fun b hb =>
  Function.update_of_ne (StableHlo.devRef_ne_of_ne (fun e => hb (e ▸ Finset.mem_image.mpr ⟨2, Finset.mem_univ _, rfl⟩)) :
    (Proc.devRef .tc b : DevRef τ sig) ≠ Proc.devRef .tc main_v0) _ _

set_option backward.isDefEq.respectTransparency.types false in
/-- Call 0 as a segment: entered with every unscoped buffer held at the contents before it, left with them at the contents
    after it; the generator register goes into the region's invariant and comes back; nothing is owed. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr0 m) qHalf c).loose
  hwaits := Pipeline.hwaits_of_owed_zero _ _ _ _ L lv 0 fun _ _ => rfl
  pre c := iprop(StableHlo.held (c : Thread nD τ) (Pipeline.ucRefs τ sig) (W0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := arrays_in0 c (Vr0 m c) (pdats m 0 c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (Vr0 m) qHalf c
    rw [show (pdats m 0 c).Φ 0 = (dat0 (Vr0 m) qHalf c).Φ 0 from rfl]
    unfold Pipeline.ΦA at h
    iintro ⟨Hp, -, Hr⟩
    iapply h
    isplitl [Hr]; · iexact Hr
    iexact Hp
  hout c := by
    have h := hout0 (Vr0 m) qHalf c
    rw [show (pdats m 0 c).Φ (Fin.last _) = (dat0 (Vr0 m) qHalf c).Φ (Fin.last cfg0.N) from rfl]
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := arrays_out0 c (Vr0 m c) (Vr1 m c) (pdats m 0 c) rfl (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- When call 1 is left its input arrays are as it found them and its one-word array holds what the write-back left; -/
theorem hF1 (c : Dev nD) (w : Fin cfg1.W) : (pdats m 1 c).arrAt w cfg1.N = Vr2 m c (Pipeline.arrRef spec1 w) :=
  match w with
  | ⟨0, _⟩ => ((pdats m 1 c).arrAt_in 0 rfl _).trans
      (Function.update_of_ne (StableHlo.devRef_ne_of_ne (by decide) : (Proc.devRef .tc main_arg1 : DevRef τ sig) ≠ Proc.devRef .tc main_v1) (res1 m c) (W1 m c)).symm
  | ⟨1, _⟩ => ((pdats m 1 c).arrAt_in 1 rfl _).trans
      (Function.update_of_ne (StableHlo.devRef_ne_of_ne (by decide) : (Proc.devRef .tc main_arg1 : DevRef τ sig) ≠ Proc.devRef .tc main_v1) (res1 m c) (W1 m c)).symm
  | ⟨2, _⟩ => (Function.update_self (Proc.devRef .tc main_v1 : DevRef τ sig) _ (W1 m c)).symm
/-- every other buffer is untouched. -/
theorem hrest1 (c : Dev nD) : ∀ b, b ∉ Finset.univ.image (Pipeline.arrRef spec1) → Vr2 m c b = Vr1 m c b := fun b hb =>
  Function.update_of_ne (StableHlo.devRef_ne_of_ne (fun e => hb (e ▸ Finset.mem_image.mpr ⟨2, Finset.mem_univ _, rfl⟩)) :
    (Proc.devRef .tc b : DevRef τ sig) ≠ Proc.devRef .tc main_v1) _ _

set_option backward.isDefEq.respectTransparency.types false in
/-- Call 1 as a segment: entered with every unscoped buffer held at the contents before it, left with them at the contents
    after it; the generator register goes into the region's invariant and comes back; nothing is owed. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) qHalf c).loose
  hwaits := Pipeline.hwaits_of_owed_zero _ _ _ _ L lv 1 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := arrays_in1 c (Vr1 m c) (pdats m 1 c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vr1 m) qHalf c
    rw [show (pdats m 1 c).Φ 0 = (dat1 (Vr1 m) qHalf c).Φ 0 from rfl]
    unfold Pipeline.ΦA at h
    iintro ⟨Hp, -, Hr⟩
    iapply h
    isplitl [Hr]; · iexact Hr
    iexact Hp
  hout c := by
    have h := hout1 (Vr1 m) qHalf c
    rw [show (pdats m 1 c).Φ (Fin.last _) = (dat1 (Vr1 m) qHalf c).Φ (Fin.last cfg1.N) from rfl]
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := arrays_out1 c (Vr1 m c) (Vr2 m c) (pdats m 1 c) rfl (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev Vr3 (c : Dev nD) (b : Ref sig .tc) : Buf (Elt F) ((c : Thread nD τ).loc b) := W3 m c b

/-- When call 2 is left its input arrays are as it found them and its one-word array holds what the write-back left; -/
theorem hF2 (c : Dev nD) (w : Fin cfg2.W) : (pdats m 2 c).arrAt w cfg2.N = Vr3 m c (Pipeline.arrRef spec2 w) :=
  match w with
  | ⟨0, _⟩ => ((pdats m 2 c).arrAt_in 0 rfl _).trans
      (Function.update_of_ne (StableHlo.devRef_ne_of_ne (by decide) : (Proc.devRef .tc main_arg0 : DevRef τ sig) ≠ Proc.devRef .tc main_v2) (res2 m c) (W2 m c)).symm
  | ⟨1, _⟩ => ((pdats m 2 c).arrAt_in 1 rfl _).trans
      (Function.update_of_ne (StableHlo.devRef_ne_of_ne (by decide) : (Proc.devRef .tc main_arg1 : DevRef τ sig) ≠ Proc.devRef .tc main_v2) (res2 m c) (W2 m c)).symm
  | ⟨2, _⟩ => (Function.update_self (Proc.devRef .tc main_v2 : DevRef τ sig) _ (W2 m c)).symm
/-- every other buffer is untouched. -/
theorem hrest2 (c : Dev nD) : ∀ b, b ∉ Finset.univ.image (Pipeline.arrRef spec2) → Vr3 m c b = Vr2 m c b := fun b hb =>
  Function.update_of_ne (StableHlo.devRef_ne_of_ne (fun e => hb (e ▸ Finset.mem_image.mpr ⟨2, Finset.mem_univ _, rfl⟩)) :
    (Proc.devRef .tc b : DevRef τ sig) ≠ Proc.devRef .tc main_v2) _ _

set_option backward.isDefEq.respectTransparency.types false in
/-- Call 2 as a segment: entered with every unscoped buffer held at the contents before it, left with them at the contents
    after it; the generator register goes into the region's invariant and comes back; nothing is owed. -/
def reg2 : RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (Vr2 m) qFull c).loose
  hwaits := Pipeline.hwaits_of_owed_zero _ _ _ _ L lv 2 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := arrays_in2 c (Vr2 m c) (pdats m 2 c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vr2 m) qFull c
    rw [show (pdats m 2 c).Φ 0 = (dat2 (Vr2 m) qFull c).Φ 0 from rfl]
    unfold Pipeline.ΦA at h
    iintro ⟨Hp, -, Hr⟩
    iapply h
    isplitl [Hr]; · iexact Hr
    iexact Hp
  hout c := by
    have h := hout2 (Vr2 m) qFull c
    rw [show (pdats m 2 c).Φ (Fin.last _) = (dat2 (Vr2 m) qFull c).Φ (Fin.last cfg2.N) from rfl]
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := arrays_out2 c (Vr2 m c) (Vr3 m c) (pdats m 2 c) rfl (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The thirteen host operations after the regions, as a segment from the contents call 2 leaves. -/
abbrev hseg3 : HostSeg (Name := ℕ) (U := UR sig nD τ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) Rst

/-- @main's four items in order. -/
abbrev segs : List (Seg (pcfgs (F := F)) adm (pdats m) () defs₀ 𝒱₀ L lv) :=
  [ .region (reg0 m), .region (reg1 m), .region (reg2 m), .host (hseg3 m) ]

/-- @main is the run of those items. -/
theorem main_run (c : Dev nD) : main (F := F) c = Seg.run (segs m) := (main_chain c).trans (by chain_rfl)

set_option backward.isDefEq.respectTransparency.types false in
/-- THE RUN: from any memory with zero counters every weakly fair execution of @main terminates, nothing faulting, and
    every final memory holds each unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ Rst c)
        ⊢ iprop(iprop(StableHlo.held (c : Thread nD τ) (Pipeline.ucRefs τ sig) (W4 m c) ∗ ∃ r, prngReg c r)
            ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## What the last valuation holds -/

/-- No item writes an argument: each ends as launched. -/
theorem W4_arg0 (c : Dev nD) : W4 m c (Proc.devRef .tc main_arg0) = m ((c : Thread nD τ).loc main_arg0) :=
  (StableHlo.after_of_writes_sub hostOps3 _ hostOps3_writes (r := main_arg0) (by decide)).trans <|
    (Function.update_of_ne (StableHlo.devRef_ne_of_ne (by decide) : (Proc.devRef .tc main_arg0 : DevRef τ sig) ≠ Proc.devRef .tc main_v2) (res2 m c) (W2 m c)).trans <|
    (Function.update_of_ne (StableHlo.devRef_ne_of_ne (by decide) : (Proc.devRef .tc main_arg0 : DevRef τ sig) ≠ Proc.devRef .tc main_v1) (res1 m c) (W1 m c)).trans <|
    (Function.update_of_ne (StableHlo.devRef_ne_of_ne (by decide) : (Proc.devRef .tc main_arg0 : DevRef τ sig) ≠ Proc.devRef .tc main_v0) (res0 m c) (W0 m c))
theorem W4_arg1 (c : Dev nD) : W4 m c (Proc.devRef .tc main_arg1) = m ((c : Thread nD τ).loc main_arg1) :=
  (StableHlo.after_of_writes_sub hostOps3 _ hostOps3_writes (r := main_arg1) (by decide)).trans <|
    (Function.update_of_ne (StableHlo.devRef_ne_of_ne (by decide) : (Proc.devRef .tc main_arg1 : DevRef τ sig) ≠ Proc.devRef .tc main_v2) (res2 m c) (W2 m c)).trans <|
    (Function.update_of_ne (StableHlo.devRef_ne_of_ne (by decide) : (Proc.devRef .tc main_arg1 : DevRef τ sig) ≠ Proc.devRef .tc main_v1) (res1 m c) (W1 m c)).trans <|
    (Function.update_of_ne (StableHlo.devRef_ne_of_ne (by decide) : (Proc.devRef .tc main_arg1 : DevRef τ sig) ≠ Proc.devRef .tc main_v0) (res0 m c) (W0 m c))

/-- THE FRAME: the program runs to its end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m c), (h c _ (mem_uc main_arg1 (by decide))).trans (W4_arg1 m c)⟩) (run m ρ)

end Cert.Kernel.Hand

end
-- ==== Proof.KI.R0Scoped.lean ====
/-
  Region 0: the region invariant with the call's one-word accumulator singled out. Between grid points the body may use
  the core's scoped buffers that are no staging buffer of this call — its own accumulator and the other two calls'
  buffers — and the generator register; only the accumulator is ever touched.
-/
import proofs.«104465_j59356448031516_1_alg».proof.Proof.Gen.KernelIdeal.Launch
import proofs.«104465_j59356448031516_1_alg».proof.Proof.Gen.KernelIdeal.Skeleton
import proofs.«104465_j59356448031516_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a one-word scratch buffer of the call's own. -/
abbrev scM0 : Memref sig .tc .vmem S1x1 .f32 := Memref.whole cc0_scratch0

/-- The scoped buffers of the other two calls, each at some contents: they ride through this region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant splits into the accumulator at some contents, the other calls' scoped buffers and the generator
    register, -/
theorem PhiA0_in (c : Dev nD) : (Pipeline.ΦA spec0 c : sProp 𝕄) ⊢ iprop(iprop((∃ d, owns (c : Thread nD τ) scM0 fullShare d) ∗ others0 c) ∗ (∃ r, prngReg c r)) := by
  unfold Pipeline.ΦA others0; rw [scopedRest0_eq]; simp only [scM0, owns_whole]
  iintro ⟨⟨HS, H1, H2, H3, H4, H5, H6, H7, H8, H9, H10⟩, Hg⟩
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- and is put together again from them: -/
theorem PhiA0_out (c : Dev nD) : iprop(iprop((∃ d, owns (c : Thread nD τ) scM0 fullShare d) ∗ others0 c) ∗ (∃ r, prngReg c r)) ⊢ (Pipeline.ΦA spec0 c : sProp 𝕄) := by
  unfold Pipeline.ΦA others0; rw [scopedRest0_eq]; simp only [scM0, owns_whole]
  iintro ⟨⟨HS, H1, H2, H3, H4, H5, H6, H7, H8, H9, H10⟩, Hg⟩
  isplitr [Hg]
  swap; · iexact Hg
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- the two are one assertion. -/
theorem PhiA0_eq (c : Dev nD) : (Pipeline.ΦA spec0 c : sProp 𝕄) = iprop(iprop((∃ d, owns (c : Thread nD τ) scM0 fullShare d) ∗ others0 c) ∗ (∃ r, prngReg c r)) :=
  BI.equiv_iff.mp ⟨PhiA0_in c, PhiA0_out c⟩

end Cert.KernelIdeal.Hand

end
-- ==== Proof.KI.R0Runs.lean ====
/-
  Region 0 (one call of the pairwise-kernel sum): what the three control cases of its body share. The body branches twice on the grid position: at the first
  point it clears the one-word accumulator it keeps in scratch, and at the last point it copies the accumulator
  into the output block. Over the 64 points that makes three cases: the first point (A), the points in between (B),
  the last point (C). Here: the two conditions in closed form, where the output window is idle, and the memrefs the
  body is called with.
-/
import proofs.«104465_j59356448031516_1_alg».proof.Proof.KI.R0Scoped

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last grid point". -/
abbrev cond0_1 (i : grid0.Coords) : Prop := k0_cond2 i = 1#1
/-- It holds at point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

/-- The two input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the output block, and the block is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it does. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- Its view, and one staging buffer of the output window: contents are stated through them. -/
abbrev VS0 : View sig .tc .vmem S1x1 .f32 := scM0.view
abbrev VO0 : View sig .tc .vmem S1x1 .f32 := (Memref.whole cc0_stg2_0 : Memref sig .tc .vmem S1x1 .f32).view

end Cert.KernelIdeal.Hand

end
-- ==== Proof.KI.R0RunA.lean ====
/-
  Region 0, the body at the first grid point (case A): the accumulator is cleared, then one tile's sum is added to it;
  nothing is stored into the output block. The body is run symbolically on whole memrefs; what the stores leave in
  the accumulator is recorded as the list of pieces the run itself produces.
-/
import proofs.«104465_j59356448031516_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: the inputs at their contents, the output block handed back untouched, the accumulator found at
    anything and left with the run's pieces written. -/
noncomputable def kernelRun0_A (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__rbf_sum_kernel i arg1 harg1 arg2 harg2 arg3 harg3 arg4 harg4) K } := by
  refine ⟨?_, fun xi2 E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunB.lean ====
/-
  Region 0, the body at a grid point that is neither the first nor the last (case B): one tile's sum is added to the
  accumulator, which is found at what the point before left; nothing is stored into the output block.
-/
import proofs.«104465_j59356448031516_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In between: the inputs at their contents, the output block handed back untouched, the accumulator found at `xs0` and left
    with the run's pieces written. -/
noncomputable def kernelRun0_B (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__rbf_sum_kernel i arg1 harg1 arg2 harg2 arg3 harg3 arg4 harg4) K } := by
  refine ⟨?_, fun xi2 E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0RunC.lean ====
/-
  Region 0, the body at the last grid point (case C): one tile's sum is added to the accumulator, and the accumulator is
  then copied into the output block.
-/
import proofs.«104465_j59356448031516_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the inputs at their contents, the accumulator found at `xs0`; the accumulator and the output block are
    left with the run's pieces written. -/
noncomputable def kernelRun0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__rbf_sum_kernel i arg1 harg1 arg2 harg2 arg3 harg3 arg4 harg4) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R0Frame.lean ====
/-
  Region 0: what the accumulator and the output block hold after every grid point, the region's proof data, and the
  body's obligation at every point.

  The accumulator after point `n` is what the point's case leaves in it: at the first point from nothing, at every later
  point from what the point before left. The output block is stored at the last point only, with the accumulator's
  final contents. The invariant between two points holds the accumulator at those contents (before the first point, at
  anything), the other calls' scoped buffers and the generator register.
-/
import proofs.«104465_j59356448031516_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, and the shares at which the input arrays are held.
variable (V : (c : Dev nD) → (b : Ref sig .tc) → Buf (Elt F) ((c : Thread nD τ).loc b)) (q : Fin 3 → PosShare TreeShare)

/-! ## Which case a point is in -/

theorem N0_eq : cfg0.N = 64 := N_0
theorem is_first0 (t : Fin cfg0.N) (h : t.val = 0) : cond0_0 (grid0.coords t) := (hcond0_0 t).mpr (by rw [h])
theorem not_first0 (t : Fin cfg0.N) (h : t.val ≠ 0) : ¬cond0_0 (grid0.coords t) := fun hc => by
  have h1 := (hcond0_0 t).mp hc; have hN := lt_of_lt_of_eq t.isLt N0_eq; omega
theorem is_last0 (t : Fin cfg0.N) (h : t.val = 63) : cond0_1 (grid0.coords t) := (hcond0_1 t).mpr (by rw [h])
theorem not_last0 (t : Fin cfg0.N) (h : t.val ≠ 63) : ¬cond0_1 (grid0.coords t) := fun hc => by
  have h1 := (hcond0_1 t).mp hc; have hN := lt_of_lt_of_eq t.isLt N0_eq; omega

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first point's stores cover the accumulator. -/
theorem scover0_A (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) (y : S1x1.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1x1.size (by sl_kernel_rfl) y
/-- What the first point leaves in the accumulator. -/
def sout0_A (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) : Vec F S1x1 .f32 :=
  VS0.read (Elt F) (VS0.writes (Elt F) VS0.junk (kernelRun0_A c i arg1 harg1 arg2 harg2 arg3 harg3 arg4 harg4 hc0 hc1 x0 x1).1)

/-- A middle point's stores cover the accumulator. -/
theorem scover0_B (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) (y : S1x1.Idx) :
    ∃ pc ∈ (kernelRun0_B c i arg1 harg1 arg2 harg2 arg3 harg3 arg4 harg4 hc0 hc1 x0 x1 xs0).1, y ∈ pc.1.set :=
  View.cover_of_tiledL (kernelRun0_B c i arg1 harg1 arg2 harg2 arg3 harg3 arg4 harg4 hc0 hc1 x0 x1 xs0).1 S1x1.size (by sl_kernel_rfl) y
/-- What a middle point leaves in the accumulator, over what the point before left. -/
def sout0_B (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) : Vec F S1x1 .f32 :=
  VS0.read (Elt F) (VS0.writes (Elt F) VS0.junk (kernelRun0_B c i arg1 harg1 arg2 harg2 arg3 harg3 arg4 harg4 hc0 hc1 x0 x1 xs0).1)

/-- The last point's store covers the output block, -/
theorem cover0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- and this is what it leaves there. -/
def out0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) : Vec F S1x1 .f32 :=
  VO0.read (Elt F) (VO0.writes (Elt F) VO0.junk (kernelRun0_C c i arg1 harg1 arg2 harg2 arg3 harg3 arg4 harg4 hc0 hc1 x0 x1 xs0).1)
/-- Its stores cover the accumulator, -/
theorem scover0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- and this is what it leaves there. -/
def sout0_C (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) : Vec F S1x1 .f32 :=
  VS0.read (Elt F) (VS0.writes (Elt F) VS0.junk (kernelRun0_C c i arg1 harg1 arg2 harg2 arg3 harg3 arg4 harg4 hc0 hc1 x0 x1 xs0).2.1)

/-! ## The contents after each point -/

/-- What the output block (first component; it is stored at the last point only, and its value elsewhere is a
    placeholder nothing reads) and the accumulator (second component) hold after the body at point `n`. -/
def outsAt0 (c : Dev nD) : (n : ℕ) → n < cfg0.N → Vec F S1x1 .f32 × Vec F S1x1 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (is_first0 ⟨0, hn⟩ rfl) (not_last0 ⟨0, hn⟩ (by show (0 : ℕ) ≠ 63; decide)) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (is_first0 ⟨0, hn⟩ rfl) (not_last0 ⟨0, hn⟩ (by show (0 : ℕ) ≠ 63; decide)) (iblk0 V c 0 ⟨0, hn⟩) (iblk0 V c 1 ⟨0, hn⟩))
  | n + 1, hn =>
    if h1 : n + 1 = 63 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (is_last0 ⟨n + 1, hn⟩ h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (is_last0 ⟨n + 1, hn⟩ h1) (iblk0 V c 0 ⟨n + 1, hn⟩) (iblk0 V c 1 ⟨n + 1, hn⟩) (outsAt0 c n (Nat.lt_of_succ_lt hn)).2)
    else
      (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (not_last0 ⟨n + 1, hn⟩ h1) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (not_first0 ⟨n + 1, hn⟩ (Nat.succ_ne_zero n)) (not_last0 ⟨n + 1, hn⟩ h1) (iblk0 V c 0 ⟨n + 1, hn⟩) (iblk0 V c 1 ⟨n + 1, hn⟩) (outsAt0 c n (Nat.lt_of_succ_lt hn)).2)

/-- At the first point. -/
theorem outsAt0_A (c : Dev nD) (t : Fin cfg0.N) (h0 : t.val = 0) (h1 : t.val ≠ 63) :
    outsAt0 V c t.val t.isLt =
      (sout0_A c (grid0.coords t) (ms0_0 t) (hs0_0 t) (ms0_1 t) (hs0_1 t) (ms0_2 t) (hs0_2 t) scM0 (Memref.isWhole_whole _) (is_first0 t h0) (not_last0 t h1) (iblk0 V c 0 t) (iblk0 V c 1 t),
       sout0_A c (grid0.coords t) (ms0_0 t) (hs0_0 t) (ms0_1 t) (hs0_1 t) (ms0_2 t) (hs0_2 t) scM0 (Memref.isWhole_whole _) (is_first0 t h0) (not_last0 t h1) (iblk0 V c 0 t) (iblk0 V c 1 t)) := by
  obtain ⟨n, hn⟩ := t
  cases n with
  | zero => rfl
  | succ n => exact absurd h0 (Nat.succ_ne_zero n)

/-- At a middle point, over what the point before left. -/
theorem outsAt0_B (c : Dev nD) (t : Fin cfg0.N) (h0 : t.val ≠ 0) (h1 : t.val ≠ 63) :
    outsAt0 V c t.val t.isLt =
      (sout0_B c (grid0.coords t) (ms0_0 t) (hs0_0 t) (ms0_1 t) (hs0_1 t) (ms0_2 t) (hs0_2 t) scM0 (Memref.isWhole_whole _) (not_first0 t h0) (not_last0 t h1) (iblk0 V c 0 t) (iblk0 V c 1 t) (outsAt0 V c (t.val - 1) (Nat.lt_of_le_of_lt (Nat.sub_le _ _) t.isLt)).2,
       sout0_B c (grid0.coords t) (ms0_0 t) (hs0_0 t) (ms0_1 t) (hs0_1 t) (ms0_2 t) (hs0_2 t) scM0 (Memref.isWhole_whole _) (not_first0 t h0) (not_last0 t h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt0_C (c : Dev nD) (t : Fin cfg0.N) (h0 : t.val ≠ 0) (h1 : t.val = 63) :
    outsAt0 V c t.val t.isLt =
      (out0_C c (grid0.coords t) (ms0_0 t) (hs0_0 t) (ms0_1 t) (hs0_1 t) (ms0_2 t) (hs0_2 t) scM0 (Memref.isWhole_whole _) (not_first0 t h0) (is_last0 t h1) (iblk0 V c 0 t) (iblk0 V c 1 t) (outsAt0 V c (t.val - 1) (Nat.lt_of_le_of_lt (Nat.sub_le _ _) t.isLt)).2,
       sout0_C c (grid0.coords t) (ms0_0 t) (hs0_0 t) (ms0_1 t) (hs0_1 t) (ms0_2 t) (hs0_2 t) scM0 (Memref.isWhole_whole _) (not_first0 t h0) (is_last0 t h1) (iblk0 V c 0 t) (iblk0 V c 1 t) (outsAt0 V c (t.val - 1) (Nat.lt_of_le_of_lt (Nat.sub_le _ _) t.isLt)).2) := by
  obtain ⟨n, hn⟩ := t
  cases n with
  | zero => exact absurd h1 (by show ¬((0 : ℕ) = 63); decide)
  | succ n => exact (dif_pos h1).trans rfl

/-! ## The invariant between points -/

/-- Before point `n`: at the start the class invariant (the accumulator at anything); afterwards the accumulator at what
    the point before left, the other calls' scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- Region 0's proof data on core `c`: the arrays as the region finds them; after the body each input's buffer at its
    block and the output's at `outsAt0`; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q := q
  owed _ := 0

theorem A_eq0 (c : Dev nD) (w : Fin cfg0.W) : (dat0 V q c).A w = V c (Pipeline.arrRef spec0 w) := by
  dsimp only [dat0]
theorem PhiS0_castSucc (c : Dev nD) (t : Fin cfg0.N) :
    (dat0 V q c).Φ t.castSucc = PhiS0 V c t.val (Nat.le_of_lt t.isLt) := by
  dsimp only [dat0]; simp only [Fin.coe_castSucc]
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = (outsAt0 V c t.val t.isLt).1 := by dsimp only [dat0]
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d

/-! ## The body's obligation -/

def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d)))

def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 4800000 in
/-- The body at any point: the inputs' buffers hold their blocks, the point is in one of the three cases, and that case's
    run applies; the invariant hands over the accumulator at what the point before left and takes it back at this point's
    contents. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = PhiS0 V c (t.val + 1) t.isLt from rfl, PhiS0_succ]
  have hN : t.val < 64 := lt_of_lt_of_eq t.isLt N0_eq
  rw [show (dat0 V q c).leavesExact 0 t = owns (c : Thread nD τ) (ms0_0 t) fullShare ((dat0 V q c).after 0 t) from by
    unfold Dat.leavesExact; rw [liveAt0_0 t], after0_0]
  rw [show (dat0 V q c).leavesExact 1 t = owns (c : Thread nD τ) (ms0_1 t) fullShare ((dat0 V q c).after 1 t) from by
    unfold Dat.leavesExact; rw [liveAt0_1 t], after0_1]
  by_cases h0 : t.val = 0
  · have h1 : t.val ≠ 63 := by omega
    rw [Dat.leavesExact_idle (dat0 V q c) 2 t (idleAt0_2 t (not_last0 t h1)) (noFlush0_2 t (not_last0 t h1))]
    rw [outsAt0_A V c t h0 h1]
    unfold sout0_A; (try dsimp only)
    rw [PhiS0_castSucc V q c t, PhiS0_zero V c _ _ h0, PhiA0_eq]
    iintro ⟨⟨⟨HS0, Hoth⟩, Hg⟩, Ho, ⟨%d0, H0⟩, ⟨%d1, H1⟩, ⟨%d2, H2⟩⟩
    iapply ((kernelRun0_A c (grid0.coords t) _ _ _ _ _ _ _ _ (is_first0 t h0) (not_last0 t h1) (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 63
    · rw [show (dat0 V q c).leavesExact 2 t = owns (c : Thread nD τ) (ms0_2 t) fullShare ((dat0 V q c).after 2 t) from by
        unfold Dat.leavesExact; rw [liveAt0_2 t (is_last0 t h1)], after0_2]
      rw [outsAt0_C V c t h0 h1]
      unfold out0_C sout0_C; (try dsimp only)
      rw [PhiS0_castSucc V q c t, PhiS0_pos V c _ _ h0]
      iintro ⟨⟨⟨HS0, Hoth⟩, Hg⟩, Ho, ⟨%d0, H0⟩, ⟨%d1, H1⟩, ⟨%d2, H2⟩⟩
      iapply ((kernelRun0_C c (grid0.coords t) _ _ _ _ _ _ _ _ (not_first0 t h0) (is_last0 t h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V q c) 2 t (idleAt0_2 t (not_last0 t h1)) (noFlush0_2 t (not_last0 t h1))]
      rw [outsAt0_B V c t h0 h1]
      unfold sout0_B; (try dsimp only)
      rw [PhiS0_castSucc V q c t, PhiS0_pos V c _ _ h0]
      iintro ⟨⟨⟨HS0, Hoth⟩, Hg⟩, Ho, ⟨%d0, H0⟩, ⟨%d1, H1⟩, ⟨%d2, H2⟩⟩
      iapply ((kernelRun0_B c (grid0.coords t) _ _ _ _ _ _ _ _ (not_first0 t h0) (not_last0 t h1) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation0 (c : Dev nD) : BodyObligation (dat0 (F := F) V q c) (defs₀ (F := F)) Variants.none () Set.univ := fun t => by
  rw [bigSep_W0, bigSep_W0]
  exact sound_body0 V q c t

/-! ## The invariant at the region's two ends -/

/-- What the region is entered with is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have := N0_eq; omega), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.R1Scoped.lean ====
/-
  Region 1: the region invariant with the call's one-word accumulator singled out. Between grid points the body may use
  the core's scoped buffers that are no staging buffer of this call — its own accumulator and the other two calls'
  buffers — and the generator register; only the accumulator is ever touched.
-/
import proofs.«104465_j59356448031516_1_alg».proof.Proof.Gen.KernelIdeal.Launch
import proofs.«104465_j59356448031516_1_alg».proof.Proof.Gen.KernelIdeal.Skeleton
import proofs.«104465_j59356448031516_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a one-word scratch buffer of the call's own. -/
abbrev scM1 : Memref sig .tc .vmem S1x1 .f32 := Memref.whole cc1_scratch0

/-- The scoped buffers of the other two calls, each at some contents: they ride through this region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- The class invariant splits into the accumulator at some contents, the other calls' scoped buffers and the generator
    register, -/
theorem PhiA1_in (c : Dev nD) : (Pipeline.ΦA spec1 c : sProp 𝕄) ⊢ iprop(iprop((∃ d, owns (c : Thread nD τ) scM1 fullShare d) ∗ others1 c) ∗ (∃ r, prngReg c r)) := by
  unfold Pipeline.ΦA others1; rw [scopedRest1_eq]; simp only [scM1, owns_whole]
  iintro ⟨⟨H0, H1, H2, H3, H4, HS, H6, H7, H8, H9, H10⟩, Hg⟩
  isplitr [Hg]
  swap; · iexact Hg
  isplitl [HS]; · iexact HS
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  iexact H10

/-- and is put together again from them: -/
theorem PhiA1_out (c : Dev nD) : iprop(iprop((∃ d, owns (c : Thread nD τ) scM1 fullShare d) ∗ others1 c) ∗ (∃ r, prngReg c r)) ⊢ (Pipeline.ΦA spec1 c : sProp 𝕄) := by
  unfold Pipeline.ΦA others1; rw [scopedRest1_eq]; simp only [scM1, owns_whole]
  iintro ⟨⟨HS, H0, H1, H2, H3, H4, H6, H7, H8, H9, H10⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [HS]; · iexact HS
  isplitl [H6]; · iexact H6
  isplitl [H7]; · iexact H7
  isplitl [H8]; · iexact H8
  isplitl [H9]; · iexact H9
  iexact H10

/-- the two are one assertion. -/
theorem PhiA1_eq (c : Dev nD) : (Pipeline.ΦA spec1 c : sProp 𝕄) = iprop(iprop((∃ d, owns (c : Thread nD τ) scM1 fullShare d) ∗ others1 c) ∗ (∃ r, prngReg c r)) :=
  BI.equiv_iff.mp ⟨PhiA1_in c, PhiA1_out c⟩

end Cert.KernelIdeal.Hand

end
-- ==== Proof.KI.R1Runs.lean ====
/-
  Region 1 (one call of the pairwise-kernel sum): what the three control cases of its body share. The body branches twice on the grid position: at the first
  point it clears the one-word accumulator it keeps in scratch, and at the last point it copies the accumulator
  into the output block. Over the 64 points that makes three cases: the first point (A), the points in between (B),
  the last point (C). Here: the two conditions in closed form, where the output window is idle, and the memrefs the
  body is called with.
-/
import proofs.«104465_j59356448031516_1_alg».proof.Proof.KI.R1Scoped

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first grid point", as the body computes it from the grid coordinate. -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val % 64 = 0 :=
  (by decide +kernel : ∀ t : Fin grid1.N, cond1_0 (grid1.coords t) ↔ t.val % 64 = 0)

/-- "This is the last grid point". -/
abbrev cond1_1 (i : grid1.Coords) : Prop := k1_cond2 i = 1#1
/-- It holds at point 63 only. -/
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the body stores nothing into the output block, and the block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point it does. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- Its view, and one staging buffer of the output window: contents are stated through them. -/
abbrev VS1 : View sig .tc .vmem S1x1 .f32 := scM1.view
abbrev VO1 : View sig .tc .vmem S1x1 .f32 := (Memref.whole cc1_stg2_0 : Memref sig .tc .vmem S1x1 .f32).view

end Cert.KernelIdeal.Hand

end
-- ==== Proof.KI.R1RunA.lean ====
/-
  Region 1, the body at the first grid point (case A): the accumulator is cleared, then one tile's sum is added to it;
  nothing is stored into the output block. The body is run symbolically on whole memrefs; what the stores leave in
  the accumulator is recorded as the list of pieces the run itself produces.
-/
import proofs.«104465_j59356448031516_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: the inputs at their contents, the output block handed back untouched, the accumulator found at
    anything and left with the run's pieces written. -/
noncomputable def kernelRun1_A (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__rbf_sum_kernel i arg1 harg1 arg2 harg2 arg3 harg3 arg4 harg4) K } := by
  refine ⟨?_, fun xi2 E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R1RunB.lean ====
/-
  Region 1, the body at a grid point that is neither the first nor the last (case B): one tile's sum is added to the
  accumulator, which is found at what the point before left; nothing is stored into the output block.
-/
import proofs.«104465_j59356448031516_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In between: the inputs at their contents, the output block handed back untouched, the accumulator found at `xs0` and left
    with the run's pieces written. -/
noncomputable def kernelRun1_B (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__rbf_sum_kernel i arg1 harg1 arg2 harg2 arg3 harg3 arg4 harg4) K } := by
  refine ⟨?_, fun xi2 E K => ?run⟩
  case run =>
    simp only [cc1__rbf_sum_kernel_eq_skeleton]; unfold cc1__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R1RunC.lean ====
/-
  Region 1, the body at the last grid point (case C): one tile's sum is added to the accumulator, and the accumulator is
  then copied into the output block.
-/
import proofs.«104465_j59356448031516_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the inputs at their contents, the accumulator found at `xs0`; the accumulator and the output block are
    left with the run's pieces written. -/
noncomputable def kernelRun1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__rbf_sum_kernel i arg1 harg1 arg2 harg2 arg3 harg3 arg4 harg4) K } := by
  refine ⟨?_, ?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R1Frame.lean ====
/-
  Region 1: what the accumulator and the output block hold after every grid point, the region's proof data, and the
  body's obligation at every point.

  The accumulator after point `n` is what the point's case leaves in it: at the first point from nothing, at every later
  point from what the point before left. The output block is stored at the last point only, with the accumulator's
  final contents. The invariant between two points holds the accumulator at those contents (before the first point, at
  anything), the other calls' scoped buffers and the generator register.
-/
import proofs.«104465_j59356448031516_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, and the shares at which the input arrays are held.
variable (V : (c : Dev nD) → (b : Ref sig .tc) → Buf (Elt F) ((c : Thread nD τ).loc b)) (q : Fin 3 → PosShare TreeShare)

/-! ## Which case a point is in -/

theorem N1_eq : cfg1.N = 64 := N_1
theorem is_first1 (t : Fin cfg1.N) (h : t.val = 0) : cond1_0 (grid1.coords t) := (hcond1_0 t).mpr (by rw [h])
theorem not_first1 (t : Fin cfg1.N) (h : t.val ≠ 0) : ¬cond1_0 (grid1.coords t) := fun hc => by
  have h1 := (hcond1_0 t).mp hc; have hN := lt_of_lt_of_eq t.isLt N1_eq; omega
theorem is_last1 (t : Fin cfg1.N) (h : t.val = 63) : cond1_1 (grid1.coords t) := (hcond1_1 t).mpr (by rw [h])
theorem not_last1 (t : Fin cfg1.N) (h : t.val ≠ 63) : ¬cond1_1 (grid1.coords t) := fun hc => by
  have h1 := (hcond1_1 t).mp hc; have hN := lt_of_lt_of_eq t.isLt N1_eq; omega

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first point's stores cover the accumulator. -/
theorem scover1_A (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) (y : S1x1.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x1.size (by sl_kernel_rfl) y
/-- What the first point leaves in the accumulator. -/
def sout1_A (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) : Vec F S1x1 .f32 :=
  VS1.read (Elt F) (VS1.writes (Elt F) VS1.junk (kernelRun1_A c i arg1 harg1 arg2 harg2 arg3 harg3 arg4 harg4 hc0 hc1 x0 x1).1)

/-- A middle point's stores cover the accumulator. -/
theorem scover1_B (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) (y : S1x1.Idx) :
    ∃ pc ∈ (kernelRun1_B c i arg1 harg1 arg2 harg2 arg3 harg3 arg4 harg4 hc0 hc1 x0 x1 xs0).1, y ∈ pc.1.set :=
  View.cover_of_tiledL (kernelRun1_B c i arg1 harg1 arg2 harg2 arg3 harg3 arg4 harg4 hc0 hc1 x0 x1 xs0).1 S1x1.size (by sl_kernel_rfl) y
/-- What a middle point leaves in the accumulator, over what the point before left. -/
def sout1_B (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) : Vec F S1x1 .f32 :=
  VS1.read (Elt F) (VS1.writes (Elt F) VS1.junk (kernelRun1_B c i arg1 harg1 arg2 harg2 arg3 harg3 arg4 harg4 hc0 hc1 x0 x1 xs0).1)

/-- The last point's store covers the output block, -/
theorem cover1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y
/-- and this is what it leaves there. -/
def out1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) : Vec F S1x1 .f32 :=
  VO1.read (Elt F) (VO1.writes (Elt F) VO1.junk (kernelRun1_C c i arg1 harg1 arg2 harg2 arg3 harg3 arg4 harg4 hc0 hc1 x0 x1 xs0).1)
/-- Its stores cover the accumulator, -/
theorem scover1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y
/-- and this is what it leaves there. -/
def sout1_C (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) : Vec F S1x1 .f32 :=
  VS1.read (Elt F) (VS1.writes (Elt F) VS1.junk (kernelRun1_C c i arg1 harg1 arg2 harg2 arg3 harg3 arg4 harg4 hc0 hc1 x0 x1 xs0).2.1)

/-! ## The contents after each point -/

/-- What the output block (first component; it is stored at the last point only, and its value elsewhere is a
    placeholder nothing reads) and the accumulator (second component) hold after the body at point `n`. -/
def outsAt1 (c : Dev nD) : (n : ℕ) → n < cfg1.N → Vec F S1x1 .f32 × Vec F S1x1 .f32
  | 0, hn =>
    (sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (is_first1 ⟨0, hn⟩ rfl) (not_last1 ⟨0, hn⟩ (by show (0 : ℕ) ≠ 63; decide)) (iblk1 V c 0 ⟨0, hn⟩) (iblk1 V c 1 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (is_first1 ⟨0, hn⟩ rfl) (not_last1 ⟨0, hn⟩ (by show (0 : ℕ) ≠ 63; decide)) (iblk1 V c 0 ⟨0, hn⟩) (iblk1 V c 1 ⟨0, hn⟩))
  | n + 1, hn =>
    if h1 : n + 1 = 63 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (is_last1 ⟨n + 1, hn⟩ h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (is_last1 ⟨n + 1, hn⟩ h1) (iblk1 V c 0 ⟨n + 1, hn⟩) (iblk1 V c 1 ⟨n + 1, hn⟩) (outsAt1 c n (Nat.lt_of_succ_lt hn)).2)
    else
      (sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (not_last1 ⟨n + 1, hn⟩ h1) (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (not_first1 ⟨n + 1, hn⟩ (Nat.succ_ne_zero n)) (not_last1 ⟨n + 1, hn⟩ h1) (iblk1 V c 0 ⟨n + 1, hn⟩) (iblk1 V c 1 ⟨n + 1, hn⟩) (outsAt1 c n (Nat.lt_of_succ_lt hn)).2)

/-- At the first point. -/
theorem outsAt1_A (c : Dev nD) (t : Fin cfg1.N) (h0 : t.val = 0) (h1 : t.val ≠ 63) :
    outsAt1 V c t.val t.isLt =
      (sout1_A c (grid1.coords t) (ms1_0 t) (hs1_0 t) (ms1_1 t) (hs1_1 t) (ms1_2 t) (hs1_2 t) scM1 (Memref.isWhole_whole _) (is_first1 t h0) (not_last1 t h1) (iblk1 V c 0 t) (iblk1 V c 1 t),
       sout1_A c (grid1.coords t) (ms1_0 t) (hs1_0 t) (ms1_1 t) (hs1_1 t) (ms1_2 t) (hs1_2 t) scM1 (Memref.isWhole_whole _) (is_first1 t h0) (not_last1 t h1) (iblk1 V c 0 t) (iblk1 V c 1 t)) := by
  obtain ⟨n, hn⟩ := t
  cases n with
  | zero => rfl
  | succ n => exact absurd h0 (Nat.succ_ne_zero n)

/-- At a middle point, over what the point before left. -/
theorem outsAt1_B (c : Dev nD) (t : Fin cfg1.N) (h0 : t.val ≠ 0) (h1 : t.val ≠ 63) :
    outsAt1 V c t.val t.isLt =
      (sout1_B c (grid1.coords t) (ms1_0 t) (hs1_0 t) (ms1_1 t) (hs1_1 t) (ms1_2 t) (hs1_2 t) scM1 (Memref.isWhole_whole _) (not_first1 t h0) (not_last1 t h1) (iblk1 V c 0 t) (iblk1 V c 1 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) scM1 (Memref.isWhole_whole _) (not_first1 t h0) (not_last1 t h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt1_C (c : Dev nD) (t : Fin cfg1.N) (h0 : t.val ≠ 0) (h1 : t.val = 63) :
    outsAt1 V c t.val t.isLt =
      (out1_C c (grid1.coords t) (ms1_0 t) (hs1_0 t) (ms1_1 t) (hs1_1 t) (ms1_2 t) (hs1_2 t) scM1 (Memref.isWhole_whole _) (not_first1 t h0) (is_last1 t h1) (iblk1 V c 0 t) (iblk1 V c 1 t) (outsAt1 V c (t.val - 1) (Nat.lt_of_le_of_lt (Nat.sub_le _ _) t.isLt)).2,
       sout1_C c (grid1.coords t) (ms1_0 t) (hs1_0 t) (ms1_1 t) (hs1_1 t) (ms1_2 t) (hs1_2 t) scM1 (Memref.isWhole_whole _) (not_first1 t h0) (is_last1 t h1) (iblk1 V c 0 t) (iblk1 V c 1 t) (outsAt1 V c (t.val - 1) (Nat.lt_of_le_of_lt (Nat.sub_le _ _) t.isLt)).2) := by
  obtain ⟨n, hn⟩ := t
  cases n with
  | zero => exact absurd h1 (by show ¬((0 : ℕ) = 63); decide)
  | succ n => exact (dif_pos h1).trans rfl

/-! ## The invariant between points -/

/-- Before point `n`: at the start the class invariant (the accumulator at anything); afterwards the accumulator at what
    the point before left, the other calls' scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- Region 1's proof data on core `c`: the arrays as the region finds them; after the body each input's buffer at its
    block and the output's at `outsAt1`; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q := q
  owed _ := 0

theorem A_eq1 (c : Dev nD) (w : Fin cfg1.W) : (dat1 V q c).A w = V c (Pipeline.arrRef spec1 w) := by
  dsimp only [dat1]
theorem PhiS1_castSucc (c : Dev nD) (t : Fin cfg1.N) :
    (dat1 V q c).Φ t.castSucc = PhiS1 V c t.val (Nat.le_of_lt t.isLt) := by
  dsimp only [dat1]; simp only [Fin.coe_castSucc]
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = (outsAt1 V c t.val t.isLt).1 := by dsimp only [dat1]
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d

/-! ## The body's obligation -/

def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d)))

def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 4800000 in
/-- The body at any point: the inputs' buffers hold their blocks, the point is in one of the three cases, and that case's
    run applies; the invariant hands over the accumulator at what the point before left and takes it back at this point's
    contents. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = PhiS1 V c (t.val + 1) t.isLt from rfl, PhiS1_succ]
  have hN : t.val < 64 := lt_of_lt_of_eq t.isLt N1_eq
  rw [show (dat1 V q c).leavesExact 0 t = owns (c : Thread nD τ) (ms1_0 t) fullShare ((dat1 V q c).after 0 t) from by
    unfold Dat.leavesExact; rw [liveAt1_0 t], after1_0]
  rw [show (dat1 V q c).leavesExact 1 t = owns (c : Thread nD τ) (ms1_1 t) fullShare ((dat1 V q c).after 1 t) from by
    unfold Dat.leavesExact; rw [liveAt1_1 t], after1_1]
  by_cases h0 : t.val = 0
  · have h1 : t.val ≠ 63 := by omega
    rw [Dat.leavesExact_idle (dat1 V q c) 2 t (idleAt1_2 t (not_last1 t h1)) (noFlush1_2 t (not_last1 t h1))]
    rw [outsAt1_A V c t h0 h1]
    unfold sout1_A; (try dsimp only)
    rw [PhiS1_castSucc V q c t, PhiS1_zero V c _ _ h0, PhiA1_eq]
    iintro ⟨⟨⟨HS0, Hoth⟩, Hg⟩, Ho, ⟨%d0, H0⟩, ⟨%d1, H1⟩, ⟨%d2, H2⟩⟩
    iapply ((kernelRun1_A c (grid1.coords t) _ _ _ _ _ _ _ _ (is_first1 t h0) (not_last1 t h1) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 63
    · rw [show (dat1 V q c).leavesExact 2 t = owns (c : Thread nD τ) (ms1_2 t) fullShare ((dat1 V q c).after 2 t) from by
        unfold Dat.leavesExact; rw [liveAt1_2 t (is_last1 t h1)], after1_2]
      rw [outsAt1_C V c t h0 h1]
      unfold out1_C sout1_C; (try dsimp only)
      rw [PhiS1_castSucc V q c t, PhiS1_pos V c _ _ h0]
      iintro ⟨⟨⟨HS0, Hoth⟩, Hg⟩, Ho, ⟨%d0, H0⟩, ⟨%d1, H1⟩, ⟨%d2, H2⟩⟩
      iapply ((kernelRun1_C c (grid1.coords t) _ _ _ _ _ _ _ _ (not_first1 t h0) (is_last1 t h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V q c) 2 t (idleAt1_2 t (not_last1 t h1)) (noFlush1_2 t (not_last1 t h1))]
      rw [outsAt1_B V c t h0 h1]
      unfold sout1_B; (try dsimp only)
      rw [PhiS1_castSucc V q c t, PhiS1_pos V c _ _ h0]
      iintro ⟨⟨⟨HS0, Hoth⟩, Hg⟩, Ho, ⟨%d0, H0⟩, ⟨%d1, H1⟩, ⟨%d2, H2⟩⟩
      iapply ((kernelRun1_B c (grid1.coords t) _ _ _ _ _ _ _ _ (not_first1 t h0) (not_last1 t h1) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V q c) (defs₀ (F := F)) Variants.none () Set.univ := fun t => by
  rw [bigSep_W1, bigSep_W1]
  exact sound_body1 V q c t

/-! ## The invariant at the region's two ends -/

/-- What the region is entered with is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V q c).Φ (Fin.last cfg1.N) ⊢ Pipeline.ΦA spec1 c := by
  rw [show (dat1 V q c).Φ (Fin.last cfg1.N) = PhiS1 V c (Fin.last cfg1.N).val (Nat.le_of_lt_succ (Fin.last cfg1.N).isLt) from rfl,
    PhiS1_pos V c _ _ (by rw [Fin.val_last]; have := N1_eq; omega), PhiA1_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.R2Scoped.lean ====
/-
  Region 2: the region invariant with the call's one-word accumulator singled out. Between grid points the body may use
  the core's scoped buffers that are no staging buffer of this call — its own accumulator and the other two calls'
  buffers — and the generator register; only the accumulator is ever touched.
-/
import proofs.«104465_j59356448031516_1_alg».proof.Proof.Gen.KernelIdeal.Launch
import proofs.«104465_j59356448031516_1_alg».proof.Proof.Gen.KernelIdeal.Skeleton
import proofs.«104465_j59356448031516_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: a one-word scratch buffer of the call's own. -/
abbrev scM2 : Memref sig .tc .vmem S1x1 .f32 := Memref.whole cc2_scratch0

/-- The scoped buffers of the other two calls, each at some contents: they ride through this region untouched. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The class invariant splits into the accumulator at some contents, the other calls' scoped buffers and the generator
    register, -/
theorem PhiA2_in (c : Dev nD) : (Pipeline.ΦA spec2 c : sProp 𝕄) ⊢ iprop(iprop((∃ d, owns (c : Thread nD τ) scM2 fullShare d) ∗ others2 c) ∗ (∃ r, prngReg c r)) := by
  unfold Pipeline.ΦA others2; rw [scopedRest2_eq]; simp only [scM2, owns_whole]
  iintro ⟨⟨H0, H1, H2, H3, H4, H5, H6, H7, H8, H9, HS⟩, Hg⟩
  isplitr [Hg]
  swap; · iexact Hg
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- and is put together again from them: -/
theorem PhiA2_out (c : Dev nD) : iprop(iprop((∃ d, owns (c : Thread nD τ) scM2 fullShare d) ∗ others2 c) ∗ (∃ r, prngReg c r)) ⊢ (Pipeline.ΦA spec2 c : sProp 𝕄) := by
  unfold Pipeline.ΦA others2; rw [scopedRest2_eq]; simp only [scM2, owns_whole]
  iintro ⟨⟨HS, H0, H1, H2, H3, H4, H5, H6, H7, H8, H9⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HS

/-- the two are one assertion. -/
theorem PhiA2_eq (c : Dev nD) : (Pipeline.ΦA spec2 c : sProp 𝕄) = iprop(iprop((∃ d, owns (c : Thread nD τ) scM2 fullShare d) ∗ others2 c) ∗ (∃ r, prngReg c r)) :=
  BI.equiv_iff.mp ⟨PhiA2_in c, PhiA2_out c⟩

end Cert.KernelIdeal.Hand

end
-- ==== Proof.KI.R2Runs.lean ====
/-
  Region 2 (one call of the pairwise-kernel sum): what the three control cases of its body share. The body branches twice on the grid position: at the first
  point it clears the one-word accumulator it keeps in scratch, and at the last point it copies the accumulator
  into the output block. Over the 64 points that makes three cases: the first point (A), the points in between (B),
  the last point (C). Here: the two conditions in closed form, where the output window is idle, and the memrefs the
  body is called with.
-/
import proofs.«104465_j59356448031516_1_alg».proof.Proof.KI.R2Scoped

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "This is the first grid point", as the body computes it from the grid coordinate. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 64 = 0 :=
  (by decide +kernel : ∀ t : Fin grid2.N, cond2_0 (grid2.coords t) ↔ t.val % 64 = 0)

/-- "This is the last grid point". -/
abbrev cond2_1 (i : grid2.Coords) : Prop := k2_cond2 i = 1#1
/-- It holds at point 63 only. -/
theorem hcond2_1 : ∀ t : Fin cfg2.N, cond2_1 (grid2.coords t) ↔ t.val % 64 = 63 :=
  (by decide +kernel : ∀ t : Fin grid2.N, cond2_1 (grid2.coords t) ↔ t.val % 64 = 63)

/-! ## Where the windows are idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the body stores nothing into the output block, and the block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it does. -/
theorem liveAt2_2 : ∀ t : Fin cfg2.N, cond2_1 (grid2.coords t) → cfg2.idle 2 (grid2.coords t) = false := by decide +kernel

/-! ## The memrefs the body is called with -/

abbrev ms2_0 (t : Fin cfg2.N) : Memref sig .tc .vmem S128x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
/-- Its view, and one staging buffer of the output window: contents are stated through them. -/
abbrev VS2 : View sig .tc .vmem S1x1 .f32 := scM2.view
abbrev VO2 : View sig .tc .vmem S1x1 .f32 := (Memref.whole cc2_stg2_0 : Memref sig .tc .vmem S1x1 .f32).view

end Cert.KernelIdeal.Hand

end
-- ==== Proof.KI.R2RunA.lean ====
/-
  Region 2, the body at the first grid point (case A): the accumulator is cleared, then one tile's sum is added to it;
  nothing is stored into the output block. The body is run symbolically on whole memrefs; what the stores leave in
  the accumulator is recorded as the list of pieces the run itself produces.
-/
import proofs.«104465_j59356448031516_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point: the inputs at their contents, the output block handed back untouched, the accumulator found at
    anything and left with the run's pieces written. -/
noncomputable def kernelRun2_A (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__rbf_sum_kernel i arg1 harg1 arg2 harg2 arg3 harg3 arg4 harg4) K } := by
  refine ⟨?_, fun xi2 E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R2RunB.lean ====
/-
  Region 2, the body at a grid point that is neither the first nor the last (case B): one tile's sum is added to the
  accumulator, which is found at what the point before left; nothing is stored into the output block.
-/
import proofs.«104465_j59356448031516_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- In between: the inputs at their contents, the output block handed back untouched, the accumulator found at `xs0` and left
    with the run's pieces written. -/
noncomputable def kernelRun2_B (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) :
    { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc2__rbf_sum_kernel i arg1 harg1 arg2 harg2 arg3 harg3 arg4 harg4) K } := by
  refine ⟨?_, fun xi2 E K => ?run⟩
  case run =>
    simp only [cc2__rbf_sum_kernel_eq_skeleton]; unfold cc2__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R2RunC.lean ====
/-
  Region 2, the body at the last grid point (case C): one tile's sum is added to the accumulator, and the accumulator is
  then copied into the output block.
-/
import proofs.«104465_j59356448031516_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point: the inputs at their contents, the accumulator found at `xs0`; the accumulator and the output block are
    left with the run's pieces written. -/
noncomputable def kernelRun2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc2__rbf_sum_kernel i arg1 harg1 arg2 harg2 arg3 harg3 arg4 harg4) K } := by
  refine ⟨?_, ?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.R2Frame.lean ====
/-
  Region 2: what the accumulator and the output block hold after every grid point, the region's proof data, and the
  body's obligation at every point.

  The accumulator after point `n` is what the point's case leaves in it: at the first point from nothing, at every later
  point from what the point before left. The output block is stored at the last point only, with the accumulator's
  final contents. The invariant between two points holds the accumulator at those contents (before the first point, at
  anything), the other calls' scoped buffers and the generator register.
-/
import proofs.«104465_j59356448031516_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffers' contents when the region is entered, and the shares at which the input arrays are held.
variable (V : (c : Dev nD) → (b : Ref sig .tc) → Buf (Elt F) ((c : Thread nD τ).loc b)) (q : Fin 3 → PosShare TreeShare)

/-! ## Which case a point is in -/

theorem N2_eq : cfg2.N = 64 := N_2
theorem is_first2 (t : Fin cfg2.N) (h : t.val = 0) : cond2_0 (grid2.coords t) := (hcond2_0 t).mpr (by rw [h])
theorem not_first2 (t : Fin cfg2.N) (h : t.val ≠ 0) : ¬cond2_0 (grid2.coords t) := fun hc => by
  have h1 := (hcond2_0 t).mp hc; have hN := lt_of_lt_of_eq t.isLt N2_eq; omega
theorem is_last2 (t : Fin cfg2.N) (h : t.val = 63) : cond2_1 (grid2.coords t) := (hcond2_1 t).mpr (by rw [h])
theorem not_last2 (t : Fin cfg2.N) (h : t.val ≠ 63) : ¬cond2_1 (grid2.coords t) := fun hc => by
  have h1 := (hcond2_1 t).mp hc; have hN := lt_of_lt_of_eq t.isLt N2_eq; omega

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first point's stores cover the accumulator. -/
theorem scover2_A (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) (y : S1x1.Idx) :
    ∃ pc ∈ (kernelRun2_A c i arg1 harg1 arg2 harg2 arg3 harg3 arg4 harg4 hc0 hc1 x0 x1).1, y ∈ pc.1.set :=
  View.cover_of_tiledL (kernelRun2_A c i arg1 harg1 arg2 harg2 arg3 harg3 arg4 harg4 hc0 hc1 x0 x1).1 S1x1.size (by sl_kernel_rfl) y
/-- What the first point leaves in the accumulator. -/
def sout2_A (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) : Vec F S1x1 .f32 :=
  VS2.read (Elt F) (VS2.writes (Elt F) VS2.junk (kernelRun2_A c i arg1 harg1 arg2 harg2 arg3 harg3 arg4 harg4 hc0 hc1 x0 x1).1)

/-- A middle point's stores cover the accumulator. -/
theorem scover2_B (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) (y : S1x1.Idx) :
    ∃ pc ∈ (kernelRun2_B c i arg1 harg1 arg2 harg2 arg3 harg3 arg4 harg4 hc0 hc1 x0 x1 xs0).1, y ∈ pc.1.set :=
  View.cover_of_tiledL (kernelRun2_B c i arg1 harg1 arg2 harg2 arg3 harg3 arg4 harg4 hc0 hc1 x0 x1 xs0).1 S1x1.size (by sl_kernel_rfl) y
/-- What a middle point leaves in the accumulator, over what the point before left. -/
def sout2_B (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) : Vec F S1x1 .f32 :=
  VS2.read (Elt F) (VS2.writes (Elt F) VS2.junk (kernelRun2_B c i arg1 harg1 arg2 harg2 arg3 harg3 arg4 harg4 hc0 hc1 x0 x1 xs0).1)

/-- The last point's store covers the output block, -/
theorem cover2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) (y : S1x1.Idx) :
    ∃ pc ∈ (kernelRun2_C c i arg1 harg1 arg2 harg2 arg3 harg3 arg4 harg4 hc0 hc1 x0 x1 xs0).1, y ∈ pc.1.set :=
  View.cover_of_tiledL (kernelRun2_C c i arg1 harg1 arg2 harg2 arg3 harg3 arg4 harg4 hc0 hc1 x0 x1 xs0).1 S1x1.size (by sl_kernel_rfl) y
/-- and this is what it leaves there. -/
def out2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) : Vec F S1x1 .f32 :=
  VO2.read (Elt F) (VO2.writes (Elt F) VO2.junk (kernelRun2_C c i arg1 harg1 arg2 harg2 arg3 harg3 arg4 harg4 hc0 hc1 x0 x1 xs0).1)
/-- Its stores cover the accumulator, -/
theorem scover2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) (y : S1x1.Idx) :
    ∃ pc ∈ (kernelRun2_C c i arg1 harg1 arg2 harg2 arg3 harg3 arg4 harg4 hc0 hc1 x0 x1 xs0).2.1, y ∈ pc.1.set :=
  View.cover_of_tiledL (kernelRun2_C c i arg1 harg1 arg2 harg2 arg3 harg3 arg4 harg4 hc0 hc1 x0 x1 xs0).2.1 S1x1.size (by sl_kernel_rfl) y
/-- and this is what it leaves there. -/
def sout2_C (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) : Vec F S1x1 .f32 :=
  VS2.read (Elt F) (VS2.writes (Elt F) VS2.junk (kernelRun2_C c i arg1 harg1 arg2 harg2 arg3 harg3 arg4 harg4 hc0 hc1 x0 x1 xs0).2.1)

/-! ## The contents after each point -/

/-- What the output block (first component; it is stored at the last point only, and its value elsewhere is a
    placeholder nothing reads) and the accumulator (second component) hold after the body at point `n`. -/
def outsAt2 (c : Dev nD) : (n : ℕ) → n < cfg2.N → Vec F S1x1 .f32 × Vec F S1x1 .f32
  | 0, hn =>
    (sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (is_first2 ⟨0, hn⟩ rfl) (not_last2 ⟨0, hn⟩ (by show (0 : ℕ) ≠ 63; decide)) (iblk2 V c 0 ⟨0, hn⟩) (iblk2 V c 1 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) (is_first2 ⟨0, hn⟩ rfl) (not_last2 ⟨0, hn⟩ (by show (0 : ℕ) ≠ 63; decide)) (iblk2 V c 0 ⟨0, hn⟩) (iblk2 V c 1 ⟨0, hn⟩))
  | n + 1, hn =>
    if h1 : n + 1 = 63 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (is_last2 ⟨n + 1, hn⟩ h1) (iblk2 V c 0 ⟨n + 1, hn⟩) (iblk2 V c 1 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (is_last2 ⟨n + 1, hn⟩ h1) (iblk2 V c 0 ⟨n + 1, hn⟩) (iblk2 V c 1 ⟨n + 1, hn⟩) (outsAt2 c n (Nat.lt_of_succ_lt hn)).2)
    else
      (sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (not_last2 ⟨n + 1, hn⟩ h1) (iblk2 V c 0 ⟨n + 1, hn⟩) (iblk2 V c 1 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (not_first2 ⟨n + 1, hn⟩ (Nat.succ_ne_zero n)) (not_last2 ⟨n + 1, hn⟩ h1) (iblk2 V c 0 ⟨n + 1, hn⟩) (iblk2 V c 1 ⟨n + 1, hn⟩) (outsAt2 c n (Nat.lt_of_succ_lt hn)).2)

/-- At the first point. -/
theorem outsAt2_A (c : Dev nD) (t : Fin cfg2.N) (h0 : t.val = 0) (h1 : t.val ≠ 63) :
    outsAt2 V c t.val t.isLt =
      (sout2_A c (grid2.coords t) (ms2_0 t) (hs2_0 t) (ms2_1 t) (hs2_1 t) (ms2_2 t) (hs2_2 t) scM2 (Memref.isWhole_whole _) (is_first2 t h0) (not_last2 t h1) (iblk2 V c 0 t) (iblk2 V c 1 t),
       sout2_A c (grid2.coords t) (ms2_0 t) (hs2_0 t) (ms2_1 t) (hs2_1 t) (ms2_2 t) (hs2_2 t) scM2 (Memref.isWhole_whole _) (is_first2 t h0) (not_last2 t h1) (iblk2 V c 0 t) (iblk2 V c 1 t)) := by
  obtain ⟨n, hn⟩ := t
  cases n with
  | zero => rfl
  | succ n => exact absurd h0 (Nat.succ_ne_zero n)

/-- At a middle point, over what the point before left. -/
theorem outsAt2_B (c : Dev nD) (t : Fin cfg2.N) (h0 : t.val ≠ 0) (h1 : t.val ≠ 63) :
    outsAt2 V c t.val t.isLt =
      (sout2_B c (grid2.coords t) (ms2_0 t) (hs2_0 t) (ms2_1 t) (hs2_1 t) (ms2_2 t) (hs2_2 t) scM2 (Memref.isWhole_whole _) (not_first2 t h0) (not_last2 t h1) (iblk2 V c 0 t) (iblk2 V c 1 t) (outsAt2 V c (t.val - 1) (Nat.lt_of_le_of_lt (Nat.sub_le _ _) t.isLt)).2,
       sout2_B c (grid2.coords t) (ms2_0 t) (hs2_0 t) (ms2_1 t) (hs2_1 t) (ms2_2 t) (hs2_2 t) scM2 (Memref.isWhole_whole _) (not_first2 t h0) (not_last2 t h1) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

/-- At the last point, over what the point before left. -/
theorem outsAt2_C (c : Dev nD) (t : Fin cfg2.N) (h0 : t.val ≠ 0) (h1 : t.val = 63) :
    outsAt2 V c t.val t.isLt =
      (out2_C c (grid2.coords t) (ms2_0 t) (hs2_0 t) (ms2_1 t) (hs2_1 t) (ms2_2 t) (hs2_2 t) scM2 (Memref.isWhole_whole _) (not_first2 t h0) (is_last2 t h1) (iblk2 V c 0 t) (iblk2 V c 1 t) (outsAt2 V c (t.val - 1) (Nat.lt_of_le_of_lt (Nat.sub_le _ _) t.isLt)).2,
       sout2_C c (grid2.coords t) (ms2_0 t) (hs2_0 t) (ms2_1 t) (hs2_1 t) (ms2_2 t) (hs2_2 t) scM2 (Memref.isWhole_whole _) (not_first2 t h0) (is_last2 t h1) (iblk2 V c 0 t) (iblk2 V c 1 t) (outsAt2 V c (t.val - 1) (Nat.lt_of_le_of_lt (Nat.sub_le _ _) t.isLt)).2) := by
  obtain ⟨n, hn⟩ := t
  cases n with
  | zero => exact absurd h1 (by show ¬((0 : ℕ) = 63); decide)
  | succ n => exact (dif_pos h1).trans rfl

/-! ## The invariant between points -/

/-- Before point `n`: at the start the class invariant (the accumulator at anything); afterwards the accumulator at what
    the point before left, the other calls' scoped buffers and the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ others2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ others2 c) ∗ (∃ r, prngReg c r)) := by
  cases n with
  | zero => exact absurd rfl hz
  | succ n => rfl

/-! ## The proof data -/

/-- Region 2's proof data on core `c`: the arrays as the region finds them; after the body each input's buffer at its
    block and the output's at `outsAt2`; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q := q
  owed _ := 0

theorem A_eq2 (c : Dev nD) (w : Fin cfg2.W) : (dat2 V q c).A w = V c (Pipeline.arrRef spec2 w) := by
  dsimp only [dat2]
theorem PhiS2_castSucc (c : Dev nD) (t : Fin cfg2.N) :
    (dat2 V q c).Φ t.castSucc = PhiS2 V c t.val (Nat.le_of_lt t.isLt) := by
  dsimp only [dat2]; simp only [Fin.coe_castSucc]
theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = (outsAt2 V c t.val t.isLt).1 := by dsimp only [dat2]
theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d

/-! ## The body's obligation -/

def bodyPre2 (c : Dev nD) (t : Fin cfg2.N) : sProp 𝕄 :=
  iprop((dat2 V q c).Φ t.castSucc ∗ (dat2 V q c).owesAt () t.castSucc
    ∗ (∃ d, owns (c : Thread nD τ) (ms2_0 t) fullShare ((dat2 V q c).before 0 t d))
    ∗ (∃ d, owns (c : Thread nD τ) (ms2_1 t) fullShare ((dat2 V q c).before 1 t d))
    ∗ (∃ d, owns (c : Thread nD τ) (ms2_2 t) fullShare ((dat2 V q c).before 2 t d)))

def bodyPost2 (c : Dev nD) (t : Fin cfg2.N) : sProp 𝕄 :=
  iprop((dat2 V q c).Φ t.succ ∗ (dat2 V q c).owesAt () t.succ
    ∗ (dat2 V q c).leavesExact 0 t
    ∗ (dat2 V q c).leavesExact 1 t
    ∗ (dat2 V q c).leavesExact 2 t)

set_option maxHeartbeats 4800000 in
/-- The body at any point: the inputs' buffers hold their blocks, the point is in one of the three cases, and that case's
    run applies; the invariant hands over the accumulator at what the point before left and takes it back at this point's
    contents. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1]
  rw [show (dat2 V q c).owesAt () t.succ = (dat2 V q c).owesAt () t.castSucc from rfl]
  rw [show (dat2 V q c).Φ t.succ = PhiS2 V c (t.val + 1) t.isLt from rfl, PhiS2_succ]
  have hN : t.val < 64 := lt_of_lt_of_eq t.isLt N2_eq
  rw [show (dat2 V q c).leavesExact 0 t = owns (c : Thread nD τ) (ms2_0 t) fullShare ((dat2 V q c).after 0 t) from by
    unfold Dat.leavesExact; rw [liveAt2_0 t], after2_0]
  rw [show (dat2 V q c).leavesExact 1 t = owns (c : Thread nD τ) (ms2_1 t) fullShare ((dat2 V q c).after 1 t) from by
    unfold Dat.leavesExact; rw [liveAt2_1 t], after2_1]
  by_cases h0 : t.val = 0
  · have h1 : t.val ≠ 63 := by omega
    rw [Dat.leavesExact_idle (dat2 V q c) 2 t (idleAt2_2 t (not_last2 t h1)) (noFlush2_2 t (not_last2 t h1))]
    rw [outsAt2_A V c t h0 h1]
    unfold sout2_A; (try dsimp only)
    rw [PhiS2_castSucc V q c t, PhiS2_zero V c _ _ h0, PhiA2_eq]
    iintro ⟨⟨⟨HS0, Hoth⟩, Hg⟩, Ho, ⟨%d0, H0⟩, ⟨%d1, H1⟩, ⟨%d2, H2⟩⟩
    iapply ((kernelRun2_A c (grid2.coords t) _ _ _ _ _ _ _ _ (is_first2 t h0) (not_last2 t h1) (iblk2 V c 0 t) (iblk2 V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_A c _ _ _ _ _ _ _ _ _ _ _ _ _)
        iexact Hoth
      iexact Hg
    isplitl [Ho]; · iexact Ho
    isplitl [H0]; · iexact H0
    isplitl [H1]; · iexact H1
    iexists _; iexact H2
  · by_cases h1 : t.val = 63
    · rw [show (dat2 V q c).leavesExact 2 t = owns (c : Thread nD τ) (ms2_2 t) fullShare ((dat2 V q c).after 2 t) from by
        unfold Dat.leavesExact; rw [liveAt2_2 t (is_last2 t h1)], after2_2]
      rw [outsAt2_C V c t h0 h1]
      unfold out2_C sout2_C; (try dsimp only)
      rw [PhiS2_castSucc V q c t, PhiS2_pos V c _ _ h0]
      iintro ⟨⟨⟨HS0, Hoth⟩, Hg⟩, Ho, ⟨%d0, H0⟩, ⟨%d1, H1⟩, ⟨%d2, H2⟩⟩
      iapply ((kernelRun2_C c (grid2.coords t) _ _ _ _ _ _ _ _ (not_first2 t h0) (is_last2 t h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V q c) 2 t (idleAt2_2 t (not_last2 t h1)) (noFlush2_2 t (not_last2 t h1))]
      rw [outsAt2_B V c t h0 h1]
      unfold sout2_B; (try dsimp only)
      rw [PhiS2_castSucc V q c t, PhiS2_pos V c _ _ h0]
      iintro ⟨⟨⟨HS0, Hoth⟩, Hg⟩, Ho, ⟨%d0, H0⟩, ⟨%d1, H1⟩, ⟨%d2, H2⟩⟩
      iapply ((kernelRun2_B c (grid2.coords t) _ _ _ _ _ _ _ _ (not_first2 t h0) (not_last2 t h1) (iblk2 V c 0 t) (iblk2 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B c _ _ _ _ _ _ _ _ _ _ _ _ _ _)
          iexact Hoth
        iexact Hg
      isplitl [Ho]; · iexact Ho
      isplitl [H0]; · iexact H0
      isplitl [H1]; · iexact H1
      iexists _; iexact H2

/-- The body obligation, at every point. -/
theorem body_obligation2 (c : Dev nD) : BodyObligation (dat2 (F := F) V q c) (defs₀ (F := F)) Variants.none () Set.univ := fun t => by
  rw [bigSep_W2, bigSep_W2]
  exact sound_body2 V q c t

/-! ## The invariant at the region's two ends -/

/-- What the region is entered with is the invariant before the first point. -/
theorem hin2 (c : Dev nD) : Pipeline.ΦA spec2 c ⊢ (dat2 V q c).Φ 0 := by
  rw [show (dat2 V q c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V q c).Φ (Fin.last cfg2.N) ⊢ Pipeline.ΦA spec2 c := by
  rw [show (dat2 V q c).Φ (Fin.last cfg2.N) = PhiS2 V c (Fin.last cfg2.N).val (Nat.le_of_lt_succ (Fin.last cfg2.N).isLt) from rfl,
    PhiS2_pos V c _ _ (by rw [Fin.val_last]; have := N2_eq; omega), PhiA2_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.Arrays.lean ====
/-
  The regions' arrays at their two ends. A region is entered holding every unscoped buffer of the core whole; the
  pipeline wants each window's array at the window's share. In the first two calls both input windows read ONE array
  (the same argument twice): its buffer is split into two half shares, one per window, and put together again when the
  region is left (both halves hold the argument's contents, which no write-back touches). In the third call the two
  inputs are different arrays, each held whole. The output's one-word array is held whole throughout, and ends at what
  the write-backs leave.
-/
import proofs.«104465_j59356448031516_1_alg».proof.Proof.Gen.KernelIdeal.Launch
import Idealize.ShloMosaic.Lib.Pipeline.Frame
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The shares of a call whose two input windows read one array: a half each (the output's entry is not consulted). -/
abbrev qHalf : Fin 3 → PosShare TreeShare := fun w => match w with
  | ⟨0, _⟩ => fullShare.left
  | ⟨1, _⟩ => fullShare.right
  | ⟨2, _⟩ => fullShare
/-- The shares of a call whose input windows read different arrays. -/
abbrev qFull : Fin 3 → PosShare TreeShare := fun _ => fullShare

/-! ## A full share as two halves -/

/-- A buffer held whole at the full share, beside anything, is its two half shares beside it. -/
theorem halves_sep (ℓ : Loc nD τ sig) (f : Buf (Elt F) ℓ) (P : sProp 𝕄) :
    iprop((ℓ ↦{fullShare} f) ∗ P) ⊣⊢ iprop((ℓ ↦{fullShare.left} f) ∗ (ℓ ↦{fullShare.right} f) ∗ P) := by
  constructor
  · iintro ⟨Ha, HP⟩
    ihave Hs := (pointsTo_share (PosShare.mem_left_op_right fullShare)).1 $$ Ha
    icases Hs with ⟨Hl, Hr⟩
    isplitl [Hl]; · iexact Hl
    isplitl [Hr]; · iexact Hr
    iexact HP
  · iintro ⟨Hl, Hr, HP⟩
    isplitr [HP]
    · iapply (pointsTo_share (PosShare.mem_left_op_right fullShare)).2
      isplitl [Hl] <;> iassumption
    · iexact HP

/-! ## Call 0: both input windows read the first argument -/

theorem arrays_in0 (c : Dev nD) (V : (b : Ref sig .tc) → Buf (Elt F) ((c : Thread nD τ).loc b))
    (dat : Dat τ (Elt F) Unit ℕ (UR sig nD τ) ℕ cfg0 c) (hq : dat.q = qHalf) (hA : ∀ w, dat.A w = V (Pipeline.arrRef spec0 w)) :
    (unscopedBufs c V : sProp 𝕄) ⊢ iprop(dat.arrays (dat.arrAt · 0) ∗ Pipeline.unscopedRest spec0 c V) := by
  classical
  have himg : Finset.univ.image (Pipeline.arrRef spec0) = {main_arg0, main_v0} := by decide
  have hne : main_arg0 ∉ ({main_v0} : Finset (Ref sig .tc)) := by decide
  have hs0 : dat.share 0 = fullShare.left := by
    show (if (cfg0.win 0).isOut then fullShare else dat.q 0) = _
    rw [hq]; rfl
  have hs1 : dat.share 1 = fullShare.right := by
    show (if (cfg0.win 1).isOut then fullShare else dat.q 1) = _
    rw [hq]; rfl
  have hs2 : dat.share 2 = fullShare := rfl
  rw [Pipeline.unscopedBufs_split₀ (fun _ : Unit => cfg0) () winFacts₀0.arr_unscoped c V]
  refine sep_mono ?_ .rfl
  unfold Pipeline.arrBufs Dat.arrays
  rw [show Finset.univ.image (Pipeline.arrRef (cfg0).spec) = {main_arg0, main_v0} from himg, bigSep_insert hne, bigSep_singleton, bigSep_W0,
    hs0, hs1, hs2, (arr_whole0 0).set_eq_univ, (arr_whole0 2).set_eq_univ]
  beta_reduce
  rw [show dat.arrAt 0 0 = dat.A 0 from rfl, show dat.arrAt 1 0 = dat.A 1 from rfl, show dat.arrAt 2 0 = dat.A 2 from rfl, hA 0, hA 1, hA 2]
  exact (halves_sep _ _ _).1

theorem arrays_out0 (c : Dev nD) (V V' : (b : Ref sig .tc) → Buf (Elt F) ((c : Thread nD τ).loc b))
    (dat : Dat τ (Elt F) Unit ℕ (UR sig nD τ) ℕ cfg0 c) (hq : dat.q = qHalf)
    (hF : ∀ w, dat.arrAt w cfg0.N = V' (Pipeline.arrRef spec0 w))
    (hrest : ∀ b, b ∉ Finset.univ.image (Pipeline.arrRef spec0) → V' b = V b) :
    iprop(dat.arrays (dat.arrAt · cfg0.N) ∗ Pipeline.unscopedRest spec0 c V) ⊢ (unscopedBufs c V' : sProp 𝕄) := by
  classical
  have himg : Finset.univ.image (Pipeline.arrRef spec0) = {main_arg0, main_v0} := by decide
  have hne : main_arg0 ∉ ({main_v0} : Finset (Ref sig .tc)) := by decide
  have hs0 : dat.share 0 = fullShare.left := by
    show (if (cfg0.win 0).isOut then fullShare else dat.q 0) = _
    rw [hq]; rfl
  have hs1 : dat.share 1 = fullShare.right := by
    show (if (cfg0.win 1).isOut then fullShare else dat.q 1) = _
    rw [hq]; rfl
  have hs2 : dat.share 2 = fullShare := rfl
  rw [Pipeline.unscopedBufs_split₀ (fun _ : Unit => cfg0) () winFacts₀0.arr_unscoped c V']
  refine sep_mono ?_ (Entails.of_eq ?_)
  · unfold Pipeline.arrBufs Dat.arrays
    rw [show Finset.univ.image (Pipeline.arrRef (cfg0).spec) = {main_arg0, main_v0} from himg, bigSep_insert hne, bigSep_singleton, bigSep_W0,
      hs0, hs1, hs2, (arr_whole0 0).set_eq_univ, (arr_whole0 2).set_eq_univ]
    beta_reduce
    rw [hF 0, hF 1, hF 2]
    exact (halves_sep _ _ _).2
  · unfold Pipeline.unscopedRest
    exact bigSep_congr fun b hb => by rw [hrest b (Finset.mem_sdiff.mp hb).2]

/-! ## Call 1: both input windows read the second argument -/

theorem arrays_in1 (c : Dev nD) (V : (b : Ref sig .tc) → Buf (Elt F) ((c : Thread nD τ).loc b))
    (dat : Dat τ (Elt F) Unit ℕ (UR sig nD τ) ℕ cfg1 c) (hq : dat.q = qHalf) (hA : ∀ w, dat.A w = V (Pipeline.arrRef spec1 w)) :
    (unscopedBufs c V : sProp 𝕄) ⊢ iprop(dat.arrays (dat.arrAt · 0) ∗ Pipeline.unscopedRest spec1 c V) := by
  classical
  have himg : Finset.univ.image (Pipeline.arrRef spec1) = {main_arg1, main_v1} := by decide
  have hne : main_arg1 ∉ ({main_v1} : Finset (Ref sig .tc)) := by decide
  have hs0 : dat.share 0 = fullShare.left := by
    show (if (cfg1.win 0).isOut then fullShare else dat.q 0) = _
    rw [hq]; rfl
  have hs1 : dat.share 1 = fullShare.right := by
    show (if (cfg1.win 1).isOut then fullShare else dat.q 1) = _
    rw [hq]; rfl
  have hs2 : dat.share 2 = fullShare := rfl
  rw [Pipeline.unscopedBufs_split₀ (fun _ : Unit => cfg1) () winFacts₀1.arr_unscoped c V]
  refine sep_mono ?_ .rfl
  unfold Pipeline.arrBufs Dat.arrays
  rw [show Finset.univ.image (Pipeline.arrRef (cfg1).spec) = {main_arg1, main_v1} from himg, bigSep_insert hne, bigSep_singleton, bigSep_W1,
    hs0, hs1, hs2, (arr_whole1 0).set_eq_univ, (arr_whole1 2).set_eq_univ]
  beta_reduce
  rw [show dat.arrAt 0 0 = dat.A 0 from rfl, show dat.arrAt 1 0 = dat.A 1 from rfl, show dat.arrAt 2 0 = dat.A 2 from rfl, hA 0, hA 1, hA 2]
  exact (halves_sep _ _ _).1

theorem arrays_out1 (c : Dev nD) (V V' : (b : Ref sig .tc) → Buf (Elt F) ((c : Thread nD τ).loc b))
    (dat : Dat τ (Elt F) Unit ℕ (UR sig nD τ) ℕ cfg1 c) (hq : dat.q = qHalf)
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  classical
  have himg : Finset.univ.image (Pipeline.arrRef spec1) = {main_arg1, main_v1} := by decide
  have hne : main_arg1 ∉ ({main_v1} : Finset (Ref sig .tc)) := by decide
  have hs0 : dat.share 0 = fullShare.left := by
    show (if (cfg1.win 0).isOut then fullShare else dat.q 0) = _
    rw [hq]; rfl
  have hs1 : dat.share 1 = fullShare.right := by
    show (if (cfg1.win 1).isOut then fullShare else dat.q 1) = _
    rw [hq]; rfl
  have hs2 : dat.share 2 = fullShare := rfl
  rw [Pipeline.unscopedBufs_split₀ (fun _ : Unit => cfg1) () winFacts₀1.arr_unscoped c V']
  refine sep_mono ?_ (Entails.of_eq ?_)
  · unfold Pipeline.arrBufs Dat.arrays
    rw [show Finset.univ.image (Pipeline.arrRef (cfg1).spec) = {main_arg1, main_v1} from himg, bigSep_insert hne, bigSep_singleton, bigSep_W1,
      hs0, hs1, hs2, (arr_whole1 0).set_eq_univ, (arr_whole1 2).set_eq_univ]
    beta_reduce
    rw [hF 0, hF 1, hF 2]
    exact (halves_sep _ _ _).2
  · unfold Pipeline.unscopedRest
    exact bigSep_congr fun b hb => by rw [hrest b (Finset.mem_sdiff.mp hb).2]

/-! ## Call 2: the input windows read the two arguments -/

theorem arrays_in2 (c : Dev nD) (V : (b : Ref sig .tc) → Buf (Elt F) ((c : Thread nD τ).loc b))
    (dat : Dat τ (Elt F) Unit ℕ (UR sig nD τ) ℕ cfg2 c) (hq : dat.q = qFull) (hA : ∀ w, dat.A w = V (Pipeline.arrRef spec2 w)) :
    (unscopedBufs c V : sProp 𝕄) ⊢ iprop(dat.arrays (dat.arrAt · 0) ∗ Pipeline.unscopedRest spec2 c V) := by
  have hsh : ∀ w, dat.share w = fullShare := fun w => by
    show (if (cfg2.win w).isOut then fullShare else dat.q w) = _
    rw [hq]; exact ite_self _
  rw [Pipeline.unscopedBufs_split (fun _ : Unit => cfg2) () winFacts2.arr_unscoped winFacts2.arr_inj c V]
  refine sep_mono (Entails.of_eq ?_) .rfl
  unfold Dat.arrays
  exact bigSep_congr fun w _ => by
    beta_reduce
    rw [(arr_whole2 w).set_eq_univ, hsh, show dat.arrAt w 0 = dat.A w from rfl, hA]

theorem arrays_out2 (c : Dev nD) (V V' : (b : Ref sig .tc) → Buf (Elt F) ((c : Thread nD τ).loc b))
    (dat : Dat τ (Elt F) Unit ℕ (UR sig nD τ) ℕ cfg2 c) (hq : dat.q = qFull)
    (hF : ∀ w, dat.arrAt w cfg2.N = V' (Pipeline.arrRef spec2 w))
    (hrest : ∀ b, b ∉ Finset.univ.image (Pipeline.arrRef spec2) → V' b = V b) :
    iprop(dat.arrays (dat.arrAt · cfg2.N) ∗ Pipeline.unscopedRest spec2 c V) ⊢ (unscopedBufs c V' : sProp 𝕄) := by
  have hsh : ∀ w, dat.share w = fullShare := fun w => by
    show (if (cfg2.win w).isOut then fullShare else dat.q w) = _
    rw [hq]; exact ite_self _
  rw [Pipeline.unscopedBufs_split (fun _ : Unit => cfg2) () winFacts2.arr_unscoped winFacts2.arr_inj c V']
  refine sep_mono (Entails.of_eq ?_) (Entails.of_eq ?_)
  · unfold Dat.arrays
    exact bigSep_congr fun w _ => by
      beta_reduce
      rw [(arr_whole2 w).set_eq_univ, hsh, hF]
  · unfold Pipeline.unscopedRest
    exact bigSep_congr fun b hb => by rw [hrest b (Finset.mem_sdiff.mp hb).2]

end Cert.KernelIdeal.Hand

end
-- ==== Proof.KI.Run.lean ====
/-
  The whole program's run. @main is three kernel regions and then thirteen host operations that turn the three
  one-word sums into the statistic. Each region is entered with every unscoped buffer of the core held at a known
  valuation and left with the call's one-word array updated to what its write-back leaves; the arguments are read by the
  regions and written by nothing. Every weakly fair execution terminates, faults nowhere, and ends with every unscoped
  buffer at the last valuation.
-/
import proofs.«104465_j59356448031516_1_alg».proof.Proof.KI.R0Frame
import proofs.«104465_j59356448031516_1_alg».proof.Proof.KI.R1Frame
import proofs.«104465_j59356448031516_1_alg».proof.Proof.KI.R2Frame
import proofs.«104465_j59356448031516_1_alg».proof.Proof.KI.Arrays
import proofs.«104465_j59356448031516_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between the items of @main -/

/-- At launch. -/
abbrev W0 (c : Dev nD) : Valuation τ sig (Elt F) := fun b => m (c, b)
abbrev Vr0 (c : Dev nD) (b : Ref sig .tc) : Buf (Elt F) ((c : Thread nD τ).loc b) := W0 m c b
/-- What call 0 leaves in its one-word array. -/
def res0 (c : Dev nD) : Buf (Elt F) ((c : Thread nD τ).loc main_v0) := (dat0 (Vr0 m) qHalf c).arrAt 2 cfg0.N
/-- After call 0. -/
abbrev W1 (c : Dev nD) : Valuation τ sig (Elt F) := Function.update (W0 m c) main_v0 (res0 m c)
abbrev Vr1 (c : Dev nD) (b : Ref sig .tc) : Buf (Elt F) ((c : Thread nD τ).loc b) := W1 m c b
/-- What call 1 leaves in its one-word array. -/
def res1 (c : Dev nD) : Buf (Elt F) ((c : Thread nD τ).loc main_v1) := (dat1 (Vr1 m) qHalf c).arrAt 2 cfg1.N
/-- After call 1. -/
abbrev W2 (c : Dev nD) : Valuation τ sig (Elt F) := Function.update (W1 m c) main_v1 (res1 m c)
abbrev Vr2 (c : Dev nD) (b : Ref sig .tc) : Buf (Elt F) ((c : Thread nD τ).loc b) := W2 m c b
/-- What call 2 leaves in its one-word array. -/
def res2 (c : Dev nD) : Buf (Elt F) ((c : Thread nD τ).loc main_v2) := (dat2 (Vr2 m) qFull c).arrAt 2 cfg2.N
/-- After call 2. -/
abbrev W3 (c : Dev nD) : Valuation τ sig (Elt F) := Function.update (W2 m c) main_v2 (res2 m c)
/-- After the host operations: at the return. -/
abbrev W4 (c : Dev nD) : Valuation τ sig (Elt F) := StableHlo.after hostOps3 (W3 m c)

/-! ## The proof data family and what rides beside the buffers -/

/-- Every call's proof data at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) qHalf c
  | ⟨1, _⟩ => fun c => dat1 (Vr1 m) qHalf c
  | ⟨2, _⟩ => fun c => dat2 (Vr2 m) qFull c
abbrev 𝒱₀ : Variants := Variants.none
abbrev L : GSem nD τ sig → Finset Unit := fun _ => ∅
abbrev lv : GSem nD τ sig → Unit → ℕ := fun _ _ => 0
/-- The generator register at some state, and nothing owed. -/
abbrev Rst (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

/-- When call 0 is left its input arrays are as it found them and its one-word array holds what the write-back left; -/
theorem hF0 (c : Dev nD) (w : Fin cfg0.W) : (pdats m 0 c).arrAt w cfg0.N = Vr1 m c (Pipeline.arrRef spec0 w) :=
  match w with
  | ⟨0, _⟩ => ((pdats m 0 c).arrAt_in 0 rfl _).trans
      (Function.update_of_ne (StableHlo.devRef_ne_of_ne (by decide) : (Proc.devRef .tc main_arg0 : DevRef τ sig) ≠ Proc.devRef .tc main_v0) (res0 m c) (W0 m c)).symm
  | ⟨1, _⟩ => ((pdats m 0 c).arrAt_in 1 rfl _).trans
      (Function.update_of_ne (StableHlo.devRef_ne_of_ne (by decide) : (Proc.devRef .tc main_arg0 : DevRef τ sig) ≠ Proc.devRef .tc main_v0) (res0 m c) (W0 m c)).symm
  | ⟨2, _⟩ => (Function.update_self (Proc.devRef .tc main_v0 : DevRef τ sig) _ (W0 m c)).symm
/-- every other buffer is untouched. -/
theorem hrest0 (c : Dev nD) : ∀ b, b ∉ Finset.univ.image (Pipeline.arrRef spec0) → Vr1 m c b = Vr0 m c b := fun b hb =>
  Function.update_of_ne (StableHlo.devRef_ne_of_ne (fun e => hb (e ▸ Finset.mem_image.mpr ⟨2, Finset.mem_univ _, rfl⟩)) :
    (Proc.devRef .tc b : DevRef τ sig) ≠ Proc.devRef .tc main_v0) _ _

set_option backward.isDefEq.respectTransparency.types false in
/-- Call 0 as a segment: entered with every unscoped buffer held at the contents before it, left with them at the contents
    after it; the generator register goes into the region's invariant and comes back; nothing is owed. -/
def reg0 : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vr0 m) qHalf c).loose
  hwaits := Pipeline.hwaits_of_owed_zero _ _ _ _ L lv 0 fun _ _ => rfl
  pre c := iprop(StableHlo.held (c : Thread nD τ) (Pipeline.ucRefs τ sig) (W0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := arrays_in0 c (Vr0 m c) (pdats m 0 c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (Vr0 m) qHalf c
    rw [show (pdats m 0 c).Φ 0 = (dat0 (Vr0 m) qHalf c).Φ 0 from rfl]
    unfold Pipeline.ΦA at h
    iintro ⟨Hp, -, Hr⟩
    iapply h
    isplitl [Hr]; · iexact Hr
    iexact Hp
  hout c := by
    have h := hout0 (Vr0 m) qHalf c
    rw [show (pdats m 0 c).Φ (Fin.last _) = (dat0 (Vr0 m) qHalf c).Φ (Fin.last cfg0.N) from rfl]
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := arrays_out0 c (Vr0 m c) (Vr1 m c) (pdats m 0 c) rfl (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- When call 1 is left its input arrays are as it found them and its one-word array holds what the write-back left; -/
theorem hF1 (c : Dev nD) (w : Fin cfg1.W) : (pdats m 1 c).arrAt w cfg1.N = Vr2 m c (Pipeline.arrRef spec1 w) :=
  match w with
  | ⟨0, _⟩ => ((pdats m 1 c).arrAt_in 0 rfl _).trans
      (Function.update_of_ne (StableHlo.devRef_ne_of_ne (by decide) : (Proc.devRef .tc main_arg1 : DevRef τ sig) ≠ Proc.devRef .tc main_v1) (res1 m c) (W1 m c)).symm
  | ⟨1, _⟩ => ((pdats m 1 c).arrAt_in 1 rfl _).trans
      (Function.update_of_ne (StableHlo.devRef_ne_of_ne (by decide) : (Proc.devRef .tc main_arg1 : DevRef τ sig) ≠ Proc.devRef .tc main_v1) (res1 m c) (W1 m c)).symm
  | ⟨2, _⟩ => (Function.update_self (Proc.devRef .tc main_v1 : DevRef τ sig) _ (W1 m c)).symm
/-- every other buffer is untouched. -/
theorem hrest1 (c : Dev nD) : ∀ b, b ∉ Finset.univ.image (Pipeline.arrRef spec1) → Vr2 m c b = Vr1 m c b := fun b hb =>
  Function.update_of_ne (StableHlo.devRef_ne_of_ne (fun e => hb (e ▸ Finset.mem_image.mpr ⟨2, Finset.mem_univ _, rfl⟩)) :
    (Proc.devRef .tc b : DevRef τ sig) ≠ Proc.devRef .tc main_v1) _ _

set_option backward.isDefEq.respectTransparency.types false in
/-- Call 1 as a segment: entered with every unscoped buffer held at the contents before it, left with them at the contents
    after it; the generator register goes into the region's invariant and comes back; nothing is owed. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) qHalf c).loose
  hwaits := Pipeline.hwaits_of_owed_zero _ _ _ _ L lv 1 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := arrays_in1 c (Vr1 m c) (pdats m 1 c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (Vr1 m) qHalf c
    rw [show (pdats m 1 c).Φ 0 = (dat1 (Vr1 m) qHalf c).Φ 0 from rfl]
    unfold Pipeline.ΦA at h
    iintro ⟨Hp, -, Hr⟩
    iapply h
    isplitl [Hr]; · iexact Hr
    iexact Hp
  hout c := by
    have h := hout1 (Vr1 m) qHalf c
    rw [show (pdats m 1 c).Φ (Fin.last _) = (dat1 (Vr1 m) qHalf c).Φ (Fin.last cfg1.N) from rfl]
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := arrays_out1 c (Vr1 m c) (Vr2 m c) (pdats m 1 c) rfl (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev Vr3 (c : Dev nD) (b : Ref sig .tc) : Buf (Elt F) ((c : Thread nD τ).loc b) := W3 m c b

/-- When call 2 is left its input arrays are as it found them and its one-word array holds what the write-back left; -/
theorem hF2 (c : Dev nD) (w : Fin cfg2.W) : (pdats m 2 c).arrAt w cfg2.N = Vr3 m c (Pipeline.arrRef spec2 w) :=
  match w with
  | ⟨0, _⟩ => ((pdats m 2 c).arrAt_in 0 rfl _).trans
      (Function.update_of_ne (StableHlo.devRef_ne_of_ne (by decide) : (Proc.devRef .tc main_arg0 : DevRef τ sig) ≠ Proc.devRef .tc main_v2) (res2 m c) (W2 m c)).symm
  | ⟨1, _⟩ => ((pdats m 2 c).arrAt_in 1 rfl _).trans
      (Function.update_of_ne (StableHlo.devRef_ne_of_ne (by decide) : (Proc.devRef .tc main_arg1 : DevRef τ sig) ≠ Proc.devRef .tc main_v2) (res2 m c) (W2 m c)).symm
  | ⟨2, _⟩ => (Function.update_self (Proc.devRef .tc main_v2 : DevRef τ sig) _ (W2 m c)).symm
/-- every other buffer is untouched. -/
theorem hrest2 (c : Dev nD) : ∀ b, b ∉ Finset.univ.image (Pipeline.arrRef spec2) → Vr3 m c b = Vr2 m c b := fun b hb =>
  Function.update_of_ne (StableHlo.devRef_ne_of_ne (fun e => hb (e ▸ Finset.mem_image.mpr ⟨2, Finset.mem_univ _, rfl⟩)) :
    (Proc.devRef .tc b : DevRef τ sig) ≠ Proc.devRef .tc main_v2) _ _

set_option backward.isDefEq.respectTransparency.types false in
/-- Call 2 as a segment: entered with every unscoped buffer held at the contents before it, left with them at the contents
    after it; the generator register goes into the region's invariant and comes back; nothing is owed. -/
def reg2 : RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (Vr2 m) qFull c).loose
  hwaits := Pipeline.hwaits_of_owed_zero _ _ _ _ L lv 2 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := arrays_in2 c (Vr2 m c) (pdats m 2 c) rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vr2 m) qFull c
    rw [show (pdats m 2 c).Φ 0 = (dat2 (Vr2 m) qFull c).Φ 0 from rfl]
    unfold Pipeline.ΦA at h
    iintro ⟨Hp, -, Hr⟩
    iapply h
    isplitl [Hr]; · iexact Hr
    iexact Hp
  hout c := by
    have h := hout2 (Vr2 m) qFull c
    rw [show (pdats m 2 c).Φ (Fin.last _) = (dat2 (Vr2 m) qFull c).Φ (Fin.last cfg2.N) from rfl]
    unfold Pipeline.ΦA at h
    rw [Pipeline.ownSems0_none]
    iintro H
    ihave H' := h $$ H
    icases H' with ⟨Hr, Hp⟩
    isplitl [Hp]; · iexact Hp
    isplitr; · iempintro
    iexact Hr
  hexit c := by
    have hjoin := arrays_out2 c (Vr2 m c) (Vr3 m c) (pdats m 2 c) rfl (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The thirteen host operations after the regions, as a segment from the contents call 2 leaves. -/
abbrev hseg3 : HostSeg (Name := ℕ) (U := UR sig nD τ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) Rst

/-- @main's four items in order. -/
abbrev segs : List (Seg (pcfgs (F := F)) adm (pdats m) () defs₀ 𝒱₀ L lv) :=
  [ .region (reg0 m), .region (reg1 m), .region (reg2 m), .host (hseg3 m) ]

/-- @main is the run of those items. -/
theorem main_run (c : Dev nD) : main (F := F) c = Seg.run (segs m) := (main_chain c).trans (by chain_rfl)

set_option backward.isDefEq.respectTransparency.types false in
/-- THE RUN: from any memory with zero counters every weakly fair execution of @main terminates, nothing faulting, and
    every final memory holds each unscoped buffer at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show iprop(StableHlo.held (c : Thread nD τ) (Pipeline.ucRefs τ sig) (W4 m c) ∗ Rst c)
        ⊢ iprop(iprop(StableHlo.held (c : Thread nD τ) (Pipeline.ucRefs τ sig) (W4 m c) ∗ ∃ r, prngReg c r)
            ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## What the last valuation holds -/

/-- No item writes an argument: each ends as launched. -/
theorem W4_arg0 (c : Dev nD) : W4 m c (Proc.devRef .tc main_arg0) = m ((c : Thread nD τ).loc main_arg0) :=
  (StableHlo.after_of_writes_sub hostOps3 _ hostOps3_writes (r := main_arg0) (by decide)).trans <|
    (Function.update_of_ne (StableHlo.devRef_ne_of_ne (by decide) : (Proc.devRef .tc main_arg0 : DevRef τ sig) ≠ Proc.devRef .tc main_v2) (res2 m c) (W2 m c)).trans <|
    (Function.update_of_ne (StableHlo.devRef_ne_of_ne (by decide) : (Proc.devRef .tc main_arg0 : DevRef τ sig) ≠ Proc.devRef .tc main_v1) (res1 m c) (W1 m c)).trans <|
    (Function.update_of_ne (StableHlo.devRef_ne_of_ne (by decide) : (Proc.devRef .tc main_arg0 : DevRef τ sig) ≠ Proc.devRef .tc main_v0) (res0 m c) (W0 m c))
theorem W4_arg1 (c : Dev nD) : W4 m c (Proc.devRef .tc main_arg1) = m ((c : Thread nD τ).loc main_arg1) :=
  (StableHlo.after_of_writes_sub hostOps3 _ hostOps3_writes (r := main_arg1) (by decide)).trans <|
    (Function.update_of_ne (StableHlo.devRef_ne_of_ne (by decide) : (Proc.devRef .tc main_arg1 : DevRef τ sig) ≠ Proc.devRef .tc main_v2) (res2 m c) (W2 m c)).trans <|
    (Function.update_of_ne (StableHlo.devRef_ne_of_ne (by decide) : (Proc.devRef .tc main_arg1 : DevRef τ sig) ≠ Proc.devRef .tc main_v1) (res1 m c) (W1 m c)).trans <|
    (Function.update_of_ne (StableHlo.devRef_ne_of_ne (by decide) : (Proc.devRef .tc main_arg1 : DevRef τ sig) ≠ Proc.devRef .tc main_v0) (res0 m c) (W0 m c))

/-- THE FRAME: the program runs to its end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m c), (h c _ (mem_uc main_arg1 (by decide))).trans (W4_arg1 m c)⟩) (run m ρ)

end Cert.KernelIdeal.Hand

end
-- ==== Proof.KI.R0Pieces.lean ====
/-
  Region 0: what each case leaves in the accumulator and the output block, as the kernel's arithmetic. Every store is of
  the whole one-word block, so the last store decides the contents: at the first point the accumulator ends at the
  point's sum added to the zero it was cleared to, at every later point at the point's sum added to what the point
  before left, and at the last point the output block is a copy of that.
-/
import proofs.«104465_j59356448031516_1_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block, however they are spelt. -/
theorem hz0 : (![0, 0] : Fin 2 → Nat) = fun _ => 0 := by
  funext a; match a with | ⟨0, _⟩ => rfl | ⟨1, _⟩ => rfl

/-- The first point leaves the point's sum over the cleared accumulator. -/
theorem sout0_A_eq (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S128x128 .f32) (x1 : Vec F S8192x128 .f32) :
    sout0_A c i arg1 harg1 arg2 harg2 arg3 harg3 arg4 harg4 hc0 hc1 x0 x1 = k0_pay2 x0 x1 (k0_pay1 (F := F)) := by
  unfold sout0_A
  rw [View.read_writes_eq_canon _ _ _ (scover0_A c i arg1 harg1 arg2 harg2 arg3 harg3 arg4 harg4 hc0 hc1 x0 x1)]
  unfold kernelRun0_A
  dsimp only
  sl_unfold_words
  rw [View.canon_cons_unit_zero (S := S1x1) hz0]
  simp only [View.readAt_eq_ld, harg1.read_unread, harg2.read_unread, View.ld_unit_zero (S := S128x128) hz0,
    View.ld_unit_zero (S := S8192x128) hz0, View.readCov_unit_zero (S := S1x1) _ hz0]

/-- A middle point leaves the point's sum over what it found. -/
theorem sout0_B_eq (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S128x128 .f32) (x1 : Vec F S8192x128 .f32) (xs0 : Vec F S1x1 .f32) :
    sout0_B c i arg1 harg1 arg2 harg2 arg3 harg3 arg4 harg4 hc0 hc1 x0 x1 xs0 = k0_pay2 x0 x1 xs0 := by
  unfold sout0_B
  rw [View.read_writes_eq_canon _ _ _ (scover0_B c i arg1 harg1 arg2 harg2 arg3 harg3 arg4 harg4 hc0 hc1 x0 x1 xs0)]
  unfold kernelRun0_B
  dsimp only
  sl_unfold_words
  rw [View.canon_unit_zero (S := S1x1) hz0]
  simp only [View.readAt_eq_ld, harg1.read_unread, harg2.read_unread, harg4.read_unread, View.ld_unit_zero (S := S128x128) hz0,
    View.ld_unit_zero (S := S8192x128) hz0, View.ld_unit_zero (S := S1x1) hz0]

/-- The last point leaves the same in the accumulator, -/
theorem sout0_C_eq (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) :
    sout0_C c i arg1 harg1 arg2 harg2 arg3 harg3 arg4 harg4 hc0 hc1 x0 x1 xs0 = k0_pay2 x0 x1 xs0 := by
  unfold sout0_C
  rw [View.read_writes_eq_canon _ _ _ (scover0_C c i arg1 harg1 arg2 harg2 arg3 harg3 arg4 harg4 hc0 hc1 x0 x1 xs0)]
  unfold kernelRun0_C
  dsimp only
  sl_unfold_words
  rw [View.canon_unit_zero (S := S1x1) hz0]
  simp only [View.readAt_eq_ld, harg1.read_unread, harg2.read_unread, harg4.read_unread, View.ld_unit_zero (S := S128x128) hz0,
    View.ld_unit_zero (S := S8192x128) hz0, View.ld_unit_zero (S := S1x1) hz0]

/-- and a copy of it in the output block. -/
theorem out0_C_eq (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S128x128 .f32) (x1 : Vec F S8192x128 .f32) (xs0 : Vec F S1x1 .f32) :
    out0_C c i arg1 harg1 arg2 harg2 arg3 harg3 arg4 harg4 hc0 hc1 x0 x1 xs0 = k0_pay2 x0 x1 xs0 := by
  unfold out0_C
  rw [View.read_writes_eq_canon _ _ _ (cover0_C c i arg1 harg1 arg2 harg2 arg3 harg3 arg4 harg4 hc0 hc1 x0 x1 xs0)]
  unfold kernelRun0_C
  dsimp only
  sl_unfold_words
  rw [View.canon_unit_zero (S := S1x1) hz0]
  simp only [View.readAt_eq_ld, harg1.read_unread, harg2.read_unread, harg4.read_unread, View.ld_unit_zero (S := S128x128) hz0,
    View.ld_unit_zero (S := S8192x128) hz0, View.ld_unit_zero (S := S1x1) hz0, View.readCov_unit_zero (S := S1x1) _ hz0]

end Cert.KernelIdeal.Hand

end
-- ==== Proof.Spec.lean ====
/-
  The mathematics both programs compute, on the extended reals.

  For two arrays `a`, `b` of 8192 rows and 128 columns, the Gaussian-kernel entry of rows `i`, `j` is
  `exp (-(‖a i‖² + ‖b j‖² - 2 ⟨a i, b j⟩))`, written with the squared norms and the inner product as sums over the 128
  columns. `pairSum a b` adds the entries over all 8192 × 8192 pairs of rows; the statistic is
  `pairSum x x / N² + pairSum y y / N² - 2 pairSum x y / N²` with `N² = 2²⁶`.

  The kernel walks the rows of `a` in 64 tiles of 128 rows and adds one tile's entries (`tileSum`) to a running sum at
  every grid point; the reference sums all pairs at once. Sums of extended reals are commutative and associative
  without any finiteness, so the two groupings agree (`pairSum_eq_tiles`); and multiplying by two before or after the
  division by `2²⁶` is the same product (`two_mul_div`).
-/
import Idealize.ShloMosaic.PureOps.Ideal
import Idealize.ShloMosaic.PureOps.Ideal.Laws
import Idealize.ShloMosaic.Lib.ValueIdx
import Mathlib.Logic.Equiv.Fin.Basic
import Mathlib.Data.EReal.Basic
import Mathlib.Data.Fintype.BigOperators
import Mathlib.Algebra.BigOperators.Fin
import Mathlib.Algebra.BigOperators.Group.Finset.Defs
import Mathlib.Algebra.BigOperators.Group.Finset.Basic

noncomputable section

open Idealize.ShloMosaic Idealize.ShloMosaic.ValueIdx

namespace Cert.MMD

/-- The literals, kept as the words the programs print. -/
abbrev two : EReal := Ideal.ofBits .f32 0x40000000#32
abbrev negOne : EReal := Ideal.ofBits .f32 0xBF800000#32
abbrev nSq : EReal := Ideal.ofBits .f32 0x4C800000#32

/-- An array of `R` rows and 128 columns. -/
abbrev Mat (R : Nat) : Type := (⟨2, ![R, 128]⟩ : Shape).Idx → EReal

/-- The squared norm of row `r`. -/
def rowSq {R : Nat} (a : Mat R) (r : Fin R) : EReal := ∑ k : Fin 128, a (ix2 r k) * a (ix2 r k)

/-- The inner product of row `i` of `a` and row `j` of `b`. -/
def rowDot {R R' : Nat} (a : Mat R) (b : Mat R') (i : Fin R) (j : Fin R') : EReal := ∑ k : Fin 128, a (ix2 i k) * b (ix2 j k)

/-- The Gaussian-kernel entry of row `i` of `a` and row `j` of `b`. -/
def entry {R R' : Nat} (a : Mat R) (b : Mat R') (i : Fin R) (j : Fin R') : EReal :=
  Ideal.exp (negOne * ((rowSq a i + rowSq b j) - two * rowDot a b i j))

/-- The entries of one tile of 128 rows against all 8192 rows, summed. -/
def tileSum (a : Mat 128) (b : Mat 8192) : EReal := ∑ i : Fin 128, ∑ j : Fin 8192, entry a b i j

/-- All 8192 × 8192 entries, summed. -/
def pairSum (a b : Mat 8192) : EReal := ∑ i : Fin 8192, ∑ j : Fin 8192, entry a b i j

/-- Tile `s` of an array: its rows `128 s … 128 s + 127`. -/
def tile (a : Mat 8192) (s : Fin 64) : Mat 128 := fun y => a (ix2 ⟨128 * s.val + (y 0).val, by have := (y 0).isLt; have := s.isLt; simp only [Matrix.cons_val_zero] at *; omega⟩ ⟨(y 1).val, by have := (y 1).isLt; simpa using this⟩)

/-- The running sum after the grid points `0 … n - 1`: zero, then one tile's sum added per point. -/
def accTo (a b : Mat 8192) : Nat → EReal
  | 0 => 0
  | n + 1 => accTo a b n + (if h : n < 64 then tileSum (tile a ⟨n, h⟩) b else 0)

/-- An entry of a tile is the entry of the whole array at the tile's row: the tile's rows read the same numbers. -/
theorem entry_tile (a b : Mat 8192) (s : Fin 64) (i : Fin 128) (j : Fin 8192) :
    entry (tile a s) b i j = entry a b ⟨128 * s.val + i.val, by omega⟩ j := rfl

/-- The running sum after `n` grid points is the sum of the `n` terms added so far. -/
theorem accTo_eq_sum_range (a b : Mat 8192) (n : Nat) :
    accTo a b n = ∑ m ∈ Finset.range n, (if h : m < 64 then tileSum (tile a ⟨m, h⟩) b else 0) := by
  induction n with
  | zero => simp [accTo]
  | succ n ih => rw [accTo, ih, Finset.sum_range_succ]

/-- A sum over 64 tiles of 128 rows each is the sum over all 8192 rows: row `r` is row `r % 128` of tile `r / 128`,
    and a finite sum in a commutative monoid does not depend on the order of its terms. -/
theorem sum_tiles (F : Fin 8192 → EReal) :
    ∑ s : Fin 64, ∑ i : Fin 128, F ⟨128 * s.val + i.val, by omega⟩ = ∑ r : Fin 8192, F r := by
  rw [← Fintype.sum_prod_type']
  exact Fintype.sum_equiv (finProdFinEquiv (m := 64) (n := 128)) _ _
    (fun x => congrArg F (Fin.ext (by simp [finProdFinEquiv, add_comm])))

/-- The 64 tile sums add up to the sum over all pairs. -/
theorem pairSum_eq_tiles (a b : Mat 8192) : accTo a b 64 = pairSum a b := by
  rw [accTo_eq_sum_range, Finset.sum_range, pairSum, ← sum_tiles]
  refine Finset.sum_congr rfl fun s _ => ?_
  rw [dif_pos s.isLt]
  rfl

/-- The statistic, as the reference groups it. -/
def stat (sxx syy sxy : EReal) : EReal := (Ideal.div sxx nSq + Ideal.div syy nSq) - two * Ideal.div sxy nSq

/-- The word `0x4C800000` has sign `0`, exponent field `153` and a zero fraction: it denotes `2²³ · 2³ = 2²⁶ = 67108864`. -/
theorem nSq_eq : nSq = ((67108864 : ℝ) : EReal) := by
  simp [Ideal.ofBits, Ideal.ieee, -EReal.coe_mul]; norm_num

/-- So the divisor is not zero. -/
theorem nSq_ne_zero : nSq ≠ 0 := by
  rw [nSq_eq]; exact_mod_cast (by norm_num : (67108864 : ℝ) ≠ 0)

/-- Doubling before or after the division by `2²⁶` gives the same extended real. -/
theorem two_mul_div (s : EReal) : Ideal.div (two * s) nSq = two * Ideal.div s nSq := by
  unfold Ideal.div
  rw [if_neg nSq_ne_zero, if_neg nSq_ne_zero, mul_assoc]

end Cert.MMD

end
-- ==== Proof.KI.PayIdeal.lean ====
/-
  What one grid point adds to the running sum, read on the extended reals: the body's stored value is the running sum it
  loaded plus the sum, over the tile's 128 rows and all 8192 rows of the second operand, of the Gaussian-kernel entries
  `exp (-(‖a i‖² + ‖b j‖² - 2 ⟨a i, b j⟩))` — the squared norms by lane sums, the inner products by the matrix product
  into a zero accumulator (a change of float format is the identity on the extended reals).
-/
import proofs.«104465_j59356448031516_1_alg».proof.Proof.Gen.KernelIdeal.Skeleton
import proofs.«104465_j59356448031516_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.PayIdeal

open Cert.KernelIdeal Cert.KernelIdeal.Gen Cert.MMD

/-! ## Layout operations of a column kept as a unit axis, read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The sums along one axis, read at coordinates -/

/-- The sum along the columns of a `[128, 128]` array, at row `r`. -/
theorem rowSum_128x128 (v : FVec Ideal S128x128 .f32) (r : Fin 128) :
    multiReduction (F := Ideal) .add [1] S128 v 0x00000000#32 reduces_S128x128_S128 (.inl rfl) rfl (ix1 r)
      = ∑ k : Fin 128, v (ix2 r k) := by
  refine (Ideal.multiReduction_add_single v _ reduces_S128x128_S128 (.inl rfl) rfl (ix1 r)).trans ?_
  refine Finset.sum_congr rfl fun k _ => congrArg v ?_
  exact funext fun a => Fin.ext (by match a with | ⟨0, _⟩ => rfl | ⟨1, _⟩ => rfl)

/-- The sum along the columns of an `[8192, 128]` array, at row `r`. -/
theorem rowSum_8192x128 (v : FVec Ideal S8192x128 .f32) (r : Fin 8192) :
    multiReduction (F := Ideal) .add [1] S8192 v 0x00000000#32 reduces_S8192x128_S8192 (.inl rfl) rfl (ix1 r)
      = ∑ k : Fin 128, v (ix2 r k) := by
  refine (Ideal.multiReduction_add_single v _ reduces_S8192x128_S8192 (.inl rfl) rfl (ix1 r)).trans ?_
  refine Finset.sum_congr rfl fun k _ => congrArg v ?_
  exact funext fun a => Fin.ext (by match a with | ⟨0, _⟩ => rfl | ⟨1, _⟩ => rfl)

/-- The sum along the columns of a `[128, 8192]` array, at row `r`. -/
theorem rowSum_128x8192 (v : FVec Ideal S128x8192 .f32) (r : Fin 128) :
    multiReduction (F := Ideal) .add [1] S128 v 0x00000000#32 reduces_S128x8192_S128 (.inl rfl) rfl (ix1 r)
      = ∑ k : Fin 8192, v (ix2 r k) := by
  refine (Ideal.multiReduction_add_single v _ reduces_S128x8192_S128 (.inl rfl) rfl (ix1 r)).trans ?_
  refine Finset.sum_congr rfl fun k _ => congrArg v ?_
  exact funext fun a => Fin.ext (by match a with | ⟨0, _⟩ => rfl | ⟨1, _⟩ => rfl)

/-- The sum along the rows of a `[128, 1]` array, at its one column. -/
theorem colSum_128x1 (v : FVec Ideal S128x1 .f32) (w : Fin 1) :
    multiReduction (F := Ideal) .add [0] S1 v 0x00000000#32 reduces_S128x1_S1 (.inl rfl) rfl (ix1 w)
      = ∑ k : Fin 128, v (ix2 k w) := by
  refine (Ideal.multiReduction_add_single v _ reduces_S128x1_S1 (.inl rfl) rfl (ix1 w)).trans ?_
  refine Finset.sum_congr rfl fun k _ => congrArg v ?_
  exact funext fun a => Fin.ext (by match a with | ⟨0, _⟩ => rfl | ⟨1, _⟩ => rfl)

/-! ## The matrix product into a zero accumulator, read at coordinates -/

theorem lhs_dot_0 (i : S128x8192.Idx) (q : dot_S128x128_S8192x128_S128x8192_1_1_0_0_n_n.contr.Idx) :
    (dot_S128x128_S8192x128_S128x8192_1_1_0_0_n_n.lhsIdx i q 0).val = (i 0).val := by
  unfold DotDims.lhsIdx
  rw [dif_neg (show ¬(0 : Fin S128x128.rank) ∈ dot_S128x128_S8192x128_S128x8192_1_1_0_0_n_n.lhsBatch by decide), dif_pos (show (0 : Fin S128x128.rank) ∈ dot_S128x128_S8192x128_S128x8192_1_1_0_0_n_n.lhsNonContracting by decide)]
  rfl
theorem lhs_dot_1 (i : S128x8192.Idx) (q : dot_S128x128_S8192x128_S128x8192_1_1_0_0_n_n.contr.Idx) :
    (dot_S128x128_S8192x128_S128x8192_1_1_0_0_n_n.lhsIdx i q 1).val = (q ⟨0, by decide⟩).val :=
  dot_S128x128_S8192x128_S128x8192_1_1_0_0_n_n.lhsIdx_val_of_single rfl i q
theorem rhs_dot_0 (i : S128x8192.Idx) (q : dot_S128x128_S8192x128_S128x8192_1_1_0_0_n_n.contr.Idx) :
    (dot_S128x128_S8192x128_S128x8192_1_1_0_0_n_n.rhsIdx i q 0).val = (i 1).val := by
  unfold DotDims.rhsIdx
  rw [dif_neg (show ¬(0 : Fin S8192x128.rank) ∈ dot_S128x128_S8192x128_S128x8192_1_1_0_0_n_n.rhsBatch by decide), dif_pos (show (0 : Fin S8192x128.rank) ∈ dot_S128x128_S8192x128_S128x8192_1_1_0_0_n_n.rhsNonContracting by decide)]
  rfl
theorem rhs_dot_1 (i : S128x8192.Idx) (q : dot_S128x128_S8192x128_S128x8192_1_1_0_0_n_n.contr.Idx) :
    (dot_S128x128_S8192x128_S128x8192_1_1_0_0_n_n.rhsIdx i q 1).val = (q ⟨0, by decide⟩).val :=
  dot_S128x128_S8192x128_S128x8192_1_1_0_0_n_n.rhsIdx_val_of_single rfl i q

/-- The product of a `[128, 128]` array with the transpose of an `[8192, 128]` array, into a zero accumulator: at
    `(i, j)` the inner product of row `i` of the first with row `j` of the second. -/
theorem matmul_zero_ij (l : FVec Ideal S128x128 .bf16) (r : FVec Ideal S8192x128 .bf16) (i : Fin 128) (j : Fin 8192) :
    matmul (F := Ideal) dot_S128x128_S8192x128_S128x8192_1_1_0_0_n_n none l r (constant (F := Ideal) S128x8192 .f32 0x00000000#32) (ix2 i j)
      = ∑ k : Fin 128, l (ix2 i k) * r (ix2 j k) := by
  refine (Ideal.matmul_constant_zero_apply dot_S128x128_S8192x128_S128x8192_1_1_0_0_n_n none l r (ix2 i j)).trans ?_
  rw [← Equiv.sum_comp (contrEquiv1 dot_S128x128_S8192x128_S128x8192_1_1_0_0_n_n 128 rfl rfl).symm]
  refine Finset.sum_congr rfl fun k _ => ?_
  have hk := contrEquiv1_symm_val dot_S128x128_S8192x128_S128x8192_1_1_0_0_n_n 128 rfl rfl k
  have el : dot_S128x128_S8192x128_S128x8192_1_1_0_0_n_n.lhsIdx (ix2 i j) ((contrEquiv1 dot_S128x128_S8192x128_S128x8192_1_1_0_0_n_n 128 rfl rfl).symm k) = ix2 i k := funext fun a => Fin.ext (by
    match a with
    | ⟨0, _⟩ => exact lhs_dot_0 _ _
    | ⟨1, _⟩ => exact (lhs_dot_1 _ _).trans hk)
  have er : dot_S128x128_S8192x128_S128x8192_1_1_0_0_n_n.rhsIdx (ix2 i j) ((contrEquiv1 dot_S128x128_S8192x128_S128x8192_1_1_0_0_n_n 128 rfl rfl).symm k) = ix2 j k := funext fun a => Fin.ext (by
    match a with
    | ⟨0, _⟩ => exact rhs_dot_0 _ _
    | ⟨1, _⟩ => exact (rhs_dot_1 _ _).trans hk)
  rw [el, er]

/-! ## The exponential, read at an index -/

/-- The exponential of an array, read at an index, on the extended reals. -/
theorem exp_apply {s : Shape} {φ : FTy} (a : FVec Ideal s φ) (i : s.Idx) :
    Idealize.ShloMosaic.exp a i = Ideal.exp (a i) := rfl

/-! ## The two stored values -/

/-- The value the first point stores to clear the running sum is zero. -/
theorem pay1_0 : (k0_pay1 (F := Ideal)) = fun _ => (0 : EReal) := by
  funext j
  unfold k0_pay1
  rw [shapeCast_self]
  exact Ideal.ofBits_zero_f32

/-- The value a point stores into the running sum: what it loaded, plus the tile's sum. The one entry of the result is
    the loaded entry plus the sum over the 128 rows `i` of the row sums over the 8192 columns `j` of the `[128, 8192]`
    array of exponentials, and that array at `(i, j)` is the Gaussian-kernel entry: its two broadcast terms are the
    squared norms of row `i` and of row `j`, its product term the inner product of the two rows. -/
theorem pay2_0 (x0 : Vec Ideal S128x128 .f32) (x1 : Vec Ideal S8192x128 .f32) (xs : Vec Ideal S1x1 .f32) :
    k0_pay2 (F := Ideal) x0 x1 xs = fun _ => xs (ix2 0 0) + tileSum x0 x1 := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay2
  simp only [shapeCast_self, addf_apply, shapeCast_a_1a_apply]
  refine congrArg (xs (ix2 0 0) + ·) ?_
  refine (colSum_128x1 _ 0).trans ?_
  unfold tileSum
  refine Finset.sum_congr rfl fun i _ => ?_
  refine (shapeCast_a_a1_apply _ _ i 0).trans ?_
  refine (rowSum_128x8192 _ i).trans ?_
  refine Finset.sum_congr rfl fun j _ => ?_
  simp only [exp_apply, mulf_apply, subf_apply, addf_apply, broadcast_apply, broadcastTo_a1_ab_apply,
    broadcastTo_1b_ab_apply, shapeCast_a_a1_apply, matmul_zero_ij, truncf_apply]
  rw [rowSum_128x128, transpose_ix2_apply, shapeCast_a_a1_apply, rowSum_8192x128]
  rfl

/-- The second and third launches' bodies compute the same two values from what they load. -/
theorem pay1_1 : (k1_pay1 (F := Ideal)) = fun _ => (0 : EReal) := by
  funext j
  unfold k1_pay1
  rw [shapeCast_self]
  exact Ideal.ofBits_zero_f32

theorem pay2_1 (x0 : Vec Ideal S128x128 .f32) (x1 : Vec Ideal S8192x128 .f32) (xs : Vec Ideal S1x1 .f32) :
    k1_pay2 (F := Ideal) x0 x1 xs = fun _ => xs (ix2 0 0) + tileSum x0 x1 :=
  (show k1_pay2 (F := Ideal) x0 x1 xs = k0_pay2 (F := Ideal) x0 x1 xs from rfl).trans (pay2_0 x0 x1 xs)

theorem pay1_2 : (k2_pay1 (F := Ideal)) = fun _ => (0 : EReal) := by
  funext j
  unfold k2_pay1
  rw [shapeCast_self]
  exact Ideal.ofBits_zero_f32

theorem pay2_2 (x0 : Vec Ideal S128x128 .f32) (x1 : Vec Ideal S8192x128 .f32) (xs : Vec Ideal S1x1 .f32) :
    k2_pay2 (F := Ideal) x0 x1 xs = fun _ => xs (ix2 0 0) + tileSum x0 x1 :=
  (show k2_pay2 (F := Ideal) x0 x1 xs = k0_pay2 (F := Ideal) x0 x1 xs from rfl).trans (pay2_0 x0 x1 xs)

end Cert.KernelIdeal.PayIdeal

end
-- ==== Proof.KI.R0Value.lean ====
/-
  Region 0 on the extended reals: the one-word array the call leaves is the sum of the Gaussian-kernel entries over all
  pairs of rows of its two operand arrays. Point `t` reads tile `t` of the first operand and the whole second operand;
  the accumulator after point `n` is the sum of the first `n + 1` tiles' sums; the last point copies it to the output
  block, whose write-back fills the one-word array.
-/
import proofs.«104465_j59356448031516_1_alg».proof.Proof.KI.R0Pieces
import proofs.«104465_j59356448031516_1_alg».proof.Proof.KI.PayIdeal
import proofs.«104465_j59356448031516_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

variable (V : (c : Dev nD) → (b : Ref sig .tc) → Buf (Elt Ideal) ((c : Thread nD τ).loc b)) (q : Fin 3 → PosShare TreeShare)

/-- The call's two operand arrays, as the region finds them. -/
abbrev opA0 (c : Dev nD) : Cert.MMD.Mat 8192 := V c (Pipeline.arrRef spec0 0)
abbrev opB0 (c : Dev nD) : Cert.MMD.Mat 8192 := V c (Pipeline.arrRef spec0 1)

/-- Window 0's block index at point `t` is `(t, 0)`. -/
theorem widx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1's block index is `(0, 0)` at every point. -/
theorem widx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2's block index is `(0, 0)` at every point, and its block is never cut: one word on each axis. -/
theorem widx0_2 : ∀ t : Fin cfg0.N, win0_2.index t (0 : Fin 2) = 0 ∧ win0_2.index t (1 : Fin 2) = 0
    ∧ win0_2.xsize (grid0.coords t) (0 : Fin 2) = 1 ∧ win0_2.xsize (grid0.coords t) (1 : Fin 2) = 1 :=
  (by decide +kernel : ∀ t : Fin grid0.N, win0_2.index t (0 : Fin 2) = 0 ∧ win0_2.index t (1 : Fin 2) = 0
    ∧ win0_2.xsize (grid0.coords t) (0 : Fin 2) = 1 ∧ win0_2.xsize (grid0.coords t) (1 : Fin 2) = 1)

/-- Point `t`'s block of the first operand is its tile `t`. -/
theorem iblk0_0_eq (c : Dev nD) (t : Fin cfg0.N) :
    (iblk0 V c 0 t : Cert.MMD.Mat 128) = Cert.MMD.tile (opA0 V c) ⟨t.val, lt_of_lt_of_eq t.isLt N0_eq⟩ := by
  obtain ⟨e0, e1⟩ := widx0_0 t
  funext y
  unfold iblk0 Cert.MMD.tile
  rw [View.read_apply]
  show V c (Pipeline.arrRef spec0 0) _ = V c (Pipeline.arrRef spec0 0) _
  congr 1
  -- an element of the block sits in the array, on each axis, at block index × block size + its own coordinate:
  -- row `128 t + y 0`, column `y 1`
  funext a
  apply Fin.ext
  match a with
  | ⟨0, _⟩ => show win0_0.index t (0 : Fin 2) * 128 + 1 * (y 0).val = 128 * t.val + (y 0).val; rw [e0]; omega
  | ⟨1, _⟩ => show win0_0.index t (1 : Fin 2) * 128 + 1 * (y 1).val = (y 1).val; rw [e1]; omega

/-- Every point's block of the second operand is the whole array. -/
theorem iblk0_1_eq (c : Dev nD) (t : Fin cfg0.N) : (iblk0 V c 1 t : Cert.MMD.Mat 8192) = opB0 V c := by
  obtain ⟨e0, e1⟩ := widx0_1 t
  funext y
  unfold iblk0
  rw [View.read_apply]
  show V c (Pipeline.arrRef spec0 1) _ = V c (Pipeline.arrRef spec0 1) _
  congr 1
  -- the block index is zero on both axes, so an element of the block has its own coordinates in the array
  funext a
  apply Fin.ext
  match a with
  | ⟨0, _⟩ => show win0_1.index t (0 : Fin 2) * 8192 + 1 * (y 0).val = (y 0).val; rw [e0]; omega
  | ⟨1, _⟩ => show win0_1.index t (1 : Fin 2) * 128 + 1 * (y 1).val = (y 1).val; rw [e1]; omega

/-- The accumulator after point `n`: the first `n + 1` tiles' sums. -/
theorem acc0 (c : Dev nD) (n : ℕ) (hn : n < cfg0.N) :
    (outsAt0 (F := Ideal) V c n hn).2 = fun _ => Cert.MMD.accTo (opA0 V c) (opB0 V c) (n + 1) := by
  induction n with
  | zero =>
    -- the first point: tile 0's sum over the zero the accumulator was cleared to
    rw [outsAt0_A V c ⟨0, hn⟩ rfl (by show (0 : ℕ) ≠ 63; decide)]
    dsimp only
    rw [sout0_A_eq, PayIdeal.pay2_0, PayIdeal.pay1_0, iblk0_0_eq, iblk0_1_eq]
    funext _
    show (0 : EReal) + _ = Cert.MMD.accTo (opA0 V c) (opB0 V c) 0 + (if h : 0 < 64 then _ else 0)
    rw [dif_pos (by decide : 0 < 64)]
    rfl
  | succ n ih =>
    -- a later point, the last one included: tile `n + 1`'s sum over what point `n` left
    have ih' := ih (Nat.lt_of_succ_lt hn)
    have hN : n + 1 < 64 := lt_of_lt_of_eq hn N0_eq
    by_cases h1 : n + 1 = 63
    · rw [outsAt0_C V c ⟨n + 1, hn⟩ (Nat.succ_ne_zero n) h1]
      dsimp only
      rw [sout0_C_eq, PayIdeal.pay2_0, iblk0_0_eq, iblk0_1_eq]
      funext _
      show (outsAt0 V c n _).2 _ + _ = Cert.MMD.accTo (opA0 V c) (opB0 V c) (n + 1) + (if h : n + 1 < 64 then _ else 0)
      rw [dif_pos hN, ih']
    · rw [outsAt0_B V c ⟨n + 1, hn⟩ (Nat.succ_ne_zero n) h1]
      dsimp only
      rw [sout0_B_eq, PayIdeal.pay2_0, iblk0_0_eq, iblk0_1_eq]
      funext _
      show (outsAt0 V c n _).2 _ + _ = Cert.MMD.accTo (opA0 V c) (opB0 V c) (n + 1) + (if h : n + 1 < 64 then _ else 0)
      rw [dif_pos hN, ih']

/-- The output block after the last point: the sum over all pairs. -/
theorem out0_last (c : Dev nD) (hn : 63 < cfg0.N) :
    (outsAt0 (F := Ideal) V c 63 hn).1 = fun _ => Cert.MMD.pairSum (opA0 V c) (opB0 V c) := by
  -- the last point stores tile 63's sum over the first 63 tiles' sums: all 64 tiles' sums, which is the sum over all pairs
  rw [outsAt0_C V c ⟨63, hn⟩ (by show (63 : ℕ) ≠ 0; decide) rfl]
  dsimp only
  rw [out0_C_eq, PayIdeal.pay2_0, iblk0_0_eq, iblk0_1_eq]
  funext _
  rw [← Cert.MMD.pairSum_eq_tiles,
    show Cert.MMD.accTo (opA0 V c) (opB0 V c) 64 = Cert.MMD.accTo (opA0 V c) (opB0 V c) 63
      + (if h : 63 < 64 then Cert.MMD.tileSum (Cert.MMD.tile (opA0 V c) ⟨63, h⟩) (opB0 V c) else 0) from rfl,
    dif_pos (by decide : 63 < 64)]
  show (outsAt0 V c 62 _).2 _ + _ = _
  rw [acc0 V c 62 _]

/-- The call's one-word array when the region is left. -/
theorem final0 (c : Dev nD) :
    (dat0 (F := Ideal) V q c).arrAt 2 cfg0.N = fun _ => Cert.MMD.pairSum (opA0 V c) (opB0 V c) := by
  have hN : (63 : ℕ) < cfg0.N := by rw [N0_eq]; decide
  refine (dat0 V q c).arrAt_eq_of_cover 2 (fun _ => Cert.MMD.pairSum (opA0 V c) (opB0 V c)) (fun t hf => ?_) (fun i => ?_)
  · -- the one write-back is at point 63; what it writes is the output block there, a constant function, and the
    -- block of a constant function is that constant function
    have h63 : t.val = 63 := by
      have h := (flush0_2 t).mp hf; have hlt := lt_of_lt_of_eq t.isLt N0_eq; omega
    obtain rfl : t = ⟨63, hN⟩ := Fin.ext h63
    funext y
    rw [View.read_apply]
    show (dat0 V q c).after 2 ⟨63, hN⟩ _ = _
    rw [after0_2]
    show (outsAt0 V c 63 hN).1 _ = _
    rw [out0_last]
    exact (cast_eq _ _).symm
  · -- the array's one index lies in point 63's block: the block starts at `(0, 0)` and is one word on each axis
    obtain ⟨e0, e1, x0, x1⟩ := widx0_2 ⟨63, hN⟩
    refine ⟨⟨63, hN⟩, (flush0_2 _).mpr rfl, ?_⟩
    show i ∈ ((View.whole (Pipeline.arrRef spec0 2)).slice (win0_2.rect ⟨63, hN⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index ⟨63, hN⟩ (0 : Fin 2) * 1 ≤ (i 0 : Nat) ∧ (i 0 : Nat) < win0_2.index ⟨63, hN⟩ (0 : Fin 2) * 1 + win0_2.xsize (grid0.coords ⟨63, hN⟩) (0 : Fin 2)
      rw [e0, x0]; omega
    | ⟨1, _⟩ =>
      show win0_2.index ⟨63, hN⟩ (1 : Fin 2) * 1 ≤ (i 1 : Nat) ∧ (i 1 : Nat) < win0_2.index ⟨63, hN⟩ (1 : Fin 2) * 1 + win0_2.xsize (grid0.coords ⟨63, hN⟩) (1 : Fin 2)
      rw [e1, x1]; omega

end Cert.KernelIdeal.Hand

end
-- ==== Proof.KI.R1Pieces.lean ====
/-
  Region 1: what each case leaves in the accumulator and the output block, as the kernel's arithmetic. Every store is of
  the whole one-word block, so the last store decides the contents: at the first point the accumulator ends at the
  point's sum added to the zero it was cleared to, at every later point at the point's sum added to what the point
  before left, and at the last point the output block is a copy of that.
-/
import proofs.«104465_j59356448031516_1_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block, however they are spelt. -/
theorem hz1 : (![0, 0] : Fin 2 → Nat) = fun _ => 0 := by
  funext a; match a with | ⟨0, _⟩ => rfl | ⟨1, _⟩ => rfl

/-- The first point leaves the point's sum over the cleared accumulator. -/
theorem sout1_A_eq (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S128x128 .f32) (x1 : Vec F S8192x128 .f32) :
    sout1_A c i arg1 harg1 arg2 harg2 arg3 harg3 arg4 harg4 hc0 hc1 x0 x1 = k1_pay2 x0 x1 (k1_pay1 (F := F)) := by
  unfold sout1_A
  rw [View.read_writes_eq_canon _ _ _ (scover1_A c i arg1 harg1 arg2 harg2 arg3 harg3 arg4 harg4 hc0 hc1 x0 x1)]
  unfold kernelRun1_A
  dsimp only
  sl_unfold_words
  rw [View.canon_cons_unit_zero (S := S1x1) hz1]
  simp only [View.readAt_eq_ld, harg1.read_unread, harg2.read_unread, View.ld_unit_zero (S := S128x128) hz1,
    View.ld_unit_zero (S := S8192x128) hz1, View.readCov_unit_zero (S := S1x1) _ hz1]

/-- A middle point leaves the point's sum over what it found. -/
theorem sout1_B_eq (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S128x128 .f32) (x1 : Vec F S8192x128 .f32) (xs0 : Vec F S1x1 .f32) :
    sout1_B c i arg1 harg1 arg2 harg2 arg3 harg3 arg4 harg4 hc0 hc1 x0 x1 xs0 = k1_pay2 x0 x1 xs0 := by
  unfold sout1_B
  rw [View.read_writes_eq_canon _ _ _ (scover1_B c i arg1 harg1 arg2 harg2 arg3 harg3 arg4 harg4 hc0 hc1 x0 x1 xs0)]
  unfold kernelRun1_B
  dsimp only
  sl_unfold_words
  rw [View.canon_unit_zero (S := S1x1) hz1]
  simp only [View.readAt_eq_ld, harg1.read_unread, harg2.read_unread, harg4.read_unread, View.ld_unit_zero (S := S128x128) hz1,
    View.ld_unit_zero (S := S8192x128) hz1, View.ld_unit_zero (S := S1x1) hz1]

/-- The last point leaves the same in the accumulator, -/
theorem sout1_C_eq (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) :
    sout1_C c i arg1 harg1 arg2 harg2 arg3 harg3 arg4 harg4 hc0 hc1 x0 x1 xs0 = k1_pay2 x0 x1 xs0 := by
  unfold sout1_C
  rw [View.read_writes_eq_canon _ _ _ (scover1_C c i arg1 harg1 arg2 harg2 arg3 harg3 arg4 harg4 hc0 hc1 x0 x1 xs0)]
  unfold kernelRun1_C
  dsimp only
  sl_unfold_words
  rw [View.canon_unit_zero (S := S1x1) hz1]
  simp only [View.readAt_eq_ld, harg1.read_unread, harg2.read_unread, harg4.read_unread, View.ld_unit_zero (S := S128x128) hz1,
    View.ld_unit_zero (S := S8192x128) hz1, View.ld_unit_zero (S := S1x1) hz1]

/-- and a copy of it in the output block. -/
theorem out1_C_eq (c : Dev nD) (i : grid1.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S128x128 .f32) (x1 : Vec F S8192x128 .f32) (xs0 : Vec F S1x1 .f32) :
    out1_C c i arg1 harg1 arg2 harg2 arg3 harg3 arg4 harg4 hc0 hc1 x0 x1 xs0 = k1_pay2 x0 x1 xs0 := by
  unfold out1_C
  rw [View.read_writes_eq_canon _ _ _ (cover1_C c i arg1 harg1 arg2 harg2 arg3 harg3 arg4 harg4 hc0 hc1 x0 x1 xs0)]
  unfold kernelRun1_C
  dsimp only
  sl_unfold_words
  rw [View.canon_unit_zero (S := S1x1) hz1]
  simp only [View.readAt_eq_ld, harg1.read_unread, harg2.read_unread, harg4.read_unread, View.ld_unit_zero (S := S128x128) hz1,
    View.ld_unit_zero (S := S8192x128) hz1, View.ld_unit_zero (S := S1x1) hz1, View.readCov_unit_zero (S := S1x1) _ hz1]

end Cert.KernelIdeal.Hand

end
-- ==== Proof.KI.R1Value.lean ====
/-
  Region 1 on the extended reals: the one-word array the call leaves is the sum of the Gaussian-kernel entries over all
  pairs of rows of its two operand arrays. Point `t` reads tile `t` of the first operand and the whole second operand;
  the accumulator after point `n` is the sum of the first `n + 1` tiles' sums; the last point copies it to the output
  block, whose write-back fills the one-word array.
-/
import proofs.«104465_j59356448031516_1_alg».proof.Proof.KI.R1Pieces
import proofs.«104465_j59356448031516_1_alg».proof.Proof.KI.PayIdeal
import proofs.«104465_j59356448031516_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

variable (V : (c : Dev nD) → (b : Ref sig .tc) → Buf (Elt Ideal) ((c : Thread nD τ).loc b)) (q : Fin 3 → PosShare TreeShare)

/-- The call's two operand arrays, as the region finds them. -/
abbrev opA1 (c : Dev nD) : Cert.MMD.Mat 8192 := V c (Pipeline.arrRef spec1 0)
abbrev opB1 (c : Dev nD) : Cert.MMD.Mat 8192 := V c (Pipeline.arrRef spec1 1)

/-- Window 0's block index at point `t` is `(t, 0)`. -/
theorem widx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Window 1's block index is `(0, 0)` at every point. -/
theorem widx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)

/-- Window 2's block index is `(0, 0)` at every point, and its block is never cut: one word on each axis. -/
theorem widx1_2 : ∀ t : Fin cfg1.N, win1_2.index t (0 : Fin 2) = 0 ∧ win1_2.index t (1 : Fin 2) = 0
    ∧ win1_2.xsize (grid1.coords t) (0 : Fin 2) = 1 ∧ win1_2.xsize (grid1.coords t) (1 : Fin 2) = 1 :=
  (by decide +kernel : ∀ t : Fin grid1.N, win1_2.index t (0 : Fin 2) = 0 ∧ win1_2.index t (1 : Fin 2) = 0
    ∧ win1_2.xsize (grid1.coords t) (0 : Fin 2) = 1 ∧ win1_2.xsize (grid1.coords t) (1 : Fin 2) = 1)

/-- Point `t`'s block of the first operand is its tile `t`. -/
theorem iblk1_0_eq (c : Dev nD) (t : Fin cfg1.N) :
    (iblk1 V c 0 t : Cert.MMD.Mat 128) = Cert.MMD.tile (opA1 V c) ⟨t.val, lt_of_lt_of_eq t.isLt N1_eq⟩ := by
  obtain ⟨e0, e1⟩ := widx1_0 t
  funext y
  unfold iblk1 Cert.MMD.tile
  rw [View.read_apply]
  show V c (Pipeline.arrRef spec1 0) _ = V c (Pipeline.arrRef spec1 0) _
  congr 1
  -- an element of the block sits in the array, on each axis, at block index × block size + its own coordinate:
  -- row `128 t + y 0`, column `y 1`
  funext a
  apply Fin.ext
  match a with
  | ⟨0, _⟩ => show win1_0.index t (0 : Fin 2) * 128 + 1 * (y 0).val = 128 * t.val + (y 0).val; rw [e0]; omega
  | ⟨1, _⟩ => show win1_0.index t (1 : Fin 2) * 128 + 1 * (y 1).val = (y 1).val; rw [e1]; omega

/-- Every point's block of the second operand is the whole array. -/
theorem iblk1_1_eq (c : Dev nD) (t : Fin cfg1.N) : (iblk1 V c 1 t : Cert.MMD.Mat 8192) = opB1 V c := by
  obtain ⟨e0, e1⟩ := widx1_1 t
  funext y
  unfold iblk1
  rw [View.read_apply]
  show V c (Pipeline.arrRef spec1 1) _ = V c (Pipeline.arrRef spec1 1) _
  congr 1
  -- the block index is zero on both axes, so an element of the block has its own coordinates in the array
  funext a
  apply Fin.ext
  match a with
  | ⟨0, _⟩ => show win1_1.index t (0 : Fin 2) * 8192 + 1 * (y 0).val = (y 0).val; rw [e0]; omega
  | ⟨1, _⟩ => show win1_1.index t (1 : Fin 2) * 128 + 1 * (y 1).val = (y 1).val; rw [e1]; omega

/-- The accumulator after point `n`: the first `n + 1` tiles' sums. -/
theorem acc1 (c : Dev nD) (n : ℕ) (hn : n < cfg1.N) :
    (outsAt1 (F := Ideal) V c n hn).2 = fun _ => Cert.MMD.accTo (opA1 V c) (opB1 V c) (n + 1) := by
  induction n with
  | zero =>
    -- the first point: tile 0's sum over the zero the accumulator was cleared to
    rw [outsAt1_A V c ⟨0, hn⟩ rfl (by show (0 : ℕ) ≠ 63; decide)]
    dsimp only
    rw [sout1_A_eq, PayIdeal.pay2_1, PayIdeal.pay1_1, iblk1_0_eq, iblk1_1_eq]
    funext _
    show (0 : EReal) + _ = Cert.MMD.accTo (opA1 V c) (opB1 V c) 0 + (if h : 0 < 64 then _ else 0)
    rw [dif_pos (by decide : 0 < 64)]
    rfl
  | succ n ih =>
    -- a later point, the last one included: tile `n + 1`'s sum over what point `n` left
    have ih' := ih (Nat.lt_of_succ_lt hn)
    have hN : n + 1 < 64 := lt_of_lt_of_eq hn N1_eq
    by_cases h1 : n + 1 = 63
    · rw [outsAt1_C V c ⟨n + 1, hn⟩ (Nat.succ_ne_zero n) h1]
      dsimp only
      rw [sout1_C_eq, PayIdeal.pay2_1, iblk1_0_eq, iblk1_1_eq]
      funext _
      show (outsAt1 V c n _).2 _ + _ = Cert.MMD.accTo (opA1 V c) (opB1 V c) (n + 1) + (if h : n + 1 < 64 then _ else 0)
      rw [dif_pos hN, ih']
    · rw [outsAt1_B V c ⟨n + 1, hn⟩ (Nat.succ_ne_zero n) h1]
      dsimp only
      rw [sout1_B_eq, PayIdeal.pay2_1, iblk1_0_eq, iblk1_1_eq]
      funext _
      show (outsAt1 V c n _).2 _ + _ = Cert.MMD.accTo (opA1 V c) (opB1 V c) (n + 1) + (if h : n + 1 < 64 then _ else 0)
      rw [dif_pos hN, ih']

/-- The output block after the last point: the sum over all pairs. -/
theorem out1_last (c : Dev nD) (hn : 63 < cfg1.N) :
    (outsAt1 (F := Ideal) V c 63 hn).1 = fun _ => Cert.MMD.pairSum (opA1 V c) (opB1 V c) := by
  -- the last point stores tile 63's sum over the first 63 tiles' sums: all 64 tiles' sums, which is the sum over all pairs
  rw [outsAt1_C V c ⟨63, hn⟩ (by show (63 : ℕ) ≠ 0; decide) rfl]
  dsimp only
  rw [out1_C_eq, PayIdeal.pay2_1, iblk1_0_eq, iblk1_1_eq]
  funext _
  rw [← Cert.MMD.pairSum_eq_tiles,
    show Cert.MMD.accTo (opA1 V c) (opB1 V c) 64 = Cert.MMD.accTo (opA1 V c) (opB1 V c) 63
      + (if h : 63 < 64 then Cert.MMD.tileSum (Cert.MMD.tile (opA1 V c) ⟨63, h⟩) (opB1 V c) else 0) from rfl,
    dif_pos (by decide : 63 < 64)]
  show (outsAt1 V c 62 _).2 _ + _ = _
  rw [acc1 V c 62 _]

/-- The call's one-word array when the region is left. -/
theorem final1 (c : Dev nD) :
    (dat1 (F := Ideal) V q c).arrAt 2 cfg1.N = fun _ => Cert.MMD.pairSum (opA1 V c) (opB1 V c) := by
  have hN : (63 : ℕ) < cfg1.N := by rw [N1_eq]; decide
  refine (dat1 V q c).arrAt_eq_of_cover 2 (fun _ => Cert.MMD.pairSum (opA1 V c) (opB1 V c)) (fun t hf => ?_) (fun i => ?_)
  · -- the one write-back is at point 63; what it writes is the output block there, a constant function, and the
    -- block of a constant function is that constant function
    have h63 : t.val = 63 := by
      have h := (flush1_2 t).mp hf; have hlt := lt_of_lt_of_eq t.isLt N1_eq; omega
    obtain rfl : t = ⟨63, hN⟩ := Fin.ext h63
    funext y
    rw [View.read_apply]
    show (dat1 V q c).after 2 ⟨63, hN⟩ _ = _
    rw [after1_2]
    show (outsAt1 V c 63 hN).1 _ = _
    rw [out1_last]
    exact (cast_eq _ _).symm
  · -- the array's one index lies in point 63's block: the block starts at `(0, 0)` and is one word on each axis
    obtain ⟨e0, e1, x0, x1⟩ := widx1_2 ⟨63, hN⟩
    refine ⟨⟨63, hN⟩, (flush1_2 _).mpr rfl, ?_⟩
    show i ∈ ((View.whole (Pipeline.arrRef spec1 2)).slice (win1_2.rect ⟨63, hN⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_2.index ⟨63, hN⟩ (0 : Fin 2) * 1 ≤ (i 0 : Nat) ∧ (i 0 : Nat) < win1_2.index ⟨63, hN⟩ (0 : Fin 2) * 1 + win1_2.xsize (grid1.coords ⟨63, hN⟩) (0 : Fin 2)
      rw [e0, x0]; omega
    | ⟨1, _⟩ =>
      show win1_2.index ⟨63, hN⟩ (1 : Fin 2) * 1 ≤ (i 1 : Nat) ∧ (i 1 : Nat) < win1_2.index ⟨63, hN⟩ (1 : Fin 2) * 1 + win1_2.xsize (grid1.coords ⟨63, hN⟩) (1 : Fin 2)
      rw [e1, x1]; omega

end Cert.KernelIdeal.Hand

end
-- ==== Proof.KI.R2Pieces.lean ====
/-
  Region 2: what each case leaves in the accumulator and the output block, as the kernel's arithmetic. Every store is of
  the whole one-word block, so the last store decides the contents: at the first point the accumulator ends at the
  point's sum added to the zero it was cleared to, at every later point at the point's sum added to what the point
  before left, and at the last point the output block is a copy of that.
-/
import proofs.«104465_j59356448031516_1_alg».proof.Proof.KI.R2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two block, however they are spelt. -/
theorem hz2 : (![0, 0] : Fin 2 → Nat) = fun _ => 0 := by
  funext a; match a with | ⟨0, _⟩ => rfl | ⟨1, _⟩ => rfl

/-- The first point leaves the point's sum over the cleared accumulator. -/
theorem sout2_A_eq (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : cond2_0 i) (hc1 : ¬cond2_1 i)
    (x0 : Vec F S128x128 .f32) (x1 : Vec F S8192x128 .f32) :
    sout2_A c i arg1 harg1 arg2 harg2 arg3 harg3 arg4 harg4 hc0 hc1 x0 x1 = k2_pay2 x0 x1 (k2_pay1 (F := F)) := by
  unfold sout2_A
  rw [View.read_writes_eq_canon _ _ _ (scover2_A c i arg1 harg1 arg2 harg2 arg3 harg3 arg4 harg4 hc0 hc1 x0 x1)]
  unfold kernelRun2_A
  dsimp only
  sl_unfold_words
  rw [View.canon_cons_unit_zero (S := S1x1) hz2]
  simp only [View.readAt_eq_ld, harg1.read_unread, harg2.read_unread, View.ld_unit_zero (S := S128x128) hz2,
    View.ld_unit_zero (S := S8192x128) hz2, View.readCov_unit_zero (S := S1x1) _ hz2]

/-- A middle point leaves the point's sum over what it found. -/
theorem sout2_B_eq (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : ¬cond2_1 i)
    (x0 : Vec F S128x128 .f32) (x1 : Vec F S8192x128 .f32) (xs0 : Vec F S1x1 .f32) :
    sout2_B c i arg1 harg1 arg2 harg2 arg3 harg3 arg4 harg4 hc0 hc1 x0 x1 xs0 = k2_pay2 x0 x1 xs0 := by
  unfold sout2_B
  rw [View.read_writes_eq_canon _ _ _ (scover2_B c i arg1 harg1 arg2 harg2 arg3 harg3 arg4 harg4 hc0 hc1 x0 x1 xs0)]
  unfold kernelRun2_B
  dsimp only
  sl_unfold_words
  rw [View.canon_unit_zero (S := S1x1) hz2]
  simp only [View.readAt_eq_ld, harg1.read_unread, harg2.read_unread, harg4.read_unread, View.ld_unit_zero (S := S128x128) hz2,
    View.ld_unit_zero (S := S8192x128) hz2, View.ld_unit_zero (S := S1x1) hz2]

/-- The last point leaves the same in the accumulator, -/
theorem sout2_C_eq (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) :
    sout2_C c i arg1 harg1 arg2 harg2 arg3 harg3 arg4 harg4 hc0 hc1 x0 x1 xs0 = k2_pay2 x0 x1 xs0 := by
  unfold sout2_C
  rw [View.read_writes_eq_canon _ _ _ (scover2_C c i arg1 harg1 arg2 harg2 arg3 harg3 arg4 harg4 hc0 hc1 x0 x1 xs0)]
  unfold kernelRun2_C
  dsimp only
  sl_unfold_words
  rw [View.canon_unit_zero (S := S1x1) hz2]
  simp only [View.readAt_eq_ld, harg1.read_unread, harg2.read_unread, harg4.read_unread, View.ld_unit_zero (S := S128x128) hz2,
    View.ld_unit_zero (S := S8192x128) hz2, View.ld_unit_zero (S := S1x1) hz2]

/-- and a copy of it in the output block. -/
theorem out2_C_eq (c : Dev nD) (i : grid2.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (hc0 : ¬cond2_0 i) (hc1 : cond2_1 i)
    (x0 : Vec F S128x128 .f32) (x1 : Vec F S8192x128 .f32) (xs0 : Vec F S1x1 .f32) :
    out2_C c i arg1 harg1 arg2 harg2 arg3 harg3 arg4 harg4 hc0 hc1 x0 x1 xs0 = k2_pay2 x0 x1 xs0 := by
  unfold out2_C
  rw [View.read_writes_eq_canon _ _ _ (cover2_C c i arg1 harg1 arg2 harg2 arg3 harg3 arg4 harg4 hc0 hc1 x0 x1 xs0)]
  unfold kernelRun2_C
  dsimp only
  sl_unfold_words
  rw [View.canon_unit_zero (S := S1x1) hz2]
  simp only [View.readAt_eq_ld, harg1.read_unread, harg2.read_unread, harg4.read_unread, View.ld_unit_zero (S := S128x128) hz2,
    View.ld_unit_zero (S := S8192x128) hz2, View.ld_unit_zero (S := S1x1) hz2, View.readCov_unit_zero (S := S1x1) _ hz2]

end Cert.KernelIdeal.Hand

end
-- ==== Proof.KI.R2Value.lean ====
/-
  Region 2 on the extended reals: the one-word array the call leaves is the sum of the Gaussian-kernel entries over all
  pairs of rows of its two operand arrays. Point `t` reads tile `t` of the first operand and the whole second operand;
  the accumulator after point `n` is the sum of the first `n + 1` tiles' sums; the last point copies it to the output
  block, whose write-back fills the one-word array.
-/
import proofs.«104465_j59356448031516_1_alg».proof.Proof.KI.R2Pieces
import proofs.«104465_j59356448031516_1_alg».proof.Proof.KI.PayIdeal
import proofs.«104465_j59356448031516_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

variable (V : (c : Dev nD) → (b : Ref sig .tc) → Buf (Elt Ideal) ((c : Thread nD τ).loc b)) (q : Fin 3 → PosShare TreeShare)

/-- The call's two operand arrays, as the region finds them. -/
abbrev opA2 (c : Dev nD) : Cert.MMD.Mat 8192 := V c (Pipeline.arrRef spec2 0)
abbrev opB2 (c : Dev nD) : Cert.MMD.Mat 8192 := V c (Pipeline.arrRef spec2 1)

/-- Window 0's block index at point `t` is `(t, 0)`. -/
theorem widx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- Window 1's block index is `(0, 0)` at every point. -/
theorem widx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- Window 2's block index is `(0, 0)` at every point, and its block is never cut: one word on each axis. -/
theorem widx2_2 : ∀ t : Fin cfg2.N, win2_2.index t (0 : Fin 2) = 0 ∧ win2_2.index t (1 : Fin 2) = 0
    ∧ win2_2.xsize (grid2.coords t) (0 : Fin 2) = 1 ∧ win2_2.xsize (grid2.coords t) (1 : Fin 2) = 1 :=
  (by decide +kernel : ∀ t : Fin grid2.N, win2_2.index t (0 : Fin 2) = 0 ∧ win2_2.index t (1 : Fin 2) = 0
    ∧ win2_2.xsize (grid2.coords t) (0 : Fin 2) = 1 ∧ win2_2.xsize (grid2.coords t) (1 : Fin 2) = 1)

/-- Point `t`'s block of the first operand is its tile `t`. -/
theorem iblk2_0_eq (c : Dev nD) (t : Fin cfg2.N) :
    (iblk2 V c 0 t : Cert.MMD.Mat 128) = Cert.MMD.tile (opA2 V c) ⟨t.val, lt_of_lt_of_eq t.isLt N2_eq⟩ := by
  obtain ⟨e0, e1⟩ := widx2_0 t
  funext y
  unfold iblk2 Cert.MMD.tile
  rw [View.read_apply]
  show V c (Pipeline.arrRef spec2 0) _ = V c (Pipeline.arrRef spec2 0) _
  congr 1
  -- an element of the block sits in the array, on each axis, at block index × block size + its own coordinate:
  -- row `128 t + y 0`, column `y 1`
  funext a
  apply Fin.ext
  match a with
  | ⟨0, _⟩ => show win2_0.index t (0 : Fin 2) * 128 + 1 * (y 0).val = 128 * t.val + (y 0).val; rw [e0]; omega
  | ⟨1, _⟩ => show win2_0.index t (1 : Fin 2) * 128 + 1 * (y 1).val = (y 1).val; rw [e1]; omega

/-- Every point's block of the second operand is the whole array. -/
theorem iblk2_1_eq (c : Dev nD) (t : Fin cfg2.N) : (iblk2 V c 1 t : Cert.MMD.Mat 8192) = opB2 V c := by
  obtain ⟨e0, e1⟩ := widx2_1 t
  funext y
  unfold iblk2
  rw [View.read_apply]
  show V c (Pipeline.arrRef spec2 1) _ = V c (Pipeline.arrRef spec2 1) _
  congr 1
  -- the block index is zero on both axes, so an element of the block has its own coordinates in the array
  funext a
  apply Fin.ext
  match a with
  | ⟨0, _⟩ => show win2_1.index t (0 : Fin 2) * 8192 + 1 * (y 0).val = (y 0).val; rw [e0]; omega
  | ⟨1, _⟩ => show win2_1.index t (1 : Fin 2) * 128 + 1 * (y 1).val = (y 1).val; rw [e1]; omega

/-- The accumulator after point `n`: the first `n + 1` tiles' sums. -/
theorem acc2 (c : Dev nD) (n : ℕ) (hn : n < cfg2.N) :
    (outsAt2 (F := Ideal) V c n hn).2 = fun _ => Cert.MMD.accTo (opA2 V c) (opB2 V c) (n + 1) := by
  induction n with
  | zero =>
    -- the first point: tile 0's sum over the zero the accumulator was cleared to
    rw [outsAt2_A V c ⟨0, hn⟩ rfl (by show (0 : ℕ) ≠ 63; decide)]
    dsimp only
    rw [sout2_A_eq, PayIdeal.pay2_2, PayIdeal.pay1_2, iblk2_0_eq, iblk2_1_eq]
    funext _
    show (0 : EReal) + _ = Cert.MMD.accTo (opA2 V c) (opB2 V c) 0 + (if h : 0 < 64 then _ else 0)
    rw [dif_pos (by decide : 0 < 64)]
    rfl
  | succ n ih =>
    -- a later point, the last one included: tile `n + 1`'s sum over what point `n` left
    have ih' := ih (Nat.lt_of_succ_lt hn)
    have hN : n + 1 < 64 := lt_of_lt_of_eq hn N2_eq
    by_cases h1 : n + 1 = 63
    · rw [outsAt2_C V c ⟨n + 1, hn⟩ (Nat.succ_ne_zero n) h1]
      dsimp only
      rw [sout2_C_eq, PayIdeal.pay2_2, iblk2_0_eq, iblk2_1_eq]
      funext _
      show (outsAt2 V c n _).2 _ + _ = Cert.MMD.accTo (opA2 V c) (opB2 V c) (n + 1) + (if h : n + 1 < 64 then _ else 0)
      rw [dif_pos hN, ih']
    · rw [outsAt2_B V c ⟨n + 1, hn⟩ (Nat.succ_ne_zero n) h1]
      dsimp only
      rw [sout2_B_eq, PayIdeal.pay2_2, iblk2_0_eq, iblk2_1_eq]
      funext _
      show (outsAt2 V c n _).2 _ + _ = Cert.MMD.accTo (opA2 V c) (opB2 V c) (n + 1) + (if h : n + 1 < 64 then _ else 0)
      rw [dif_pos hN, ih']

/-- The output block after the last point: the sum over all pairs. -/
theorem out2_last (c : Dev nD) (hn : 63 < cfg2.N) :
    (outsAt2 (F := Ideal) V c 63 hn).1 = fun _ => Cert.MMD.pairSum (opA2 V c) (opB2 V c) := by
  -- the last point stores tile 63's sum over the first 63 tiles' sums: all 64 tiles' sums, which is the sum over all pairs
  rw [outsAt2_C V c ⟨63, hn⟩ (by show (63 : ℕ) ≠ 0; decide) rfl]
  dsimp only
  rw [out2_C_eq, PayIdeal.pay2_2, iblk2_0_eq, iblk2_1_eq]
  funext _
  rw [← Cert.MMD.pairSum_eq_tiles,
    show Cert.MMD.accTo (opA2 V c) (opB2 V c) 64 = Cert.MMD.accTo (opA2 V c) (opB2 V c) 63
      + (if h : 63 < 64 then Cert.MMD.tileSum (Cert.MMD.tile (opA2 V c) ⟨63, h⟩) (opB2 V c) else 0) from rfl,
    dif_pos (by decide : 63 < 64)]
  show (outsAt2 V c 62 _).2 _ + _ = _
  rw [acc2 V c 62 _]

/-- The call's one-word array when the region is left. -/
theorem final2 (c : Dev nD) :
    (dat2 (F := Ideal) V q c).arrAt 2 cfg2.N = fun _ => Cert.MMD.pairSum (opA2 V c) (opB2 V c) := by
  have hN : (63 : ℕ) < cfg2.N := by rw [N2_eq]; decide
  refine (dat2 V q c).arrAt_eq_of_cover 2 (fun _ => Cert.MMD.pairSum (opA2 V c) (opB2 V c)) (fun t hf => ?_) (fun i => ?_)
  · -- the one write-back is at point 63; what it writes is the output block there, a constant function, and the
    -- block of a constant function is that constant function
    have h63 : t.val = 63 := by
      have h := (flush2_2 t).mp hf; have hlt := lt_of_lt_of_eq t.isLt N2_eq; omega
    obtain rfl : t = ⟨63, hN⟩ := Fin.ext h63
    funext y
    rw [View.read_apply]
    show (dat2 V q c).after 2 ⟨63, hN⟩ _ = _
    rw [after2_2]
    show (outsAt2 V c 63 hN).1 _ = _
    rw [out2_last]
    exact (cast_eq _ _).symm
  · -- the array's one index lies in point 63's block: the block starts at `(0, 0)` and is one word on each axis
    obtain ⟨e0, e1, x0, x1⟩ := widx2_2 ⟨63, hN⟩
    refine ⟨⟨63, hN⟩, (flush2_2 _).mpr rfl, ?_⟩
    show i ∈ ((View.whole (Pipeline.arrRef spec2 2)).slice (win2_2.rect ⟨63, hN⟩)).set
    rw [View.set_slice_whole, Rect.mem_set_unit]
    intro a
    have h0 : (i 0 : Nat) < 1 := (i 0).isLt
    have h1 : (i 1 : Nat) < 1 := (i 1).isLt
    match a with
    | ⟨0, _⟩ =>
      show win2_2.index ⟨63, hN⟩ (0 : Fin 2) * 1 ≤ (i 0 : Nat) ∧ (i 0 : Nat) < win2_2.index ⟨63, hN⟩ (0 : Fin 2) * 1 + win2_2.xsize (grid2.coords ⟨63, hN⟩) (0 : Fin 2)
      rw [e0, x0]; omega
    | ⟨1, _⟩ =>
      show win2_2.index ⟨63, hN⟩ (1 : Fin 2) * 1 ≤ (i 1 : Nat) ∧ (i 1 : Nat) < win2_2.index ⟨63, hN⟩ (1 : Fin 2) * 1 + win2_2.xsize (grid2.coords ⟨63, hN⟩) (1 : Fin 2)
      rw [e1, x1]; omega

end Cert.KernelIdeal.Hand

end
-- ==== Proof.RefValue.lean ====
/-
  The reference program's result on the extended reals: each of its three means is the sum of the Gaussian-kernel
  entries over all pairs of rows divided by `2²⁶`, and the result is the first two means added, less twice the third.

  Each mean is read off one element at a time. At the pair of rows `(i, j)` the broadcast row sums read row `i` of the
  first array and row `j` of the second, and the contraction of the first array with the transpose of the second reads
  the same two rows, column by column; so the element under the exponential is the entry of the specification. The sum
  over all index pairs, started from the zero word, is the double sum over rows, and the quotient by the word of `2²⁶`
  is kept as that word.
-/
import proofs.«104465_j59356448031516_1_alg».proof.Proof.Gen.ReferenceIdeal.Read
import proofs.«104465_j59356448031516_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.Read Cert.MMD

/-- A sum over all pairs of rows that starts from the zero word and whose term at `(i, j)` is the entry of rows `i`, `j`
    is `pairSum`; dividing both by the same word gives the same quotient. -/
theorem mean_of_entry (a b : Mat 8192) (f : (⟨2, ![8192, 8192]⟩ : Shape).Idx → EReal)
    (h : ∀ i j : Fin 8192, f (ix2 i j) = entry a b i j) :
    Ideal.div (Ideal.ofBits .f32 0x00000000#32 + ∑ j, f j) nSq = Ideal.div (pairSum a b) nSq := by
  rw [Ideal.ofBits_zero_f32, zero_add, sum_idx2, pairSum]
  exact congrArg (Ideal.div · nSq) (Finset.sum_congr rfl fun i _ => Finset.sum_congr rfl fun j _ => h i j)

/-- The element under the sum of the first mean at rows `(i, j)` is the entry of row `i` of `x` and row `j` of `x`. -/
theorem entry_xx (x : (⟨S8192x128, .f32⟩ : BufTy).Contents (Elt Ideal)) (i j : Fin 8192) :
    val_main_v17 (F := Ideal) x (ix2 i j) = entry x x i j := by
  have e1 : ∀ k : Fin 128, idx_main_v1 (idx_main_v2 (idx_main_v7 (ix2 i j))) k = ix2 i k :=
    fun k => funext fun a => Fin.ext (by match a with | ⟨0, _⟩ => rfl | ⟨1, _⟩ => rfl)
  have e2 : ∀ k : Fin 128, idx_main_v4 (idx_main_v5 (idx_main_v6 (idx_main_v8 (ix2 i j)))) k = ix2 j k :=
    fun k => funext fun a => Fin.ext (by match a with | ⟨0, _⟩ => rfl | ⟨1, _⟩ => rfl)
  have e3 : ∀ k : Fin 128, lidx_main_v11 (ix2 i j) k = ix2 i k :=
    fun k => funext fun a => Fin.ext (by match a with | ⟨0, _⟩ => rfl | ⟨1, _⟩ => rfl)
  have e4 : ∀ k : Fin 128, idx_main_v10 (ridx_main_v11 (ix2 i j) k) = ix2 j k :=
    fun k => funext fun a => Fin.ext (by match a with | ⟨0, _⟩ => rfl | ⟨1, _⟩ => rfl)
  rw [val_main_v17_apply, val_main_v16_apply, val_main_v15_apply, val_main_cst_2_apply,
    val_main_v14_apply, val_main_v9_apply,
    val_main_v7_apply, val_main_v2_apply, val_main_v1_apply, val_main_cst_apply,
    val_main_v8_apply, val_main_v6_apply, val_main_v5_apply, val_main_v4_apply, val_main_cst_0_apply,
    val_main_v13_apply, val_main_v12_apply, val_main_cst_1_apply, val_main_v11_apply]
  simp only [val_main_v0_apply, val_main_v3_apply, val_main_v10_apply, e1, e2, e3, e4,
    Ideal.mulf_def, Ideal.addf_def, Ideal.subf_def, Ideal.ofBits_def, Ideal.hostUnary_exp_def,
    Ideal.ofBits_zero_f32, zero_add]
  rfl

/-- The first mean: the sum of the entries over all pairs of rows, divided by the word of `2²⁶`. -/
theorem mean_xx (x : (⟨S8192x128, .f32⟩ : BufTy).Contents (Elt Ideal)) (i : S_.Idx) :
    val_main_v19 (F := Ideal) x i = Ideal.div (pairSum x x) nSq := by
  rw [val_main_v19_apply, val_main_v18_apply, val_main_cst_3_apply, val_main_cst_4_apply]
  simp only [Ideal.hostDivf_def, Ideal.ofBits_def]
  exact mean_of_entry x x _ (entry_xx x)

/-- The element under the sum of the second mean at rows `(i, j)` is the entry of row `i` of `y` and row `j` of `y`. -/
theorem entry_yy (y : (⟨S8192x128, .f32⟩ : BufTy).Contents (Elt Ideal)) (i j : Fin 8192) :
    val_main_v37 (F := Ideal) y (ix2 i j) = entry y y i j := by
  have e1 : ∀ k : Fin 128, idx_main_v21 (idx_main_v22 (idx_main_v27 (ix2 i j))) k = ix2 i k :=
    fun k => funext fun a => Fin.ext (by match a with | ⟨0, _⟩ => rfl | ⟨1, _⟩ => rfl)
  have e2 : ∀ k : Fin 128, idx_main_v24 (idx_main_v25 (idx_main_v26 (idx_main_v28 (ix2 i j)))) k = ix2 j k :=
    fun k => funext fun a => Fin.ext (by match a with | ⟨0, _⟩ => rfl | ⟨1, _⟩ => rfl)
  have e3 : ∀ k : Fin 128, lidx_main_v31 (ix2 i j) k = ix2 i k :=
    fun k => funext fun a => Fin.ext (by match a with | ⟨0, _⟩ => rfl | ⟨1, _⟩ => rfl)
  have e4 : ∀ k : Fin 128, idx_main_v30 (ridx_main_v31 (ix2 i j) k) = ix2 j k :=
    fun k => funext fun a => Fin.ext (by match a with | ⟨0, _⟩ => rfl | ⟨1, _⟩ => rfl)
  rw [val_main_v37_apply, val_main_v36_apply, val_main_v35_apply, val_main_cst_8_apply,
    val_main_v34_apply, val_main_v29_apply,
    val_main_v27_apply, val_main_v22_apply, val_main_v21_apply, val_main_cst_5_apply,
    val_main_v28_apply, val_main_v26_apply, val_main_v25_apply, val_main_v24_apply, val_main_cst_6_apply,
    val_main_v33_apply, val_main_v32_apply, val_main_cst_7_apply, val_main_v31_apply]
  simp only [val_main_v20_apply, val_main_v23_apply, val_main_v30_apply, e1, e2, e3, e4,
    Ideal.mulf_def, Ideal.addf_def, Ideal.subf_def, Ideal.ofBits_def, Ideal.hostUnary_exp_def,
    Ideal.ofBits_zero_f32, zero_add]
  rfl

/-- The second mean: the sum of the entries over all pairs of rows, divided by the word of `2²⁶`. -/
theorem mean_yy (y : (⟨S8192x128, .f32⟩ : BufTy).Contents (Elt Ideal)) (i : S_.Idx) :
    val_main_v39 (F := Ideal) y i = Ideal.div (pairSum y y) nSq := by
  rw [val_main_v39_apply, val_main_v38_apply, val_main_cst_9_apply, val_main_cst_10_apply]
  simp only [Ideal.hostDivf_def, Ideal.ofBits_def]
  exact mean_of_entry y y _ (entry_yy y)

/-- The element under the sum of the third mean at rows `(i, j)` is the entry of row `i` of `x` and row `j` of `y`. -/
theorem entry_xy (x : (⟨S8192x128, .f32⟩ : BufTy).Contents (Elt Ideal)) (y : (⟨S8192x128, .f32⟩ : BufTy).Contents (Elt Ideal)) (i j : Fin 8192) :
    val_main_v58 (F := Ideal) x y (ix2 i j) = entry x y i j := by
  have e1 : ∀ k : Fin 128, idx_main_v42 (idx_main_v43 (idx_main_v48 (ix2 i j))) k = ix2 i k :=
    fun k => funext fun a => Fin.ext (by match a with | ⟨0, _⟩ => rfl | ⟨1, _⟩ => rfl)
  have e2 : ∀ k : Fin 128, idx_main_v45 (idx_main_v46 (idx_main_v47 (idx_main_v49 (ix2 i j)))) k = ix2 j k :=
    fun k => funext fun a => Fin.ext (by match a with | ⟨0, _⟩ => rfl | ⟨1, _⟩ => rfl)
  have e3 : ∀ k : Fin 128, lidx_main_v52 (ix2 i j) k = ix2 i k :=
    fun k => funext fun a => Fin.ext (by match a with | ⟨0, _⟩ => rfl | ⟨1, _⟩ => rfl)
  have e4 : ∀ k : Fin 128, idx_main_v51 (ridx_main_v52 (ix2 i j) k) = ix2 j k :=
    fun k => funext fun a => Fin.ext (by match a with | ⟨0, _⟩ => rfl | ⟨1, _⟩ => rfl)
  rw [val_main_v58_apply, val_main_v57_apply, val_main_v56_apply, val_main_cst_14_apply,
    val_main_v55_apply, val_main_v50_apply,
    val_main_v48_apply, val_main_v43_apply, val_main_v42_apply, val_main_cst_11_apply,
    val_main_v49_apply, val_main_v47_apply, val_main_v46_apply, val_main_v45_apply, val_main_cst_12_apply,
    val_main_v54_apply, val_main_v53_apply, val_main_cst_13_apply, val_main_v52_apply]
  simp only [val_main_v41_apply, val_main_v44_apply, val_main_v51_apply, e1, e2, e3, e4,
    Ideal.mulf_def, Ideal.addf_def, Ideal.subf_def, Ideal.ofBits_def, Ideal.hostUnary_exp_def,
    Ideal.ofBits_zero_f32, zero_add]
  rfl

/-- The third mean: the sum of the entries over all pairs of rows, divided by the word of `2²⁶`. -/
theorem mean_xy (x : (⟨S8192x128, .f32⟩ : BufTy).Contents (Elt Ideal)) (y : (⟨S8192x128, .f32⟩ : BufTy).Contents (Elt Ideal)) (i : S_.Idx) :
    val_main_v60 (F := Ideal) x y i = Ideal.div (pairSum x y) nSq := by
  rw [val_main_v60_apply, val_main_v59_apply, val_main_cst_15_apply, val_main_cst_16_apply]
  simp only [Ideal.hostDivf_def, Ideal.ofBits_def]
  exact mean_of_entry x y _ (entry_xy x y)

/-- The reference's result, as a function of its two argument arrays. -/
theorem ref_result (x y : (⟨S8192x128, .f32⟩ : BufTy).Contents (Elt Ideal)) :
    val_main_v62 (F := Ideal) x y = fun _ => stat (pairSum x x) (pairSum y y) (pairSum x y) := by
  funext i
  rw [val_main_v62_apply, val_main_v40_apply, val_main_v61_apply, val_main_cst_17_apply,
    mean_xx, mean_yy, mean_xy]
  simp only [Ideal.mulf_def, Ideal.addf_def, Ideal.subf_def, Ideal.ofBits_def]
  rfl

end Cert.ReferenceIdeal.RefValue

end
-- ==== Proof.RefFrame.lean ====
/-
  The reference program's frame: every weakly fair execution of its host program terminates without a fault and
  leaves both argument arrays as they were — its run with the result dropped.
-/
import proofs.«104465_j59356448031516_1_alg».proof.Defs
import proofs.«104465_j59356448031516_1_alg».proof.Proof.Gen.ReferenceIdeal.Run
import proofs.«104465_j59356448031516_1_alg».proof.Proof.Gen.ReferenceIdeal.Read

noncomputable section

open Idealize.ShloMosaic Idealize.ShloMosaic.TcCoe Idealize.SL.Sem

namespace Cert.Proof.RefFrame

/-- The reference runs to its end and keeps its arguments. -/
theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KI.Value.lean ====
/-
  The two idealized programs compute the same extended real.

  The kernel's program leaves, in the three calls' one-word arrays, the sums of the Gaussian-kernel entries over all
  pairs of rows of (x, x), (y, y) and (x, y); its thirteen host operations then form
  `s_xx / 2²⁶ + s_yy / 2²⁶ - (2 s_xy) / 2²⁶`. The reference forms `s_xx / 2²⁶ + s_yy / 2²⁶ - 2 (s_xy / 2²⁶)` of the same
  three sums. Doubling before or after the division is the same product on the extended reals, whatever the sums are.
-/
import proofs.«104465_j59356448031516_1_alg».proof.Proof.KI.Run
import proofs.«104465_j59356448031516_1_alg».proof.Proof.KI.R0Value
import proofs.«104465_j59356448031516_1_alg».proof.Proof.KI.R1Value
import proofs.«104465_j59356448031516_1_alg».proof.Proof.KI.R2Value
import proofs.«104465_j59356448031516_1_alg».proof.Proof.RefValue
import proofs.«104465_j59356448031516_1_alg».proof.Proof.RefFrame
import proofs.«104465_j59356448031516_1_alg».proof.Proof.Spec
import Idealize.ShloMosaic.Lib.StableHlo.Run

set_option maxRecDepth 16384

noncomputable section

namespace Cert.KernelIdeal.Hand

open Cert.KernelIdeal Cert.KernelIdeal.Gen Cert.MMD
open Idealize.ShloMosaic Idealize.ShloMosaic.TcCoe Idealize.ShloMosaic.Tactic
open Idealize.SL Idealize.SL.Sem

variable (m : (ℓ : Loc nD τ sig) → Buf (Elt Ideal) ℓ)

/-- The two argument arrays at launch. -/
abbrev argX (c : Dev nD) : Mat 8192 := m ((c : Thread nD τ).loc main_arg0)
abbrev argY (c : Dev nD) : Mat 8192 := m ((c : Thread nD τ).loc main_arg1)

/-! ## The three one-word sums -/

theorem res0_eq (c : Dev nD) : res0 m c = fun _ => pairSum (argX m c) (argX m c) :=
  final0 (Vr0 m) qHalf c

theorem res1_eq (c : Dev nD) : res1 m c = fun _ => pairSum (argY m c) (argY m c) := by
  have h := final1 (Vr1 m) qHalf c
  have e : opA1 (Vr1 m) c = argY m c :=
    Function.update_of_ne (StableHlo.devRef_ne_of_ne (by decide) : (Proc.devRef .tc main_arg1 : DevRef τ sig) ≠ Proc.devRef .tc main_v0) (res0 m c) (W0 m c)
  have e' : opB1 (Vr1 m) c = argY m c :=
    Function.update_of_ne (StableHlo.devRef_ne_of_ne (by decide) : (Proc.devRef .tc main_arg1 : DevRef τ sig) ≠ Proc.devRef .tc main_v0) (res0 m c) (W0 m c)
  rw [e, e'] at h
  exact h

theorem res2_eq (c : Dev nD) : res2 m c = fun _ => pairSum (argX m c) (argY m c) := by
  have h := final2 (Vr2 m) qFull c
  have e : opA2 (Vr2 m) c = argX m c :=
    (Function.update_of_ne (StableHlo.devRef_ne_of_ne (by decide) : (Proc.devRef .tc main_arg0 : DevRef τ sig) ≠ Proc.devRef .tc main_v1) (res1 m c) (W1 m c)).trans
      (Function.update_of_ne (StableHlo.devRef_ne_of_ne (by decide) : (Proc.devRef .tc main_arg0 : DevRef τ sig) ≠ Proc.devRef .tc main_v0) (res0 m c) (W0 m c))
  have e' : opB2 (Vr2 m) c = argY m c :=
    (Function.update_of_ne (StableHlo.devRef_ne_of_ne (by decide) : (Proc.devRef .tc main_arg1 : DevRef τ sig) ≠ Proc.devRef .tc main_v1) (res1 m c) (W1 m c)).trans
      (Function.update_of_ne (StableHlo.devRef_ne_of_ne (by decide) : (Proc.devRef .tc main_arg1 : DevRef τ sig) ≠ Proc.devRef .tc main_v0) (res0 m c) (W0 m c))
  rw [e, e'] at h
  exact h

/-- What the calls' one-word arrays hold when the host operations start. -/
theorem W3_v0 (c : Dev nD) : W3 m c (Proc.devRef .tc main_v0) = res0 m c :=
  (Function.update_of_ne (StableHlo.devRef_ne_of_ne (by decide) : (Proc.devRef .tc main_v0 : DevRef τ sig) ≠ Proc.devRef .tc main_v2) (res2 m c) (W2 m c)).trans <|
  (Function.update_of_ne (StableHlo.devRef_ne_of_ne (by decide) : (Proc.devRef .tc main_v0 : DevRef τ sig) ≠ Proc.devRef .tc main_v1) (res1 m c) (W1 m c)).trans <|
  Function.update_self (Proc.devRef .tc main_v0 : DevRef τ sig) (res0 m c) (W0 m c)
theorem W3_v1 (c : Dev nD) : W3 m c (Proc.devRef .tc main_v1) = res1 m c :=
  (Function.update_of_ne (StableHlo.devRef_ne_of_ne (by decide) : (Proc.devRef .tc main_v1 : DevRef τ sig) ≠ Proc.devRef .tc main_v2) (res2 m c) (W2 m c)).trans <|
  Function.update_self (Proc.devRef .tc main_v1 : DevRef τ sig) (res1 m c) (W1 m c)
theorem W3_v2 (c : Dev nD) : W3 m c (Proc.devRef .tc main_v2) = res2 m c :=
  Function.update_self (Proc.devRef .tc main_v2 : DevRef τ sig) (res2 m c) (W2 m c)

/-! ## The result -/

/-- The statistic of the two argument arrays. -/
abbrev statOf (c : Dev nD) : EReal :=
  stat (pairSum (argX m c) (argX m c)) (pairSum (argY m c) (argY m c)) (pairSum (argX m c) (argY m c))

/-- The kernel's program ends with the statistic in its result buffer. -/
theorem W4_v11 (c : Dev nD) : W4 m c (Proc.devRef .tc main_v11) = fun _ => statOf m c := by
  show StableHlo.after hostOps3 (W3 m c) (Proc.devRef .tc main_v11) = _
  after_results
  rw [W3_v0, W3_v1, W3_v2, res0_eq, res1_eq, res2_eq]
  funext i
  show (Ideal.div (pairSum (argX m c) (argX m c)) nSq + Ideal.div (pairSum (argY m c) (argY m c)) nSq)
      - Ideal.div (two * pairSum (argX m c) (argY m c)) nSq = statOf m c
  unfold statOf stat
  rw [two_mul_div]

/-- Every weakly fair execution of the kernel's idealized program terminates with the statistic in its result buffer and
    both arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v11) = (fun _ => statOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v11 (by decide))).trans (W4_v11 m c),
     (h c _ (mem_uc main_arg0 (by decide))).trans (W4_arg0 m c),
     (h c _ (mem_uc main_arg1 (by decide))).trans (W4_arg1 m c)⟩) (run (F := Ideal) m ρ)

end Cert.KernelIdeal.Hand

end
-- ==== Proof.lean ====
/-
  The certificate's claim: the kernel (three calls of a Pallas kernel that sums Gaussian-kernel entries tile by tile,
  followed by host arithmetic) and its jnp reference compute the same maximum-mean-discrepancy statistic on the
  extended reals, and each program runs to its end without a fault, leaving its arguments unchanged.

  The frames of the kernel's two printings come from one run of @main as three regions and a host stretch; the
  reference's frame is its run with the result dropped; the idealization rewrote nothing; and the two idealized
  programs end at one and the same extended real, the statistic of the argument arrays.
-/
import proofs.«104465_j59356448031516_1_alg».proof.Defs
import proofs.«104465_j59356448031516_1_alg».proof.Proof.Gen.Kernel
import proofs.«104465_j59356448031516_1_alg».proof.Proof.Gen.KernelIdeal
import proofs.«104465_j59356448031516_1_alg».proof.Proof.Gen.ReferenceIdeal
import proofs.«104465_j59356448031516_1_alg».proof.Proof.Gen.Pre_finite_inputs
import proofs.«104465_j59356448031516_1_alg».proof.Proof.K.Run
import proofs.«104465_j59356448031516_1_alg».proof.Proof.KI.Run
import proofs.«104465_j59356448031516_1_alg».proof.Proof.KI.Value
import proofs.«104465_j59356448031516_1_alg».proof.Proof.RefFrame
import proofs.«104465_j59356448031516_1_alg».proof.Proof.RefValue
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs to its end and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- From memories that agree on the arguments both idealized programs end with the statistic of those arguments. -/
theorem algebraic : Cert.algebraic_KernelIdeal_ReferenceIdeal := by
  intro m ρ m' ρ' _ hagree
  refine ⟨fun c => fun _ => Cert.KernelIdeal.Hand.statOf m c, Cert.KernelIdeal.Hand.run_value m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v62_eq _ _).trans ((Cert.ReferenceIdeal.RefValue.ref_result _ _).trans ?_))
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, RefFrame.frame_ri, trivial, algebraic⟩

end Cert.Proof

end
